-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x4096 : Shape := ⟨3, ![8, 512, 4096]⟩
abbrev S8x512 : Shape := ⟨2, ![8, 512]⟩
abbrev S32000x4096 : Shape := ⟨2, ![32000, 4096]⟩
abbrev S_ : Shape := ⟨0, ![]⟩
abbrev S8 : Shape := ⟨1, ![8]⟩

class Facts : Prop where
  bcast_S_S8x512x4096 : S_.BroadcastsInDim S8x512x4096 (![] : Fin 0 → Fin S8x512x4096.rank)
  reducesTo_S8x512x4096_S_d0_1_2 : S8x512x4096.ReducesTo [0, 1, 2] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S8x512 : S_.BroadcastsInDim S8x512 (![] : Fin 0 → Fin S8x512.rank)
  reducesTo_S8x512_S_d0_1 : S8x512.ReducesTo [0, 1] S_
  reducesTo_S8x512_S8_d1 : S8x512.ReducesTo [1] S8
  reducesTo_S8_S_d0 : S8.ReducesTo [0] S_

variable [Facts]

def fn_part2 {F : FTy → Type} [FloatOps F] (main_v28 : IVec S_ 1) (main_v32 : IVec S_ 1) : IVec S_ 1 :=
  let main_v33 : IVec S_ 1 := andi main_v28 main_v32
  main_v33

def fn_part1 {F : FTy → Type} [FloatOps F] (main_arg2 : IVec S8x512 32) (main_v13 : IVec S_ 1) (main_v16 : IVec S32000x4096 1) : IVec S_ 1 :=
  let main_c_5 : IVec S_ 1 := constantI S_ 1 1#1
  let main_v17 : IVec S_ 1 := (fun x v => Host.reduce IntOp.andi x v reducesTo_S32000x4096_S_d0_1 h_S_) main_v16 main_c_5
  let main_v18 : IVec S_ 1 := andi main_v13 main_v17
  let main_c_6 : IVec S_ 32 := constantI S_ 32 4294967196#32
  let main_v19 : IVec S8x512 32 := broadcastInDim S8x512 ![] bcast_S_S8x512 main_c_6
  let main_v20 : IVec S8x512 1 := cmpi .eq main_arg2 main_v19
  let main_c_7 : IVec S_ 32 := constantI S_ 32 0#32
  let main_v21 : IVec S8x512 32 := broadcastInDim S8x512 ![] bcast_S_S8x512 main_c_7
  let main_v22 : IVec S8x512 1 := cmpi .sge main_arg2 main_v21
  let main_c_8 : IVec S_ 32 := constantI S_ 32 32000#32
  let main_v23 : IVec S8x512 32 := broadcastInDim S8x512 ![] bcast_S_S8x512 main_c_8
  let main_v24 : IVec S8x512 1 := cmpi .slt main_arg2 main_v23
  let main_v25 : IVec S8x512 1 := andi main_v22 main_v24
  let main_v26 : IVec S8x512 1 := ori main_v20 main_v25
  let main_c_9 : IVec S_ 1 := constantI S_ 1 1#1
  let main_v27 : IVec S_ 1 := (fun x v => Host.reduce IntOp.andi x v reducesTo_S8x512_S_d0_1 h_S_) main_v26 main_c_9
  let main_v28 : IVec S_ 1 := andi main_v18 main_v27
  let main_c_10 : IVec S_ 32 := constantI S_ 32 4294967196#32
  let main_v29 : IVec S8x512 32 := broadcastInDim S8x512 ![] bcast_S_S8x512 main_c_10
  let main_v30 : IVec S8x512 1 := cmpi .ne main_arg2 main_v29
  let main_c_11 : IVec S_ 1 := constantI S_ 1 0#1
  let main_v31 : IVec S8 1 := (fun x v => Host.reduce IntOp.ori x v reducesTo_S8x512_S8_d1 h_S_) main_v30 main_c_11
  let main_c_12 : IVec S_ 1 := constantI S_ 1 1#1
  let main_v32 : IVec S_ 1 := (fun x v => Host.reduce IntOp.andi x v reducesTo_S8_S_d0 h_S_) main_v31 main_c_12
  fn_part2 (F := F) main_v28 main_v32

def fn {F : FTy → Type} [FloatOps F] (main_arg0 : FVec F S8x512x4096 .f32) (main_arg1 : FVec F S8x512x4096 .f32) (main_arg2 : IVec S8x512 32) (main_arg3 : FVec F S32000x4096 .f32) (main_arg4 : FVec F S32000x4096 .f32) : IVec S_ 1 :=
  let main_v0 : FVec F S8x512x4096 .f32 := Host.absf main_arg0
  let main_cst : FVec F S_ .f32 := constant S_ .f32 0x7F800000#32
  let main_v1 : FVec F S8x512x4096 .f32 := broadcastInDim S8x512x4096 ![] bcast_S_S8x512x4096 main_cst
  let main_v2 : IVec S8x512x4096 1 := cmpf .olt main_v0 main_v1
  let main_c : IVec S_ 1 := constantI S_ 1 1#1
  let main_v3 : IVec S_ 1 := (fun x v => Host.reduce IntOp.andi x v reducesTo_S8x512x4096_S_d0_1_2 h_S_) main_v2 main_c
  let main_v4 : FVec F S8x512x4096 .f32 := Host.absf main_arg1
  let main_cst_0 : FVec F S_ .f32 := constant S_ .f32 0x7F800000#32
  let main_v5 : FVec F S8x512x4096 .f32 := broadcastInDim S8x512x4096 ![] bcast_S_S8x512x4096 main_cst_0
  let main_v6 : IVec S8x512x4096 1 := cmpf .olt main_v4 main_v5
  let main_c_1 : IVec S_ 1 := constantI S_ 1 1#1
  let main_v7 : IVec S_ 1 := (fun x v => Host.reduce IntOp.andi x v reducesTo_S8x512x4096_S_d0_1_2 h_S_) main_v6 main_c_1
  let main_v8 : IVec S_ 1 := andi main_v3 main_v7
  let main_v9 : FVec F S32000x4096 .f32 := Host.absf main_arg3
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S32000x4096 .f32 := Host.absf main_arg4
  let main_cst_4 : FVec F S_ .f32 := constant S_ .f32 0x7F800000#32
  let main_v15 : FVec F S32000x4096 .f32 := broadcastInDim S32000x4096 ![] bcast_S_S32000x4096 main_cst_4
  let main_v16 : IVec S32000x4096 1 := cmpf .olt main_v14 main_v15
  fn_part1 (F := F) main_arg2 main_v13 main_v16
-- ==== Kernel.lean ====
abbrev S8x512x4096 : Shape := ⟨3, ![8, 512, 4096]⟩
abbrev S8x512 : Shape := ⟨2, ![8, 512]⟩
abbrev S32000x4096 : Shape := ⟨2, ![32000, 4096]⟩
abbrev S_ : Shape := ⟨0, ![]⟩
abbrev S4096x1 : Shape := ⟨2, ![4096, 1]⟩
abbrev S8 : Shape := ⟨1, ![8]⟩
abbrev S4096x4096 : Shape := ⟨2, ![4096, 4096]⟩
abbrev S1x4096x4096 : Shape := ⟨3, ![1, 4096, 4096]⟩
abbrev S2x4096x4096 : Shape := ⟨3, ![2, 4096, 4096]⟩
abbrev S1x32000x4096 : Shape := ⟨3, ![1, 32000, 4096]⟩
abbrev S2x32000x4096 : Shape := ⟨3, ![2, 32000, 4096]⟩
abbrev S2x4096x1 : Shape := ⟨3, ![2, 4096, 1]⟩
abbrev S1x512x4096 : Shape := ⟨3, ![1, 512, 4096]⟩
abbrev S1x1280x4096 : Shape := ⟨3, ![1, 1280, 4096]⟩
abbrev S512x1 : Shape := ⟨2, ![512, 1]⟩
abbrev S1x512x1 : Shape := ⟨3, ![1, 512, 1]⟩
abbrev S512x4096 : Shape := ⟨2, ![512, 4096]⟩
abbrev S1280x4096 : Shape := ⟨2, ![1280, 4096]⟩
abbrev S512x1280 : Shape := ⟨2, ![512, 1280]⟩
abbrev S512 : Shape := ⟨1, ![512]⟩
abbrev S1x4096x1 : Shape := ⟨3, ![1, 4096, 1]⟩
abbrev S4 : Shape := ⟨1, ![4]⟩

abbrev nBuf : Space → Nat
  | .hbm => 77
  | .vmem => 11
  | .smem => 0
  | _ => 0

abbrev bufTy : (tb : Table) → Fin (tcTables nBuf tb) → BufTy
  | .hbm, ⟨0, _⟩ => ⟨S8x512x4096, .f32⟩
  | .hbm, ⟨1, _⟩ => ⟨S8x512x4096, .f32⟩
  | .hbm, ⟨2, _⟩ => ⟨S8x512, .i32⟩
  | .hbm, ⟨3, _⟩ => ⟨S32000x4096, .f32⟩
  | .hbm, ⟨4, _⟩ => ⟨S32000x4096, .f32⟩
  | .hbm, ⟨5, _⟩ => ⟨S_, .i32⟩
  | .hbm, ⟨6, _⟩ => ⟨S8x512, .i32⟩
  | .hbm, ⟨7, _⟩ => ⟨S8x512, .i1⟩
  | .hbm, ⟨8, _⟩ => ⟨S_, .i32⟩
  | .hbm, ⟨9, _⟩ => ⟨S_, .i32⟩
  | .hbm, ⟨10, _⟩ => ⟨S8x512, .i32⟩
  | .hbm, ⟨11, _⟩ => ⟨S8x512, .i32⟩
  | .hbm, ⟨12, _⟩ => ⟨S4096x1, .i32⟩
  | .hbm, ⟨13, _⟩ => ⟨S8x512, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4096x4096, .f32⟩
  | .hbm, ⟨20, _⟩ => ⟨S4096x4096, .bf16⟩
  | .hbm, ⟨21, _⟩ => ⟨S4096x4096, .f32⟩
  | .hbm, ⟨22, _⟩ => ⟨S4096x4096, .bf16⟩
  | .hbm, ⟨23, _⟩ => ⟨S1x4096x4096, .bf16⟩
  | .hbm, ⟨24, _⟩ => ⟨S1x4096x4096, .bf16⟩
  | .hbm, ⟨25, _⟩ => ⟨S2x4096x4096, .bf16⟩
  | .hbm, ⟨26, _⟩ => ⟨S32000x4096, .bf16⟩
  | .hbm, ⟨27, _⟩ => ⟨S32000x4096, .bf16⟩
  | .hbm, ⟨28, _⟩ => ⟨S1x32000x4096, .bf16⟩
  | .hbm, ⟨29, _⟩ => ⟨S1x32000x4096, .bf16⟩
  | .hbm, ⟨30, _⟩ => ⟨S2x32000x4096, .bf16⟩
  | .hbm, ⟨31, _⟩ => ⟨S2x4096x1, .f32⟩
  | .hbm, ⟨32, _⟩ => ⟨S1x4096x1, .f32⟩
  | .hbm, ⟨33, _⟩ => ⟨S4096x1, .f32⟩
  | .hbm, ⟨34, _⟩ => ⟨S8x512, .f32⟩
  | .hbm, ⟨35, _⟩ => ⟨S1x4096x1, .f32⟩
  | .hbm, ⟨36, _⟩ => ⟨S4096x1, .f32⟩
  | .hbm, ⟨37, _⟩ => ⟨S8x512, .f32⟩
  | .hbm, ⟨38, _⟩ => ⟨S8x512, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8x512, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S4, .f32⟩
  | .hbm, ⟨50, _⟩ => ⟨S4, .f32⟩
  | .hbm, ⟨51, _⟩ => ⟨S4, .f32⟩
  | .hbm, ⟨52, _⟩ => ⟨S4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4, .f32⟩
  | .hbm, ⟨57, _⟩ => ⟨S_, .f32⟩
  | .hbm, ⟨58, _⟩ => ⟨S4, .f32⟩
  | .hbm, ⟨59, _⟩ => ⟨S4, .f32⟩
  | .hbm, ⟨60, _⟩ => ⟨S4, .f32⟩
  | .hbm, ⟨61, _⟩ => ⟨S4, .f32⟩
  | .hbm, ⟨62, _⟩ => ⟨S4, .i1⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S4, .f32⟩
  | .hbm, ⟨71, _⟩ => ⟨S4, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .local _ .vmem, ⟨0, _⟩ => ⟨S1x512x4096, .bf16⟩
  | .local _ .vmem, ⟨1, _⟩ => ⟨S1x512x4096, .bf16⟩
  | .local _ .vmem, ⟨2, _⟩ => ⟨S1x1280x4096, .bf16⟩
  | .local _ .vmem, ⟨3, _⟩ => ⟨S1x1280x4096, .bf16⟩
  | .local _ .vmem, ⟨4, _⟩ => ⟨S512x1, .i32⟩
  | .local _ .vmem, ⟨5, _⟩ => ⟨S512x1, .i32⟩
  | .local _ .vmem, ⟨6, _⟩ => ⟨S1x512x1, .f32⟩
  | .local _ .vmem, ⟨7, _⟩ => ⟨S1x512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_call1_v0 : Ref sig .tc := ⟨.hbm, 56, rfl⟩
abbrev main_call1_call0_cst : Ref sig .tc := ⟨.hbm, 57, rfl⟩
abbrev main_call1_call0_v0 : Ref sig .tc := ⟨.hbm, 58, rfl⟩
abbrev main_call1_call0_v1 : Ref sig .tc := ⟨.hbm, 59, rfl⟩
abbrev main_call1_call0_v2 : Ref sig .tc := ⟨.hbm, 60, rfl⟩
abbrev main_call1_call0_v3 : Ref sig .tc := ⟨.hbm, 61, rfl⟩
abbrev main_call1_call0_v4 : Ref sig .tc := ⟨.hbm, 62, rfl⟩
abbrev main_call1_call0_v5 : Ref sig .tc := ⟨.hbm, 63, rfl⟩
abbrev main_call1_call0_v6 : Ref sig .tc := ⟨.hbm, 64, rfl⟩
abbrev main_call1_call0_v7 : Ref sig .tc := ⟨.hbm, 65, rfl⟩
abbrev main_call1_call0_v8 : Ref sig .tc := ⟨.hbm, 66, rfl⟩
abbrev main_call1_call0_v9 : Ref sig .tc := ⟨.hbm, 67, rfl⟩
abbrev main_call1_call0_v10 : Ref sig .tc := ⟨.hbm, 68, rfl⟩
abbrev main_call1_call0_v11 : Ref sig .tc := ⟨.hbm, 69, rfl⟩
abbrev main_call1_v1 : Ref sig .tc := ⟨.hbm, 70, rfl⟩
abbrev main_v42 : Ref sig .tc := ⟨.hbm, 71, rfl⟩
abbrev main_cst_5 : Ref sig .tc := ⟨.hbm, 72, rfl⟩
abbrev main_v43 : Ref sig .tc := ⟨.hbm, 73, rfl⟩
abbrev main_v44 : Ref sig .tc := ⟨.hbm, 74, rfl⟩
abbrev main_cst_6 : Ref sig .tc := ⟨.hbm, 75, rfl⟩
abbrev main_v45 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 25], ![false, false, false]⟩

def k0_cond2 (i : grid0.Coords) : BitVec 1 :=
  let arg2 : BitVec 32 := BitVec.ofNat 32 (i 2).val
  let c24_i32 : BitVec 32 := 24#32
  let v45 : BitVec 1 := Scalar.cmpi .eq arg2 c24_i32
  let v46 : BitVec 32 := Scalar.extui v45
  let c0_i32_24 : BitVec 32 := 0#32
  let v47 : BitVec 1 := Scalar.cmpi .ne v46 c0_i32_24
  v47

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8x512 : S_.BroadcastsInDim S8x512 (![] : Fin 0 → Fin S8x512.rank)
  shapeCasts_S8x512_S4096x1 : S8x512.ShapeCasts S4096x1
  reducesTo_S8x512_S8_d1 : S8x512.ReducesTo [1] S8
  h_S_ : 0 < S_.numel
  bcast_S_S8 : S_.BroadcastsInDim S8 (![] : Fin 0 → Fin S8.rank)
  shapeCasts_S8x512x4096_S4096x4096 : S8x512x4096.ShapeCasts S4096x4096
  bitsLt_bf16_f32 : FTy.bits .bf16 < FTy.bits .f32
  bcast_S4096x4096_S1x4096x4096_1_2 : S4096x4096.BroadcastsInDim S1x4096x4096 (![1, 2] : Fin 2 → Fin S1x4096x4096.rank)
  concatenates_S1x4096x4096_S1x4096x4096_S2x4096x4096_d0 : Shape.Concatenates [S1x4096x4096, S1x4096x4096] S2x4096x4096 0
  bcast_S32000x4096_S1x32000x4096_1_2 : S32000x4096.BroadcastsInDim S1x32000x4096 (![1, 2] : Fin 2 → Fin S1x32000x4096.rank)
  concatenates_S1x32000x4096_S1x32000x4096_S2x32000x4096_d0 : Shape.Concatenates [S1x32000x4096, S1x32000x4096] S2x32000x4096 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  inb_S1x1280x4096_S1x1280x4096_0_0_0 : ∀ a, (![0, 0, 0] : Fin 3 → Nat) a + S1x1280x4096.size a ≤ S1x1280x4096.size a
  h_S1x1280x4096 : 0 < S1x1280x4096.numel
  shapeCasts_S1x1280x4096_S1280x4096 : S1x1280x4096.ShapeCasts S1280x4096
  iota_S512x1280_d1_w32 : S512x1280.Iotas .tc 32 [1]
  broadcasts_S512x1_S512x1280 : S512x1.Broadcasts S512x1280
  reduces_S512x1280_S512 : S512x1280.Reduces [1] S512
  shapeCasts_S512_S512x1 : S512.ShapeCasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x4096x1_S1x4096x1_0_0_0 : S2x4096x1.Slices ![0, 0, 0] S1x4096x1
  shapeCasts_S1x4096x1_S4096x1 : S1x4096x1.ShapeCasts S4096x1
  shapeCasts_S4096x1_S8x512 : S4096x1.ShapeCasts S8x512
  slices_S2x4096x1_S1x4096x1_1_0_0 : S2x4096x1.Slices ![1, 0, 0] S1x4096x1
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S512x4096_S1280x4096_S512x1280_1_1_0_0_n_n_wf : DotDims.WF S512x4096 S1280x4096 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S2x4096x4096.size a
  hwx0_0 : ∀ i : grid0.Coords, EltTy.bits .bf16 = 32 ∨ (Rect.block (s := S2x4096x4096) S1x512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1280x4096.size a ≤ S2x32000x4096.size a
  hwx0_1 : ∀ i : grid0.Coords, EltTy.bits .bf16 = 32 ∨ (Rect.block (s := S2x32000x4096) S1x1280x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x4096x1.size a
  hwx0_3 : ∀ i : grid0.Coords, EltTy.bits .f32 = 32 ∨ (Rect.block (s := S2x4096x1) S1x512x1.size (cc0_transform_3 i) (hinb0_3 i)).WholeWords (EltTy.packing .f32)

variable [Facts₀]

def dot_S512x4096_S1280x4096_S512x1280_1_1_0_0_n_n : DotDims S512x4096 S1280x4096 S512x1280 where
  lhsContracting := [1]
  rhsContracting := [1]
  lhsNonContracting := [0]
  rhsNonContracting := [0]
  lhsBatch := []
  rhsBatch := []
  wf := dot_S512x4096_S1280x4096_S512x1280_1_1_0_0_n_n_wf

abbrev win0_0 : Pipeline.Window sig grid0 :=
  Pipeline.Window.ofSpec (Memref.whole main_v14) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x512x4096 : Shape := ⟨3, ![8, 512, 4096]⟩
abbrev S8x512 : Shape := ⟨2, ![8, 512]⟩
abbrev S32000x4096 : Shape := ⟨2, ![32000, 4096]⟩
abbrev S8x512x32000 : Shape := ⟨3, ![8, 512, 32000]⟩
abbrev S_ : Shape := ⟨0, ![]⟩
abbrev S8x512x1 : Shape := ⟨3, ![8, 512, 1]⟩
abbrev S8x512x1x1 : Shape := ⟨4, ![8, 512, 1, 1]⟩
abbrev S1 : Shape := ⟨1, ![1]⟩
abbrev S1x1x1x1 : Shape := ⟨4, ![1, 1, 1, 1]⟩
abbrev S8 : Shape := ⟨1, ![8]⟩
abbrev S4 : Shape := ⟨1, ![4]⟩

abbrev nBuf : Space → Nat
  | .hbm => 144
  | .vmem => 0
  | .smem => 0
  | _ => 0

abbrev hbmTy0_0 (i : Nat) : BufTy := match i % 128 with
  | 0 => ⟨S8x512x4096, .f32⟩
  | 1 => ⟨S8x512x4096, .f32⟩
  | 2 => ⟨S8x512, .i32⟩
  | 3 => ⟨S32000x4096, .f32⟩
  | 4 => ⟨S32000x4096, .f32⟩
  | 5 => ⟨S8x512x32000, .f32⟩
  | 6 => ⟨S_, .f32⟩
  | 7 => ⟨S8x512, .f32⟩
  | 8 => ⟨S_, .f32⟩
  | 9 => ⟨S8x512, .f32⟩
  | 10 => ⟨S8x512, .f32⟩
  | 11 => ⟨S8x512x1, .f32⟩
  | 12 => ⟨S8x512x32000, .f32⟩
  | 13 => ⟨S8x512x32000, .f32⟩
  | 14 => ⟨S8x512x32000, .f32⟩
  | 15 => ⟨S_, .f32⟩
  | 16 => ⟨S8x512, .f32⟩
  | 17 => ⟨S8x512x1, .f32⟩
  | 18 => ⟨S8x512x1, .f32⟩
  | 19 => ⟨S8x512x32000, .f32⟩
  | 20 => ⟨S8x512x32000, .f32⟩
  | 21 => ⟨S_, .i32⟩
  | 22 => ⟨S8x512, .i32⟩
  | 23 => ⟨S8x512, .i1⟩
  | 24 => ⟨S_, .i32⟩
  | 25 => ⟨S_, .i32⟩
  | 26 => ⟨S8x512, .i32⟩
  | 27 => ⟨S8x512, .i32⟩
  | 28 => ⟨S8x512x1, .i32⟩
  | 29 => ⟨S_, .i32⟩
  | 30 => ⟨S8x512x1, .i32⟩
  | 31 => ⟨S8x512x1, .i1⟩
  | 32 => ⟨S_, .i32⟩
  | 33 => ⟨S8x512x1, .i32⟩
  | 34 => ⟨S8x512x1, .i32⟩
  | 35 => ⟨S8x512x1, .i32⟩
  | 36 => ⟨S8x512x1x1, .i32⟩
  | 37 => ⟨S1, .i32⟩
  | 38 => ⟨S_, .i32⟩
  | 39 => ⟨S8x512x1x1, .i32⟩
  | 40 => ⟨S8x512x1x1, .i1⟩
  | 41 => ⟨S1x1x1x1, .i32⟩
  | 42 => ⟨S8x512x1x1, .i32⟩
  | 43 => ⟨S8x512x1x1, .i1⟩
  | 44 => ⟨S8x512x1x1, .i1⟩
  | 45 => ⟨S_, .i1⟩
  | 46 => ⟨S8x512x1, .i1⟩
  | 47 => ⟨S8x512x1, .f32⟩
  | 48 => ⟨S_, .f32⟩
  | 49 => ⟨S8x512x1, .f32⟩
  | 50 => ⟨S8x512x1, .f32⟩
  | 51 => ⟨S8x512, .f32⟩
  | 52 => ⟨S8x512, .f32⟩
  | 53 => ⟨S8x512, .f32⟩
  | 54 => ⟨S_, .f32⟩
  | 55 => ⟨S8, .f32⟩
  | 56 => ⟨S_, .f32⟩
  | 57 => ⟨S8, .f32⟩
  | 58 => ⟨S8, .f32⟩
  | 59 => ⟨S8x512x32000, .f32⟩
  | 60 => ⟨S_, .f32⟩
  | 61 => ⟨S8x512, .f32⟩
  | 62 => ⟨S_, .f32⟩
  | 63 => ⟨S8x512, .f32⟩
  | 64 => ⟨S8x512, .f32⟩
  | 65 => ⟨S8x512x1, .f32⟩
  | 66 => ⟨S8x512x32000, .f32⟩
  | 67 => ⟨S8x512x32000, .f32⟩
  | 68 => ⟨S8x512x32000, .f32⟩
  | 69 => ⟨S_, .f32⟩
  | 70 => ⟨S8x512, .f32⟩
  | 71 => ⟨S8x512x1, .f32⟩
  | 72 => ⟨S8x512x1, .f32⟩
  | 73 => ⟨S8x512x32000, .f32⟩
  | 74 => ⟨S8x512x32000, .f32⟩
  | 75 => ⟨S_, .i32⟩
  | 76 => ⟨S8x512, .i32⟩
  | 77 => ⟨S8x512, .i1⟩
  | 78 => ⟨S_, .i32⟩
  | 79 => ⟨S_, .i32⟩
  | 80 => ⟨S8x512, .i32⟩
  | 81 => ⟨S8x512, .i32⟩
  | 82 => ⟨S8x512x1, .i32⟩
  | 83 => ⟨S_, .i32⟩
  | 84 => ⟨S8x512x1, .i32⟩
  | 85 => ⟨S8x512x1, .i1⟩
  | 86 => ⟨S_, .i32⟩
  | 87 => ⟨S8x512x1, .i32⟩
  | 88 => ⟨S8x512x1, .i32⟩
  | 89 => ⟨S8x512x1, .i32⟩
  | 90 => ⟨S8x512x1x1, .i32⟩
  | 91 => ⟨S1, .i32⟩
  | 92 => ⟨S_, .i32⟩
  | 93 => ⟨S8x512x1x1, .i32⟩
  | 94 => ⟨S8x512x1x1, .i1⟩
  | 95 => ⟨S1x1x1x1, .i32⟩
  | 96 => ⟨S8x512x1x1, .i32⟩
  | 97 => ⟨S8x512x1x1, .i1⟩
  | 98 => ⟨S8x512x1x1, .i1⟩
  | 99 => ⟨S_, .i1⟩
  | 100 => ⟨S8x512x1, .i1⟩
  | 101 => ⟨S8x512x1, .f32⟩
  | 102 => ⟨S_, .f32⟩
  | 103 => ⟨S8x512x1, .f32⟩
  | 104 => ⟨S8x512x1, .f32⟩
  | 105 => ⟨S8x512, .f32⟩
  | 106 => ⟨S8x512, .f32⟩
  | 107 => ⟨S8x512, .f32⟩
  | 108 => ⟨S_, .f32⟩
  | 109 => ⟨S8, .f32⟩
  | 110 => ⟨S_, .f32⟩
  | 111 => ⟨S8, .f32⟩
  | 112 => ⟨S8, .f32⟩
  | 113 => ⟨S4, .f32⟩
  | 114 => ⟨S4, .f32⟩
  | 115 => ⟨S4, .f32⟩
  | 116 => ⟨S4, .f32⟩
  | 117 => ⟨S4, .f32⟩
  | 118 => ⟨S4, .f32⟩
  | 119 => ⟨S4, .f32⟩
  | 120 => ⟨S_, .f32⟩
  | 121 => ⟨S4, .f32⟩
  | 122 => ⟨S4, .f32⟩
  | 123 => ⟨S4, .f32⟩
  | 124 => ⟨S_, .f32⟩
  | 125 => ⟨S4, .f32⟩
  | 126 => ⟨S4, .f32⟩
  | 127 => ⟨S4, .f32⟩
  | _ => ⟨S8x512x4096, .f32⟩

abbrev hbmTy0_1 (i : Nat) : BufTy := match i % 128 with
  | 0 => ⟨S4, .f32⟩
  | 1 => ⟨S4, .i1⟩
  | 2 => ⟨S4, .f32⟩
  | 3 => ⟨S4, .f32⟩
  | 4 => ⟨S4, .f32⟩
  | 5 => ⟨S4, .f32⟩
  | 6 => ⟨S4, .f32⟩
  | 7 => ⟨S4, .f32⟩
  | 8 => ⟨S4, .f32⟩
  | 9 => ⟨S4, .f32⟩
  | 10 => ⟨S4, .f32⟩
  | 11 => ⟨S_, .f32⟩
  | 12 => ⟨S_, .f32⟩
  | 13 => ⟨S_, .f32⟩
  | 14 => ⟨S_, .f32⟩
  | 15 => ⟨S_, .f32⟩
  | _ => ⟨S8x512x4096, .f32⟩

abbrev hbmTy (i : Nat) : BufTy := match i / 128 with
  | 0 => hbmTy0_0 i
  | 1 => hbmTy0_1 i
  | _ => ⟨S8x512x4096, .f32⟩

abbrev bufTy : (tb : Table) → Fin (tcTables nBuf tb) → BufTy
  | .hbm, ⟨i, _⟩ => hbmTy i
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_call1_v0 : Ref sig .tc := ⟨.hbm, 25, rfl⟩
abbrev main_call1_v1 : Ref sig .tc := ⟨.hbm, 26, rfl⟩
abbrev main_v4 : Ref sig .tc := ⟨.hbm, 27, rfl⟩
abbrev main_v5 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_cst : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_call3_cst : Ref sig .tc := ⟨.hbm, 60, rfl⟩
abbrev main_call3_v0 : Ref sig .tc := ⟨.hbm, 61, rfl⟩
abbrev main_call3_cst_0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_cst_1 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_v14 : Ref sig .tc := ⟨.hbm, 74, rfl⟩
abbrev main_c_2 : Ref sig .tc := ⟨.hbm, 75, rfl⟩
abbrev main_v15 : Ref sig .tc := ⟨.hbm, 76, rfl⟩
abbrev main_v16 : Ref sig .tc := ⟨.hbm, 77, rfl⟩
abbrev main_c_3 : Ref sig .tc := ⟨.hbm, 78, rfl⟩
abbrev main_call4_v0 : Ref sig .tc := ⟨.hbm, 79, rfl⟩
abbrev main_call4_v1 : Ref sig .tc := ⟨.hbm, 80, rfl⟩
abbrev main_v17 : Ref sig .tc := ⟨.hbm, 81, rfl⟩
abbrev main_v18 : Ref sig .tc := ⟨.hbm, 82, rfl⟩
abbrev main_call5_c : Ref sig .tc := ⟨.hbm, 83, rfl⟩
abbrev main_call5_v0 : Ref sig .tc := ⟨.hbm, 84, rfl⟩
abbrev main_call5_v1 : Ref sig .tc := ⟨.hbm, 85, rfl⟩
abbrev main_call5_c_0 : Ref sig .tc := ⟨.hbm, 86, rfl⟩
abbrev main_call5_v2 : Ref sig .tc := ⟨.hbm, 87, rfl⟩
abbrev main_call5_v3 : Ref sig .tc := ⟨.hbm, 88, rfl⟩
abbrev main_call5_v4 : Ref sig .tc := ⟨.hbm, 89, rfl⟩
abbrev main_call5_v5 : Ref sig .tc := ⟨.hbm, 90, rfl⟩
abbrev main_call5_c_1 : Ref sig .tc := ⟨.hbm, 91, rfl⟩
abbrev main_call5_c_2 : Ref sig .tc := ⟨.hbm, 92, rfl⟩
abbrev main_call5_v6 : Ref sig .tc := ⟨.hbm, 93, rfl⟩
abbrev main_call5_v7 : Ref sig .tc := ⟨.hbm, 94, rfl⟩
abbrev main_call5_v8 : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_c_3 : Ref sig .tc := ⟨.hbm, 99, rfl⟩
abbrev main_call5_v12 : Ref sig .tc := ⟨.hbm, 100, rfl⟩
abbrev main_call5_v13 : Ref sig .tc := ⟨.hbm, 101, rfl⟩
abbrev main_call5_cst : Ref sig .tc := ⟨.hbm, 102, rfl⟩
abbrev main_call5_v14 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_cst_4 : Ref sig .tc := ⟨.hbm, 108, rfl⟩
abbrev main_v23 : Ref sig .tc := ⟨.hbm, 109, rfl⟩
abbrev main_cst_5 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_v32 : Ref sig .tc := ⟨.hbm, 119, rfl⟩
abbrev main_cst_6 : Ref sig .tc := ⟨.hbm, 120, rfl⟩
abbrev main_v33 : Ref sig .tc := ⟨.hbm, 121, rfl⟩
abbrev main_v34 : Ref sig .tc := ⟨.hbm, 122, rfl⟩
abbrev main_call6_v0 : Ref sig .tc := ⟨.hbm, 123, rfl⟩
abbrev main_call6_call0_cst : Ref sig .tc := ⟨.hbm, 124, rfl⟩
abbrev main_call6_call0_v0 : Ref sig .tc := ⟨.hbm, 125, rfl⟩
abbrev main_call6_call0_v1 : Ref sig .tc := ⟨.hbm, 126, rfl⟩
abbrev main_call6_call0_v2 : Ref sig .tc := ⟨.hbm, 127, rfl⟩
abbrev main_call6_call0_v3 : Ref sig .tc := ⟨.hbm, 128, rfl⟩
abbrev main_call6_call0_v4 : Ref sig .tc := ⟨.hbm, 129, rfl⟩
abbrev main_call6_call0_v5 : Ref sig .tc := ⟨.hbm, 130, rfl⟩
abbrev main_call6_call0_v6 : Ref sig .tc := ⟨.hbm, 131, rfl⟩
abbrev main_call6_call0_v7 : Ref sig .tc := ⟨.hbm, 132, rfl⟩
abbrev main_call6_call0_v8 : Ref sig .tc := ⟨.hbm, 133, rfl⟩
abbrev main_call6_call0_v9 : Ref sig .tc := ⟨.hbm, 134, rfl⟩
abbrev main_call6_call0_v10 : Ref sig .tc := ⟨.hbm, 135, rfl⟩
abbrev main_call6_call0_v11 : Ref sig .tc := ⟨.hbm, 136, rfl⟩
abbrev main_call6_v1 : Ref sig .tc := ⟨.hbm, 137, rfl⟩
abbrev main_v35 : Ref sig .tc := ⟨.hbm, 138, rfl⟩
abbrev main_cst_7 : Ref sig .tc := ⟨.hbm, 139, rfl⟩
abbrev main_v36 : Ref sig .tc := ⟨.hbm, 140, rfl⟩
abbrev main_v37 : Ref sig .tc := ⟨.hbm, 141, rfl⟩
abbrev main_cst_8 : Ref sig .tc := ⟨.hbm, 142, rfl⟩
abbrev main_v38 : Ref sig .tc := ⟨.hbm, 143, rfl⟩

abbrev nD : Nat := 1
abbrev τ : Topo := Topo.v7x

variable {F : FTy → Type} [FloatOps F]

class Facts₀ : Prop where
  reducesTo_S8x512x32000_S8x512_d2 : S8x512x32000.ReducesTo [2] S8x512
  h_S_ : 0 < S_.numel
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x32000_0_1_2 : S8x512x1.BroadcastsInDim S8x512x32000 (![0, 1, 2] : Fin 3 → Fin S8x512x32000.rank)
  bcast_S_S8x512x1 : S_.BroadcastsInDim S8x512x1 (![] : Fin 0 → Fin S8x512x1.rank)
  shapeCasts_S8x512x1_S8x512x1x1 : S8x512x1.ShapeCasts S8x512x1x1
  bcast_S_S8x512x1x1 : S_.BroadcastsInDim S8x512x1x1 (![] : Fin 0 → Fin S8x512x1x1.rank)
  bcast_S1_S1x1x1x1_3 : S1.BroadcastsInDim S1x1x1x1 (![3] : Fin 1 → Fin S1x1x1x1.rank)
  bcast_S1x1x1x1_S8x512x1x1_0_1_2_3 : S1x1x1x1.BroadcastsInDim S8x512x1x1 (![0, 1, 2, 3] : Fin 4 → Fin S8x512x1x1.rank)
  reducesTo_S8x512x1x1_S8x512x1_d3 : S8x512x1x1.ReducesTo [3] S8x512x1
  shapeCasts_S8x512x1_S8x512 : S8x512x1.ShapeCasts S8x512
  reducesTo_S8x512_S8_d1 : S8x512.ReducesTo [1] S8
  slices_S8_S4_0 : S8.Slices ![0] S4
  slices_S8_S4_4 : S8.Slices ![4] S4
  bcast_S_S4 : S_.BroadcastsInDim S4 (![] : Fin 0 → Fin S4.rank)
  reducesTo_S4_S_d0 : S4.ReducesTo [0] S_
  dot_S8x512x4096_S32000x4096_S8x512x32000_2_1_01_0_n_n_wf : DotDims.WF S8x512x4096 S32000x4096 S8x512x32000 [2] [1] [0, 1] [0] [] []
  gather_S8x512x32000_S8x512x1x1_S8x512x1_n_2_01_01_2_3_111_wf : GatherDims.WF S8x512x32000 S8x512x1x1 S8x512x1 [] [2] [0, 1] [2] [0, 1] 3 ![1, 1, 1]

variable [Facts₀]

def dot_S8x512x4096_S32000x4096_S8x512x32000_2_1_01_0_n_n : DotDims S8x512x4096 S32000x4096 S8x512x32000 where
  lhsContracting := [2]
  rhsContracting := [1]
  lhsNonContracting := [0, 1]
  rhsNonContracting := [0]
  lhsBatch := []
  rhsBatch := []
  wf := dot_S8x512x4096_S32000x4096_S8x512x32000_2_1_01_0_n_n_wf
def gather_S8x512x32000_S8x512x1x1_S8x512x1_n_2_01_01_2_3_111 : GatherDims S8x512x32000 S8x512x1x1 S8x512x1 where
  offsetDims := []
  collapsedSliceDims := [2]
  operandBatchingDims := [0, 1]
  startIndicesBatchingDims := [0, 1]
  startIndexMap := [2]
  indexVectorDim := 3
  sliceSizes := ![1, 1, 1]
  wf := gather_S8x512x32000_S8x512x1x1_S8x512x1_n_2_01_01_2_3_111_wf

class Facts : Prop extends Facts₀ where

variable [Facts]
-- ==== Proof.Spec.lean ====
/-
  What both programs compute, stated once.

  A token's hidden row and a class's weight row give a logit (their inner product); a row of 32000 logits gives a
  log-probability for each class (the log-softmax, taken after subtracting the row's maximum); each token keeps the
  log-probability of its label's class (class 0 where the label is the ignored word -100); a sequence's mean
  log-probability is the masked sum over its tokens divided by the number of kept tokens; and the loss is the mean over
  four pairs of sequences of minus the log-sigmoid of a tenth of the pairs' difference of log-ratios.

  The host-side stretches both programs share are written here over any float values, with the shape relations they
  take as explicit arguments, so that each program's own operations are instances of the same terms.  The per-token
  mathematics is written over the extended reals, together with the block-by-block state the kernel carries along a row
  (a running maximum, a rescaled running sum of exponentials, a running sum that picks out the label's logit).
-/
import Idealize.ShloMosaic.PureOps.Ideal
import Idealize.ShloMosaic.PureOps
import Idealize.ShloMosaic.Lib.ValueIdx

noncomputable section

open scoped BigOperators

namespace Cert.Spec

open Idealize.ShloMosaic Idealize.ShloMosaic.ValueIdx

abbrev SX : Shape := ⟨3, ![8, 512, 4096]⟩
abbrev SW : Shape := ⟨2, ![32000, 4096]⟩
abbrev SY : Shape := ⟨2, ![8, 512]⟩
abbrev S8 : Shape := ⟨1, ![8]⟩
abbrev S4 : Shape := ⟨1, ![4]⟩
abbrev S0 : Shape := ⟨0, ![]⟩
abbrev SOut : Shape := ⟨3, ![2, 4096, 1]⟩

/-! ## The shared host stretches, over any float values -/

section Host
variable {F : FTy → Type} [FloatOps F]

/-- Which labels are kept: the ones that are not the ignored word -100. -/
def keep (hb : S0.BroadcastsInDim SY (![] : Fin 0 → Fin SY.rank)) (y : IVec SY 32) : IVec SY 1 :=
  cmpi .ne y (broadcastInDim SY ![] hb (constantI S0 32 4294967196#32))

/-- The class each token reads: its label where kept, class 0 elsewhere. -/
def labels (hb : S0.BroadcastsInDim SY (![] : Fin 0 → Fin SY.rank)) (y : IVec SY 32) : IVec SY 32 :=
  select (keep hb y) y (broadcastInDim SY ![] hb (id (constantI S0 32 0#32)))

/-- The mask as a float: 1 at a kept token, 0 at an ignored one. -/
def maskf (hb : S0.BroadcastsInDim SY (![] : Fin 0 → Fin SY.rank)) (y : IVec SY 32) : FVec F SY .f32 :=
  uitofp .f32 (keep hb y)

/-- The number of kept tokens of each sequence, as the host sums the mask. -/
def count (hb : S0.BroadcastsInDim SY (![] : Fin 0 → Fin SY.rank)) (hr : SY.ReducesTo [1] S8) (h0 : 0 < S0.numel)
    (y : IVec SY 32) : FVec F S8 .f32 :=
  Host.reduceAdd (maskf (F := F) hb y) (constant S0 .f32 0x00000000#32) hr h0

/-- A sequence's mean log-probability: the masked sum of its tokens' log-probabilities over a denominator. -/
def meanOf (hr : SY.ReducesTo [1] S8) (h0 : 0 < S0.numel) (tok mf : FVec F SY .f32) (den : FVec F S8 .f32) :
    FVec F S8 .f32 :=
  Host.divf (Host.reduceAdd (mulf tok mf) (constant S0 .f32 0x00000000#32) hr h0) den

/-- Minus the softplus of minus z, elementwise on four values, the way jax spells log-sigmoid. -/
def logSigmoid (hb4 : S0.BroadcastsInDim S4 (![] : Fin 0 → Fin S4.rank)) (z : FVec F S4 .f32) : FVec F S4 .f32 :=
  let n : FVec F S4 .f32 := Host.negf z
  let zero : FVec F S4 .f32 := broadcastInDim S4 ![] hb4 (constant S0 .f32 0x00000000#32)
  let d : FVec F S4 .f32 := subf n zero
  Host.negf (select (cmpf .une d d) (addf n zero)
    (addf (maximumf n zero) (Host.log1p (Host.exp (Host.negf (Host.absf d))))))

/-- The loss from the policy's and the reference model's mean log-probabilities of the eight sequences. -/
def lossTail (hs0 : S8.Slices ![0] S4) (hs4 : S8.Slices ![4] S4) (hb4 : S0.BroadcastsInDim S4 (![] : Fin 0 → Fin S4.rank))
    (hr4 : S4.ReducesTo [0] S0) (h0 : 0 < S0.numel) (p q : FVec F S8 .f32) : FVec F S0 .f32 :=
  let chosen : FVec F S4 .f32 := subf (extractStridedSlice S4 ![0] p hs0) (extractStridedSlice S4 ![0] q hs0)
  let rejected : FVec F S4 .f32 := subf (extractStridedSlice S4 ![4] p hs4) (extractStridedSlice S4 ![4] q hs4)
  let z : FVec F S4 .f32 := mulf (broadcastInDim S4 ![] hb4 (constant S0 .f32 0x3DCCCCCD#32)) (subf chosen rejected)
  Host.divf (Host.negf (Host.reduceAdd (logSigmoid hb4 z) (constant S0 .f32 0x00000000#32) hr4 h0))
    (constant S0 .f32 0x40800000#32)

end Host

/-! ## One token's log-probability, over the extended reals -/

/-- The logit of class `v` at token `(b, t)`: the inner product of the token's hidden row and the class's weight row. -/
def logit (x : SX.Idx → EReal) (w : SW.Idx → EReal) (b : Fin 8) (t : Fin 512) (v : Fin 32000) : EReal :=
  ∑ k : Fin 4096, x (ix3 b t k) * w (ix2 v k)

/-- A row's maximum, folded from minus infinity. -/
def rowMax (ℓ : Fin 32000 → EReal) : EReal := (Finset.univ : Finset (Fin 32000)).fold max ⊥ ℓ

/-- The log-softmax of a row of logits at class `j`, shifted by the row's maximum before exponentiating. -/
def lsm (ℓ : Fin 32000 → EReal) (j : Fin 32000) : EReal :=
  (ℓ j - rowMax ℓ) - Ideal.log (∑ v : Fin 32000, Ideal.exp (ℓ v - rowMax ℓ))

/-- The class a label word selects: class 0 for the ignored word -100, else the word read as a number (reduced
    below 32000, which changes nothing for a label in range). -/
def cls (w : BitVec 32) : Fin 32000 :=
  ⟨(if w = 4294967196#32 then 0 else w.toNat) % 32000, Nat.mod_lt _ (by decide)⟩

/-- Every token's log-probability of its label's class. -/
def tokArr (x : SX.Idx → EReal) (w : SW.Idx → EReal) (y : IVec SY 32) : SY.Idx → EReal :=
  fun j => lsm (logit x w (j 0) (j 1)) (cls (y j))

/-- The kernel's result array: stream 0 the policy's tokens, stream 1 the reference model's, token `(b, t)` at row
    `512 b + t`. -/
def outArr (x xr : SX.Idx → EReal) (w wr : SW.Idx → EReal) (y : IVec SY 32) : SOut.Idx → EReal :=
  fun i =>
    let j : SY.Idx := ix2 (⟨(i 1).val / 512, by have h : (i 1).val < 4096 := (i 1).isLt; omega⟩ : Fin 8) (⟨(i 1).val % 512, Nat.mod_lt _ (by decide)⟩ : Fin 512)
    if (i 0).val = 0 then tokArr x w y j else tokArr xr wr y j

/-! ## The state the kernel carries along a row, one vocabulary block at a time -/

/-- Column `j` of vocabulary block `v`: class `1280 v + j`. -/
def col (v : Fin 25) (j : Fin 1280) : Fin 32000 :=
  ⟨v.val * 1280 + j.val, by have := v.isLt; have := j.isLt; omega⟩

/-- One block's update of (running maximum, rescaled running sum of exponentials, running label logit). -/
def step (ℓ : Fin 32000 → EReal) (lab : BitVec 32) (v : Fin 25) (s : EReal × EReal × EReal) : EReal × EReal × EReal :=
  let m' : EReal := max s.1 ((Finset.univ : Finset (Fin 1280)).fold max ⊥ fun j => ℓ (col v j))
  (m',
   Ideal.exp (s.1 - m') * s.2.1 + ∑ j : Fin 1280, Ideal.exp (ℓ (col v j) - m'),
   s.2.2 + ∑ j : Fin 1280, if BitVec.ofNat 32 (col v j).val = lab then ℓ (col v j) else 0)

/-- The state after the first `n` blocks, from (minus infinity, 0, 0). -/
def state (ℓ : Fin 32000 → EReal) (lab : BitVec 32) : ℕ → EReal × EReal × EReal
  | 0 => (⊥, 0, 0)
  | n + 1 => if h : n < 25 then step ℓ lab ⟨n, h⟩ (state ℓ lab n) else state ℓ lab n

/-- What the kernel writes for a row after the last block. -/
def emit (s : EReal × EReal × EReal) : EReal := s.2.2 - (s.1 + Ideal.log s.2.1)

end Cert.Spec

end
-- ==== Proof.PreFacts.lean ====
/-
  What the precondition says, entry by entry: every float input is a real number, every label is the ignored word
  -100 or a class below 32000, and every sequence keeps at least one label.
-/
import proofs.«414541_j71975061946952_2_alg».proof.Pre_finite_inputs
import proofs.«414541_j71975061946952_2_alg».proof.Proof.Gen.Pre_finite_inputs
import proofs.«414541_j71975061946952_2_alg».proof.Proof.Spec
import Idealize.ShloMosaic.Lib.ReduceAll
import Idealize.ShloMosaic.Lib.StableHlo.Predicate

noncomputable section

namespace Cert.PreFacts

open Cert.Spec Idealize.ShloMosaic Idealize.ShloMosaic.ValueIdx

/-- The precondition, read entry by entry. -/
structure Decoded (x xr : SX.Idx → EReal) (y : IVec SY 32) (w wr : SW.Idx → EReal) : Prop where
  x_real : ∀ i, ∃ r : ℝ, x i = (r : EReal)
  xr_real : ∀ i, ∃ r : ℝ, xr i = (r : EReal)
  w_real : ∀ i, ∃ r : ℝ, w i = (r : EReal)
  wr_real : ∀ i, ∃ r : ℝ, wr i = (r : EReal)
  lab_range : ∀ j : SY.Idx, y j = 4294967196#32 ∨ (y j).toNat < 32000
  row_kept : ∀ b : Fin 8, ∃ t : Fin 512, y (ix2 b t) ≠ 4294967196#32

/-! ## The float entries: an absolute value below +∞ is a real number -/

/-- The scalar shape has one index. -/
instance : Subsingleton Cert.Pre_finite_inputs.S_.Idx := ⟨fun a b => funext fun d => d.elim0⟩

/-- The pattern 0x7F800000 denotes +∞. -/
theorem top_f32 : Ideal.ofBits .f32 0x7F800000#32 = (⊤ : EReal) := by simp [Ideal.ofBits, Ideal.ieee]

/-- An extended real whose absolute value max(a, -a) lies strictly below +∞ is a real number: at +∞ the maximum is
    +∞ itself, and at -∞ its negation is. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- One entry of the test |v| < +∞ over an array of any shape. -/
theorem entry_real {s : Shape} (hb : Cert.Pre_finite_inputs.S_.BroadcastsInDim s (![] : Fin 0 → Fin s.rank))
    (v : FVec Ideal s .f32) (i : s.Idx)
    (h : cmpf .olt (Host.absf v) (broadcastInDim s ![] hb (constant Cert.Pre_finite_inputs.S_ .f32 0x7F800000#32)) i = 1#1) :
    ∃ r : ℝ, v i = (r : EReal) := by
  apply real_of_abs_lt_top
  rw [← top_f32]
  exact h

/-- The test reduced by "and" over every axis: all entries are real numbers. -/
theorem all_real {s : Shape} {axes : List (Fin s.rank)}
    (hb : Cert.Pre_finite_inputs.S_.BroadcastsInDim s (![] : Fin 0 → Fin s.rank))
    (hr : s.ReducesTo axes Cert.Pre_finite_inputs.S_) (h0 : 0 < Cert.Pre_finite_inputs.S_.numel) (v : FVec Ideal s .f32)
    (h : Host.reduce IntOp.andi
        (cmpf .olt (Host.absf v) (broadcastInDim s ![] hb (constant Cert.Pre_finite_inputs.S_ .f32 0x7F800000#32)))
        (constantI Cert.Pre_finite_inputs.S_ 1 1#1) hr h0 ix0 = 1#1) :
    ∀ i, ∃ r : ℝ, v i = (r : EReal) :=
  fun i => entry_real hb v i (Host.reduce_andi_all _ _ hr h0 ix0 h i)

/-! ## The label words -/

/-- A word that is -100, or at least 0 and below 32000 read signed, is -100 or has a value below 32000. -/
theorem word_range (w : BitVec 32)
    (h : IntOp.ori (IntOp.cmpi .eq w 4294967196#32) (IntOp.andi (IntOp.cmpi .sge w 0#32) (IntOp.cmpi .slt w 32000#32)) = 1#1) :
    w = 4294967196#32 ∨ w.toNat < 32000 := by
  rcases IntOp.ori_eq_one.1 h with h | h
  · exact Or.inl (IntOp.cmpi_eq.1 h)
  · obtain ⟨h0, h1⟩ := IntOp.andi_eq_one.1 h
    have h0' := IntOp.cmpi_sge.1 h0
    have h1' := IntOp.cmpi_slt.1 h1
    have e0 : (0#32 : BitVec 32).toInt = 0 := by decide
    have e1 : (32000#32 : BitVec 32).toInt = 32000 := by decide
    rw [e0] at h0'
    rw [e1] at h1'
    have hw := w.isLt
    refine Or.inr ?_
    unfold BitVec.toInt at h0' h1'
    split at h0' <;> omega

/-- A left fold by "or" over one-bit words that came out 1 started at 1 or met a 1. -/
theorem foldl_ori_eq_one {ι : Type} (f : ι → BitVec 1) :
    ∀ (l : List ι) (init : BitVec 1), l.foldl (fun r n => IntOp.ori r (f n)) init = 1#1 → init = 1#1 ∨ ∃ n ∈ l, f n = 1#1
  | [], init, h => Or.inl h
  | a :: l, init, h => by
    rcases foldl_ori_eq_one f l _ h with h1 | ⟨n, hn, e⟩
    · rcases IntOp.ori_eq_one.1 h1 with hi | ha
      · exact Or.inl hi
      · exact Or.inr ⟨a, List.mem_cons_self, ha⟩
    · exact Or.inr ⟨n, List.mem_cons_of_mem _ hn, e⟩

/-- A reduction by "or" from 0 that is 1 at a result index met a 1 at some operand index that reduces into it. -/
theorem reduce_ori_eq_one {s t u : Shape} {axes : List (Fin s.rank)} (x : s.Idx → BitVec 1) (init : u.Idx → BitVec 1)
    (h : s.ReducesTo axes t) (hu : 0 < u.numel) (hinit : init (Shape.Idx.first hu) = 0#1) (j : t.Idx)
    (e : Host.reduce IntOp.ori x init h hu j = 1#1) : ∃ i, h.drop i = j ∧ x i = 1#1 := by
  rw [Host.reduce_eq_foldl] at e
  rcases foldl_ori_eq_one x _ _ e with h1 | ⟨i, hi, e1⟩
  · rw [hinit] at h1
    exact absurd h1 (by decide)
  · rw [List.mem_filter] at hi
    exact ⟨i, by simpa using hi.2, e1⟩

/-! ## The precondition decoded -/

theorem decode (x xr : SX.Idx → EReal) (y : IVec SY 32) (w wr : SW.Idx → EReal)
    (h : Cert.Pre_finite_inputs.fn (F := Ideal) x xr y w wr = (fun _ => 1#1)) : Decoded x xr y w wr := by
  have e := congrFun h ix0
  dsimp only [Cert.Pre_finite_inputs.fn, Cert.Pre_finite_inputs.fn_part1, Cert.Pre_finite_inputs.fn_part2] at e
  -- the six conjuncts
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  refine ⟨all_real _ _ _ x e1, all_real _ _ _ xr e2, all_real _ _ _ w e3, all_real _ _ _ wr e4, ?_, ?_⟩
  · -- every label is -100 or a class
    intro j
    exact word_range (y j) (Host.reduce_andi_all _ _ _ _ ix0 e5 j)
  · -- every row has a label that is not -100: the "or" along row b met a 1 at some index of that row
    intro b
    have hb := Host.reduce_andi_all _ _ _ _ ix0 e6 (ix1 b)
    obtain ⟨i, hi, hne⟩ := reduce_ori_eq_one _ _ _ _ rfl _ hb
    have hne' : y i ≠ 4294967196#32 := IntOp.cmpi_ne.1 hne
    have h0 : i 0 = b := by
      have hv : ((Cert.Pre_finite_inputs.Facts.reducesTo_S8x512_S8_d1).drop i 0 : Nat) = i 0 :=
        Shape.ReducesTo.drop_apply_val _ i 0
      rw [hi] at hv
      exact Fin.ext hv.symm
    refine ⟨i 1, ?_⟩
    have hi2 : ix2 b (i 1) = i := by
      rw [← h0]
      exact (eq_ix2 i).symm
    have hy : y (ix2 b (i 1)) = y i := congrArg y hi2
    exact fun hc => hne' (hy.symm.trans hc)

end Cert.PreFacts

end
-- ==== Proof.KTerm.lean ====
/-
  The kernel program's result as one term of the array its kernel leaves and of the labels: each stream's plane of the
  result array laid out as [8, 512] tokens, the two mean log-probabilities over the count of kept tokens guarded from
  below by one, then the loss.
-/
import proofs.«414541_j71975061946952_2_alg».proof.KernelIdeal
import proofs.«414541_j71975061946952_2_alg».proof.Proof.Gen.KernelIdeal
import proofs.«414541_j71975061946952_2_alg».proof.Proof.Spec

noncomputable section

namespace Cert.KernelIdeal.Val

open Idealize.ShloMosaic Cert.KernelIdeal Cert.KernelIdeal.Facts₀

variable {F : FTy → Type} [FloatOps F]

/-- Stream 0's plane of the kernel's result array as [8, 512] tokens. -/
def kTok0 (o : FVec F S2x4096x1 .f32) : FVec F S8x512 .f32 :=
  shapeCast S8x512 (shapeCast S4096x1 (extractStridedSlice S1x4096x1 ![0, 0, 0] o slices_S2x4096x1_S1x4096x1_0_0_0)
    shapeCasts_S1x4096x1_S4096x1) shapeCasts_S4096x1_S8x512

/-- Stream 1's plane likewise. -/
def kTok1 (o : FVec F S2x4096x1 .f32) : FVec F S8x512 .f32 :=
  shapeCast S8x512 (shapeCast S4096x1 (extractStridedSlice S1x4096x1 ![1, 0, 0] o slices_S2x4096x1_S1x4096x1_1_0_0)
    shapeCasts_S1x4096x1_S4096x1) shapeCasts_S4096x1_S8x512

/-- The count of kept tokens of each sequence, at least one. -/
def kDen (y : IVec S8x512 32) : FVec F S8 .f32 :=
  maximumf (Cert.Spec.count bcast_S_S8x512 reducesTo_S8x512_S8_d1 h_S_ y)
    (broadcastInDim S8 ![] bcast_S_S8 (constant S_ .f32 0x3F800000#32))

/-- The program's result from the kernel's result array and the labels. -/
def kTerm (o : FVec F S2x4096x1 .f32) (y : IVec S8x512 32) : FVec F S_ .f32 :=
  Cert.Spec.lossTail slices_S8_S4_0 slices_S8_S4_4 bcast_S_S4 reducesTo_S4_S_d0 h_S_
    (Cert.Spec.meanOf reducesTo_S8x512_S8_d1 h_S_ (kTok0 o) (Cert.Spec.maskf bcast_S_S8x512 y) (kDen y))
    (Cert.Spec.meanOf reducesTo_S8x512_S8_d1 h_S_ (kTok1 o) (Cert.Spec.maskf bcast_S_S8x512 y) (kDen y))

end Cert.KernelIdeal.Val

end
-- ==== Proof.KRun.lean ====
/-
  The kernel program's run, read: every weakly fair execution terminates, the result buffer holds the program's term
  of the array the kernel leaves (the proof data's result array after the last grid point) and of the labels, and the
  arguments end unchanged.

  The program is host operations, the kernel, host operations.  The run leaves each buffer the kernel does not own at
  what the operations after the kernel compute from the kernel's result array and from the buffers the operations before
  it wrote.  Of those the result reads two: the float mask of the kept labels and the count of kept tokens guarded from
  below by one, both functions of the labels alone.  Composing the operations after the kernel over these three values
  is, operation for operation, the term `kTerm`.
-/
import proofs.«414541_j71975061946952_2_alg».proof.Proof.Gen.KernelIdeal.Frame
import proofs.«414541_j71975061946952_2_alg».proof.Proof.KTerm
import Idealize.ShloMosaic.Lib.Pipeline.Value
import Idealize.ShloMosaic.Lib.StableHlo.Run
import Idealize.ShloMosaic.Lib.Tactic

noncomputable section

namespace Cert.KernelIdeal.Val

open Idealize.ShloMosaic Idealize.ShloMosaic.TcCoe Idealize.SL.Sem Cert.KernelIdeal
open Idealize.ShloMosaic.Pipeline (Dat)

variable {F : FTy → Type} [FloatOps F]

/-- The float mask of the kept labels, as the host operations before the kernel leave it. -/
theorem pre_mask (m : (ℓ : Loc nD τ sig) → Buf (Elt F) ℓ) (c : Dev nD) :
    Gen.V0 m c (Proc.devRef .tc main_v4)
      = Cert.Spec.maskf (F := F) Gen.bcast_S_S8x512 (m ((c.tc : Thread nD τ).loc main_arg2)) := by
  dsimp only [Gen.V0]
  simp only [Gen.hostOps0, Gen.hostOps0_1, Gen.hostOps0_2, List.flatten_cons, List.flatten_nil, List.append_nil, List.cons_append,
    List.nil_append]
  after_results
  rfl

/-- The guarded count of kept tokens, as the host operations before the kernel leave it. -/
theorem pre_den (m : (ℓ : Loc nD τ sig) → Buf (Elt F) ℓ) (c : Dev nD) :
    Gen.V0 m c (Proc.devRef .tc main_v7) = kDen (F := F) (m ((c.tc : Thread nD τ).loc main_arg2)) := by
  dsimp only [Gen.V0]
  simp only [Gen.hostOps0, Gen.hostOps0_1, Gen.hostOps0_2, List.flatten_cons, List.flatten_nil, List.append_nil, List.cons_append,
    List.nil_append]
  after_results
  rfl

/-- The program's result buffer after the host operations that follow the kernel: the program's term of the kernel's
    result array and the labels. -/
theorem tail_value (m : (ℓ : Loc nD τ sig) → Buf (Elt F) ℓ) (c : Dev nD) :
    Pipeline.afterTail₀ cfgs (Gen.dats m) 0 (Gen.V0 m) [Gen.hostOps1, Gen.hostOps1_1, Gen.hostOps1_2] c main_v45
      = kTerm (F := F) ((Gen.dats m 0 c).arrAt 3 cfg0.N) (m ((c.tc : Thread nD τ).loc main_arg2)) := by
  have h20 : Pipeline.withArrays (cfgs 0).spec c (Gen.V0 m c) (fun w => (Gen.dats m 0 c).arrAt w (cfgs 0).N)
      (Proc.devRef .tc main_v20) = (Gen.dats m 0 c).arrAt 3 cfg0.N :=
    Pipeline.withArrays_arr spec0 Gen.launch0.win.arr_inj c _ _ 3
  have h4 : Pipeline.withArrays (cfgs 0).spec c (Gen.V0 m c) (fun w => (Gen.dats m 0 c).arrAt w (cfgs 0).N)
      (Proc.devRef .tc main_v4) = Cert.Spec.maskf (F := F) Gen.bcast_S_S8x512 (m ((c.tc : Thread nD τ).loc main_arg2)) :=
    (Pipeline.withArrays_of_ne _ c (Gen.V0 m c) _ main_v4 (by exact (by decide : ∀ w, Pipeline.arrRef spec0 w ≠ main_v4))).trans
      (pre_mask m c)
  have h7 : Pipeline.withArrays (cfgs 0).spec c (Gen.V0 m c) (fun w => (Gen.dats m 0 c).arrAt w (cfgs 0).N)
      (Proc.devRef .tc main_v7) = kDen (F := F) (m ((c.tc : Thread nD τ).loc main_arg2)) :=
    (Pipeline.withArrays_of_ne _ c (Gen.V0 m c) _ main_v7 (by exact (by decide : ∀ w, Pipeline.arrRef spec0 w ≠ main_v7))).trans
      (pre_den m c)
  unfold Pipeline.afterTail₀
  simp only [Gen.hostOps1, Gen.hostOps1_1, Gen.hostOps1_2, List.flatten_cons, List.flatten_nil, List.append_nil, List.cons_append,
    List.nil_append]
  after_results_simp
  rw [h20, h4, h7]
  rfl

/-- The run: the result buffer at the program's term, each argument as launched (no operation writes an argument, and
    the kernel owns none of them). -/
theorem kernel_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = kTerm (F := F) ((Gen.dats m 0 c).arrAt 3 cfg0.N) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v45 (Pipeline.mem_restRefs_of main_v45 (by decide) (by decide))).trans (tail_value m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c)⟩)
    (Gen.run_main m ρ)

end Cert.KernelIdeal.Val

end
-- ==== Proof.KInputs.lean ====
/-
  What the kernel's input windows hold at a grid point, over the extended reals.  Point number n of the 2 × 8 × 25 grid
  is stream n / 200, sequence (n / 25) mod 8, vocabulary block n mod 25.  The hidden-state window's block there is the
  512 token rows of that sequence under that stream's model (the two models' states stacked, the format change the
  identity); the weight window's block is that stream's 1280 weight rows of the block; the label window's block is the
  sequence's 512 class words.
-/
import proofs.«414541_j71975061946952_2_alg».proof.Proof.Gen.KernelIdeal.Frame
import proofs.«414541_j71975061946952_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Val

open Idealize.ShloMosaic Idealize.ShloMosaic.TcCoe Idealize.ShloMosaic.ValueIdx Idealize.SL.Sem Cert.KernelIdeal

/-- The stream of grid point `t`. -/
def sOf (t : Fin cfg0.N) : Fin 2 := ⟨t.val / 200, by have := t.isLt; have h : cfg0.N = 400 := Gen.N_0; omega⟩
/-- The sequence of grid point `t`. -/
def bOf (t : Fin cfg0.N) : Fin 8 := ⟨(t.val / 25) % 8, Nat.mod_lt _ (by decide)⟩
/-- The vocabulary block of grid point `t`. -/
def vOf (t : Fin cfg0.N) : Fin 25 := ⟨t.val % 25, Nat.mod_lt _ (by decide)⟩

variable (m : (ℓ : Loc nD τ sig) → Buf (Elt Ideal) ℓ)

/-- A stream's hidden states: the policy's for stream 0, the reference model's for stream 1. -/
def xsel (c : Dev nD) (s : Fin 2) : Cert.Spec.SX.Idx → EReal := if s.val = 0 then (m ((c.tc : Thread nD τ).loc main_arg0)) else (m ((c.tc : Thread nD τ).loc main_arg1))
/-- A stream's weights. -/
def wsel (c : Dev nD) (s : Fin 2) : Cert.Spec.SW.Idx → EReal := if s.val = 0 then (m ((c.tc : Thread nD τ).loc main_arg3)) else (m ((c.tc : Thread nD τ).loc main_arg4))

/-- The three input blocks at a point, at their literal types. -/
abbrev xblk (c : Dev nD) (t : Fin cfg0.N) : Vec Ideal S1x512x4096 .bf16 := Gen.iblk m c 0 t
abbrev wblk (c : Dev nD) (t : Fin cfg0.N) : Vec Ideal S1x1280x4096 .bf16 := Gen.iblk m c 1 t
abbrev lblk (c : Dev nD) (t : Fin cfg0.N) : Vec Ideal S512x1 .i32 := Gen.iblk m c 2 t

/-! ## Layout operations read at an index -/

section Layout
variable {α : Type}

/-- Two [1, A, B] arrays stacked along the leading axis read, at (s, i, j), piece s at (0, i, j). -/
theorem stack2_apply {A B : ℕ} (x₁ x₂ : (⟨3, ![1, A, B]⟩ : Shape).Idx → α)
    (h : Shape.Concatenates [(⟨3, ![1, A, B]⟩ : Shape), ⟨3, ![1, A, B]⟩] ⟨3, ![2, A, B]⟩ 0) (s : Fin 2) (i : Fin A) (j : Fin B) :
    concatenate ⟨3, ![2, A, B]⟩ 0 [⟨⟨3, ![1, A, B]⟩, x₁⟩, ⟨⟨3, ![1, A, B]⟩, x₂⟩] h (ix3 s i j)
      = if s.val = 0 then x₁ (ix3 (0 : Fin 1) i j) else x₂ (ix3 (0 : Fin 1) i j) := by
  by_cases hs : s.val = 0
  · rw [if_pos hs]
    exact concatenate_pair_apply_left 0 x₁ x₂ h _ rfl _ (fun b => by
      match b with
      | ⟨0, _⟩ => exact hs.symm
      | ⟨1, _⟩ => rfl
      | ⟨2, _⟩ => rfl)
  · rw [if_neg hs]
    exact concatenate_pair_apply_right 0 x₁ x₂ h _ rfl rfl _
      (fun b hb => by
        match b with
        | ⟨0, _⟩ => exact absurd rfl hb
        | ⟨1, _⟩ => rfl
        | ⟨2, _⟩ => rfl)
      (by show 0 + 1 = s.val; have := s.isLt; omega)

/-- An [A, B] array broadcast to [1, A, B] along its own two axes reads, at (u, i, j), the operand at (i, j). -/
theorem bcast12_apply {A B : ℕ} (x : (⟨2, ![A, B]⟩ : Shape).Idx → α)
    (h : (⟨2, ![A, B]⟩ : Shape).BroadcastsInDim ⟨3, ![1, A, B]⟩ ![1, 2]) (u : Fin 1) (i : Fin A) (j : Fin B) :
    broadcastInDim ⟨3, ![1, A, B]⟩ ![1, 2] h x (ix3 u i j) = x (ix2 i j) :=
  broadcastInDim_apply _ h x _ _ (fun a => by
    match a with
    | ⟨0, _⟩ =>
      show i.val = if A = 1 then 0 else i.val
      split
      · have := i.isLt; omega
      · rfl
    | ⟨1, _⟩ =>
      show j.val = if B = 1 then 0 else j.val
      split
      · have := j.isLt; omega
      · rfl)

/-- An [N, R, K] array reshaped to [Q, K] reads, at row R b + r, the operand at (b, r, ·). -/
theorem reshape_rows_apply {N R K Q : ℕ} (x : (⟨3, ![N, R, K]⟩ : Shape).Idx → α)
    (h : (⟨3, ![N, R, K]⟩ : Shape).ShapeCasts ⟨2, ![Q, K]⟩) (b : Fin N) (r : Fin R) (k : Fin K) (q : Fin Q)
    (hq : q.val = b.val * R + r.val) :
    shapeCast ⟨2, ![Q, K]⟩ x h (ix2 q k) = x (ix3 b r k) :=
  shapeCast_apply x h _ _ (by
    rw [Shape.rowMajor_val_three, Shape.rowMajor_val_two]
    show (b.val * R + r.val) * K + k.val = q.val * K + k.val
    rw [hq])

/-- An [N, R] array reshaped to a column [Q, 1] reads, at row R b + r, the operand at (b, r). -/
theorem reshape_col_apply {N R Q : ℕ} (x : (⟨2, ![N, R]⟩ : Shape).Idx → α)
    (h : (⟨2, ![N, R]⟩ : Shape).ShapeCasts ⟨2, ![Q, 1]⟩) (b : Fin N) (r : Fin R) (q : Fin Q) (u : Fin 1)
    (hq : q.val = b.val * R + r.val) :
    shapeCast ⟨2, ![Q, 1]⟩ x h (ix2 q u) = x (ix2 b r) :=
  shapeCast_apply x h _ _ (by
    rw [Shape.rowMajor_val_two, Shape.rowMajor_val_two]
    show b.val * R + r.val = q.val * 1 + u.val
    have := u.isLt
    omega)

end Layout

/-! ## The windows' block indices at a point, decided once over the 400 points -/

theorem idx0 : ∀ t : Fin cfg0.N, win0_0.index t 0 = t.val / 200 ∧ win0_0.index t 1 = (t.val / 25) % 8 ∧ win0_0.index t 2 = 0 :=
  (by decide +kernel : ∀ t : Fin grid0.N, win0_0.index t 0 = t.val / 200 ∧ win0_0.index t 1 = (t.val / 25) % 8 ∧ win0_0.index t 2 = 0)
theorem idx1 : ∀ t : Fin cfg0.N, win0_1.index t 0 = t.val / 200 ∧ win0_1.index t 1 = t.val % 25 ∧ win0_1.index t 2 = 0 :=
  (by decide +kernel : ∀ t : Fin grid0.N, win0_1.index t 0 = t.val / 200 ∧ win0_1.index t 1 = t.val % 25 ∧ win0_1.index t 2 = 0)
theorem idx2 : ∀ t : Fin cfg0.N, win0_2.index t 0 = (t.val / 25) % 8 ∧ win0_2.index t 1 = 0 :=
  (by decide +kernel : ∀ t : Fin grid0.N, win0_2.index t 0 = (t.val / 25) % 8 ∧ win0_2.index t 1 = 0)

/-! ## The arrays the region finds, as terms of the arguments -/

/-- The hidden-state window's array: the two models' states, each flattened to 4096 token rows, stacked. -/
theorem V_v14 (c : Dev nD) :
    (Gen.V m c main_v14 : S2x4096x4096.Idx → EReal)
      = concatenate S2x4096x4096 0
          [⟨S1x4096x4096, broadcastInDim S1x4096x4096 ![1, 2] Facts₀.bcast_S4096x4096_S1x4096x4096_1_2
              (truncf (F := Ideal) .bf16 (shapeCast S4096x4096 (m ((c.tc : Thread nD τ).loc main_arg0) : S8x512x4096.Idx → EReal) Facts₀.shapeCasts_S8x512x4096_S4096x4096) Facts₀.bitsLt_bf16_f32 : S4096x4096.Idx → EReal)⟩,
           ⟨S1x4096x4096, broadcastInDim S1x4096x4096 ![1, 2] Facts₀.bcast_S4096x4096_S1x4096x4096_1_2
              (truncf (F := Ideal) .bf16 (shapeCast S4096x4096 (m ((c.tc : Thread nD τ).loc main_arg1) : S8x512x4096.Idx → EReal) Facts₀.shapeCasts_S8x512x4096_S4096x4096) Facts₀.bitsLt_bf16_f32 : S4096x4096.Idx → EReal)⟩]
          Facts₀.concatenates_S1x4096x4096_S1x4096x4096_S2x4096x4096_d0 := by
  dsimp only [Gen.V, Gen.V0]
  simp only [Gen.hostOps0, Gen.hostOps0_1, Gen.hostOps0_2, List.flatten_cons, List.flatten_nil, List.append_nil, List.cons_append, List.nil_append]
  after_results
  rfl

/-- The weight window's array: the two models' weights stacked. -/
theorem V_v19 (c : Dev nD) :
    (Gen.V m c main_v19 : S2x32000x4096.Idx → EReal)
      = concatenate S2x32000x4096 0
          [⟨S1x32000x4096, broadcastInDim S1x32000x4096 ![1, 2] Facts₀.bcast_S32000x4096_S1x32000x4096_1_2
              (truncf (F := Ideal) .bf16 (m ((c.tc : Thread nD τ).loc main_arg3) : S32000x4096.Idx → EReal) Facts₀.bitsLt_bf16_f32 : S32000x4096.Idx → EReal)⟩,
           ⟨S1x32000x4096, broadcastInDim S1x32000x4096 ![1, 2] Facts₀.bcast_S32000x4096_S1x32000x4096_1_2
              (truncf (F := Ideal) .bf16 (m ((c.tc : Thread nD τ).loc main_arg4) : S32000x4096.Idx → EReal) Facts₀.bitsLt_bf16_f32 : S32000x4096.Idx → EReal)⟩]
          Facts₀.concatenates_S1x32000x4096_S1x32000x4096_S2x32000x4096_d0 := by
  dsimp only [Gen.V, Gen.V0]
  simp only [Gen.hostOps0, Gen.hostOps0_1, Gen.hostOps0_2, List.flatten_cons, List.flatten_nil, List.append_nil, List.cons_append, List.nil_append]
  after_results

/-- The label window's array: the class words (class 0 at an ignored label) as one column of 4096 rows. -/
theorem V_v3 (c : Dev nD) :
    (Gen.V m c main_v3 : S4096x1.Idx → BitVec 32)
      = shapeCast S4096x1 (Cert.Spec.labels Facts₀.bcast_S_S8x512 (m ((c.tc : Thread nD τ).loc main_arg2))) Facts₀.shapeCasts_S8x512_S4096x1 := by
  dsimp only [Gen.V, Gen.V0]
  simp only [Gen.hostOps0, Gen.hostOps0_1, Gen.hostOps0_2, List.flatten_cons, List.flatten_nil, List.append_nil, List.cons_append, List.nil_append]
  after_results
  rfl

/-! ## The arrays read at an index -/

/-- Row 512 b + r of stream s of the hidden-state array is token (b, r) of that stream's hidden states. -/
theorem v14_apply (c : Dev nD) (s : Fin 2) (b : Fin 8) (r : Fin 512) (k : Fin 4096) (q : Fin 4096)
    (hq : q.val = b.val * 512 + r.val) :
    (Gen.V m c main_v14 : S2x4096x4096.Idx → EReal) (ix3 s q k) = xsel m c s (ix3 b r k) := by
  refine (congrFun (V_v14 m c) _).trans ?_
  refine (stack2_apply _ _ _ s q k).trans ?_
  unfold xsel
  by_cases hs : s.val = 0
  · rw [if_pos hs, if_pos hs]
    refine (bcast12_apply _ _ (0 : Fin 1) q k).trans ?_
    exact reshape_rows_apply _ _ b r k q hq
  · rw [if_neg hs, if_neg hs]
    refine (bcast12_apply _ _ (0 : Fin 1) q k).trans ?_
    exact reshape_rows_apply _ _ b r k q hq

/-- Row j of stream s of the weight array is that stream's weight row j. -/
theorem v19_apply (c : Dev nD) (s : Fin 2) (j : Fin 32000) (k : Fin 4096) :
    (Gen.V m c main_v19 : S2x32000x4096.Idx → EReal) (ix3 s j k) = wsel m c s (ix2 j k) := by
  refine (congrFun (V_v19 m c) _).trans ?_
  refine (stack2_apply _ _ _ s j k).trans ?_
  unfold wsel
  by_cases hs : s.val = 0
  · rw [if_pos hs, if_pos hs]
    exact bcast12_apply _ _ (0 : Fin 1) j k
  · rw [if_neg hs, if_neg hs]
    exact bcast12_apply _ _ (0 : Fin 1) j k

/-- Row 512 b + r of the label column is token (b, r)'s class word. -/
theorem v3_apply (c : Dev nD) (b : Fin 8) (r : Fin 512) (q : Fin 4096) (u : Fin 1) (hq : q.val = b.val * 512 + r.val) :
    (Gen.V m c main_v3 : S4096x1.Idx → BitVec 32) (ix2 q u)
      = Cert.Spec.labels Facts₀.bcast_S_S8x512 (m ((c.tc : Thread nD τ).loc main_arg2)) (ix2 b r) := by
  refine (congrFun (V_v3 m c) _).trans ?_
  exact reshape_col_apply _ _ b r q u hq

/-! ## The blocks at a point, read where the arrays' indices say -/

/-- Row r of the hidden-state block at point t is row 512 (sequence of t) + r of the array's stream of t. -/
theorem xblk_eq_V (c : Dev nD) (t : Fin cfg0.N) (r : Fin 512) (k : Fin 4096) (q : Fin 4096)
    (hq : q.val = (bOf t).val * 512 + r.val) :
    xblk m c t (ix3 (0 : Fin 1) r k) = (Gen.V m c main_v14 : S2x4096x4096.Idx → EReal) (ix3 (sOf t) q k) := by
  have hi := idx0 t
  unfold xblk Gen.iblk
  rw [View.read_apply]
  show (Gen.V m c main_v14 : S2x4096x4096.Idx → EReal) _ = (Gen.V m c main_v14 : S2x4096x4096.Idx → EReal) _
  congr 1
  funext a
  apply Fin.ext
  match a with
  | ⟨0, _⟩ => show win0_0.index t 0 * 1 + 1 * 0 = t.val / 200; rw [hi.1]; omega
  | ⟨1, _⟩ => show win0_0.index t 1 * 512 + 1 * r.val = q.val; rw [hi.2.1, hq]; show _ = (t.val / 25) % 8 * 512 + r.val; omega
  | ⟨2, _⟩ => show win0_0.index t 2 * 4096 + 1 * k.val = k.val; rw [hi.2.2]; omega

/-- Row j of the weight block at point t is row 1280 (block of t) + j of the array's stream of t. -/
theorem wblk_eq_V (c : Dev nD) (t : Fin cfg0.N) (j : Fin 1280) (k : Fin 4096) :
    wblk m c t (ix3 (0 : Fin 1) j k) = (Gen.V m c main_v19 : S2x32000x4096.Idx → EReal) (ix3 (sOf t) (Cert.Spec.col (vOf t) j) k) := by
  have hi := idx1 t
  unfold wblk Gen.iblk
  rw [View.read_apply]
  show (Gen.V m c main_v19 : S2x32000x4096.Idx → EReal) _ = (Gen.V m c main_v19 : S2x32000x4096.Idx → EReal) _
  congr 1
  funext a
  apply Fin.ext
  match a with
  | ⟨0, _⟩ => show win0_1.index t 0 * 1 + 1 * 0 = t.val / 200; rw [hi.1]; omega
  | ⟨1, _⟩ => show win0_1.index t 1 * 1280 + 1 * j.val = t.val % 25 * 1280 + j.val; rw [hi.2.1]; omega
  | ⟨2, _⟩ => show win0_1.index t 2 * 4096 + 1 * k.val = k.val; rw [hi.2.2]; omega

/-- Row r of the label block at point t is row 512 (sequence of t) + r of the label column. -/
theorem lblk_eq_V (c : Dev nD) (t : Fin cfg0.N) (r : Fin 512) (q : Fin 4096) (hq : q.val = (bOf t).val * 512 + r.val) :
    lblk m c t (ix2 r (0 : Fin 1)) = (Gen.V m c main_v3 : S4096x1.Idx → BitVec 32) (ix2 q (0 : Fin 1)) := by
  have hi := idx2 t
  unfold lblk Gen.iblk
  rw [View.read_apply]
  show (Gen.V m c main_v3 : S4096x1.Idx → BitVec 32) _ = (Gen.V m c main_v3 : S4096x1.Idx → BitVec 32) _
  congr 1
  funext a
  apply Fin.ext
  match a with
  | ⟨0, _⟩ => show win0_2.index t 0 * 512 + 1 * r.val = q.val; rw [hi.1, hq]; show _ = (t.val / 25) % 8 * 512 + r.val; omega
  | ⟨1, _⟩ => show win0_2.index t 1 * 1 + 1 * 0 = 0; rw [hi.2]

/-! ## The three windows' blocks in terms of the arguments -/

theorem xblk_apply (c : Dev nD) (t : Fin cfg0.N) (r : Fin 512) (k : Fin 4096) :
    xblk m c t (ix3 (0 : Fin 1) r k) = xsel m c (sOf t) (ix3 (bOf t) r k) :=
  have hq : (bOf t).val * 512 + r.val < 4096 := by have := (bOf t).isLt; have := r.isLt; omega
  (xblk_eq_V m c t r k ⟨(bOf t).val * 512 + r.val, hq⟩ rfl).trans (v14_apply m c (sOf t) (bOf t) r k _ rfl)

theorem wblk_apply (c : Dev nD) (t : Fin cfg0.N) (j : Fin 1280) (k : Fin 4096) :
    wblk m c t (ix3 (0 : Fin 1) j k) = wsel m c (sOf t) (ix2 (Cert.Spec.col (vOf t) j) k) :=
  (wblk_eq_V m c t j k).trans (v19_apply m c (sOf t) (Cert.Spec.col (vOf t) j) k)

theorem lblk_apply (c : Dev nD) (t : Fin cfg0.N) (r : Fin 512) :
    lblk m c t (ix2 r (0 : Fin 1))
      = Cert.Spec.labels Cert.KernelIdeal.Facts₀.bcast_S_S8x512 (m ((c.tc : Thread nD τ).loc main_arg2)) (ix2 (bOf t) r) :=
  have hq : (bOf t).val * 512 + r.val < 4096 := by have := (bOf t).isLt; have := r.isLt; omega
  (lblk_eq_V m c t r ⟨(bOf t).val * 512 + r.val, hq⟩ rfl).trans (v3_apply m c (bOf t) r _ (0 : Fin 1) rfl)

end Cert.KernelIdeal.Val

end
-- ==== Proof.KPieces.lean ====
/-
  What each of the body's three cases leaves in the three carried buffers and in the output block, as the body's own
  arithmetic of what it loaded: the first block of a row (case A) starts from the reset values (minus infinity, 0, 0),
  the later blocks (cases B and C) from what the block before left, and the last block (case C) also stores the emitted
  value.

  Every store and every load of the body goes through the whole-shape rectangle at zero offsets of its buffer, so
  * a buffer that ends with ONE such store holds that store's payload;
  * a buffer that is reset and then updated (two such stores) holds the payload of the LATER store, whatever the
    earlier one was;
  * a load of a buffer whose contents are given reads those contents, and a load made after one such store reads that
    store's payload.
  With these three facts each piece the run found reads back as the payload term applied to the loaded blocks: in case A
  the update's loads of the carried buffers come after the reset, so they read the reset values; in case C the emitted
  value's loads of the carried buffers come after their updates, so they read the updated values.
-/
import proofs.«414541_j71975061946952_2_alg».proof.Proof.Gen.KernelIdeal.Frame
import Idealize.ShloMosaic.Lib.Tactic
import Idealize.ShloMosaic.Lib.Pipeline.Value

noncomputable section

namespace Cert.KernelIdeal.Val

open Idealize.ShloMosaic Idealize.ShloMosaic.TcCoe Idealize.ShloMosaic.Tactic Cert.KernelIdeal Cert.KernelIdeal.Gen

variable {F : FTy → Type} [FloatOps F]

/-- The rank-2 offsets `(0, 0)`, however spelt, are the zero offsets. -/
private theorem hz2 : (![0, 0] : Fin 2 → Nat) = fun _ => 0 := funext fun a => by fin_cases a <;> rfl

/-- The rank-3 offsets `(0, 0, 0)` are the zero offsets. -/
private theorem hz3 : (![0, 0, 0] : Fin 3 → Nat) = fun _ => 0 := funext fun a => by fin_cases a <;> rfl

/-! ## Case A: the first block of a row — each carried buffer is reset, read back, and updated

Each carried buffer ends with two whole-buffer stores, the update last: it holds the update's payload. The update's
load of a carried buffer follows the reset of that buffer, so it reads the reset value (minus infinity for the running
maximum, zero for the running sum and for the label logit). -/
section A
variable (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S512x1 .i32) (harg5 : arg5.IsWhole) (arg6 : Memref sig .tc .vmem S1x512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : cond0_0 i) (hc1 : ¬cond0_1 i) (x0 : Vec F S1x512x4096 .bf16) (x1 : Vec F S1x1280x4096 .bf16) (x2 : Vec F S512x1 .i32)
/-- The running maximum after the first block: the maximum of minus infinity and the block's row maxima. -/
theorem sA0 : sout0_A_0 c i arg3 harg3 arg4 harg4 arg5 harg5 arg6 harg6 arg7 harg7 arg8 harg8 arg9 harg9 hc0 hc1 x0 x1 x2 = k0_pay2 (k0_pay9 x0 x1 k0_pay4) := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg3.read_unread, harg4.read_unread, View.ld_unit_zero (S := S1x512x4096) hz3, View.ld_unit_zero (S := S1x1280x4096) hz3]
/-- The running sum after the first block: the reset sum rescaled from the reset maximum to the new one, plus the
    block's row sums of exponentials taken off the new maximum. -/
theorem sA1 : sout0_A_1 c i arg3 harg3 arg4 harg4 arg5 harg5 arg6 harg6 arg7 harg7 arg8 harg8 arg9 harg9 hc0 hc1 x0 x1 x2 = k0_pay10 x0 x1 k0_pay4 k0_pay5 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg3.read_unread, harg4.read_unread, View.ld_unit_zero (S := S1x512x4096) hz3, View.ld_unit_zero (S := S1x1280x4096) hz3]
/-- The label logit after the first block: zero plus the block's logit selected at the label's column. -/
theorem sA2 : sout0_A_2 c i arg3 harg3 arg4 harg4 arg5 harg5 arg6 harg6 arg7 harg7 arg8 harg8 arg9 harg9 hc0 hc1 x0 x1 x2 = k0_pay1 (k0_pay7 x0 x1) (k0_pay8 i x2) k0_pay6 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S512x1) hz2]
  simp only [View.readCov_unit_zero (S := S512x1) _ hz2, View.readAt_eq_ld, harg3.read_unread, harg4.read_unread, harg5.read_unread, View.ld_unit_zero (S := S512x1) hz2, View.ld_unit_zero (S := S1x512x4096) hz3, View.ld_unit_zero (S := S1x1280x4096) hz3]
end A

/-! ## Case B: a middle block — each carried buffer is updated from what the block before left

Each carried buffer ends with one whole-buffer store: it holds that store's payload, whose loads read the given
contents `xs0`, `xs1`, `xs2`. -/
section B
variable (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S512x1 .i32) (harg5 : arg5.IsWhole) (arg6 : Memref sig .tc .vmem S1x512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : ¬cond0_1 i) (x0 : Vec F S1x512x4096 .bf16) (x1 : Vec F S1x1280x4096 .bf16) (x2 : Vec F S512x1 .i32) (xs0 : Vec F S512x1 .f32) (xs1 : Vec F S512x1 .f32) (xs2 : Vec F S512x1 .f32)
/-- The running maximum: the maximum of the previous one and the block's row maxima. -/
theorem sB0 : sout0_B_0 c i arg3 harg3 arg4 harg4 arg5 harg5 arg6 harg6 arg7 harg7 arg8 harg8 arg9 harg9 hc0 hc1 x0 x1 x2 xs0 xs1 xs2 = k0_pay2 (k0_pay9 x0 x1 xs0) := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readAt_eq_ld, harg3.read_unread, harg4.read_unread, harg7.read_unread, View.ld_unit_zero (S := S512x1) hz2, View.ld_unit_zero (S := S1x512x4096) hz3, View.ld_unit_zero (S := S1x1280x4096) hz3]
/-- The running sum: the previous one rescaled to the new maximum, plus the block's row sums of exponentials. -/
theorem sB1 : sout0_B_1 c i arg3 harg3 arg4 harg4 arg5 harg5 arg6 harg6 arg7 harg7 arg8 harg8 arg9 harg9 hc0 hc1 x0 x1 x2 xs0 xs1 xs2 = k0_pay10 x0 x1 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readAt_eq_ld, harg3.read_unread, harg4.read_unread, harg7.read_unread, harg8.read_unread, View.ld_unit_zero (S := S512x1) hz2, View.ld_unit_zero (S := S1x512x4096) hz3, View.ld_unit_zero (S := S1x1280x4096) hz3]
/-- The label logit: the previous one plus the block's logit selected at the label's column. -/
theorem sB2 : sout0_B_2 c i arg3 harg3 arg4 harg4 arg5 harg5 arg6 harg6 arg7 harg7 arg8 harg8 arg9 harg9 hc0 hc1 x0 x1 x2 xs0 xs1 xs2 = k0_pay1 (k0_pay7 x0 x1) (k0_pay8 i x2) xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz2]
  simp only [View.readAt_eq_ld, harg3.read_unread, harg4.read_unread, harg5.read_unread, harg9.read_unread, View.ld_unit_zero (S := S512x1) hz2, View.ld_unit_zero (S := S1x512x4096) hz3, View.ld_unit_zero (S := S1x1280x4096) hz3]
end B

/-! ## Case C: the last block — the same three updates, then the emitted value

The carried buffers are updated exactly as in case B. The emitted value is computed from loads of the three carried
buffers made AFTER their updates, each of which reads the updated value: label logit minus (maximum plus the logarithm of
the sum), of the three UPDATED quantities. -/
section C
variable (c : Dev nD) (i : grid0.Coords) (arg3 : Memref sig .tc .vmem S1x512x4096 .bf16) (harg3 : arg3.IsWhole) (arg4 : Memref sig .tc .vmem S1x1280x4096 .bf16) (harg4 : arg4.IsWhole) (arg5 : Memref sig .tc .vmem S512x1 .i32) (harg5 : arg5.IsWhole) (arg6 : Memref sig .tc .vmem S1x512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (hc0 : ¬cond0_0 i) (hc1 : cond0_1 i) (x0 : Vec F S1x512x4096 .bf16) (x1 : Vec F S1x1280x4096 .bf16) (x2 : Vec F S512x1 .i32) (xs0 : Vec F S512x1 .f32) (xs1 : Vec F S512x1 .f32) (xs2 : Vec F S512x1 .f32)
/-- The running maximum: the maximum of the previous one and the block's row maxima. -/
theorem sC0 : sout0_C_0 c i arg3 harg3 arg4 harg4 arg5 harg5 arg6 harg6 arg7 harg7 arg8 harg8 arg9 harg9 hc0 hc1 x0 x1 x2 xs0 xs1 xs2 = k0_pay2 (k0_pay9 x0 x1 xs0) := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz2]
  simp only [View.readAt_eq_ld, harg3.read_unread, harg4.read_unread, harg7.read_unread, View.ld_unit_zero (S := S512x1) hz2, View.ld_unit_zero (S := S1x512x4096) hz3, View.ld_unit_zero (S := S1x1280x4096) hz3]
/-- The running sum: the previous one rescaled to the new maximum, plus the block's row sums of exponentials. -/
theorem sC1 : sout0_C_1 c i arg3 harg3 arg4 harg4 arg5 harg5 arg6 harg6 arg7 harg7 arg8 harg8 arg9 harg9 hc0 hc1 x0 x1 x2 xs0 xs1 xs2 = k0_pay10 x0 x1 xs0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz2]
  simp only [View.readAt_eq_ld, harg3.read_unread, harg4.read_unread, harg7.read_unread, harg8.read_unread, View.ld_unit_zero (S := S512x1) hz2, View.ld_unit_zero (S := S1x512x4096) hz3, View.ld_unit_zero (S := S1x1280x4096) hz3]
/-- The label logit: the previous one plus the block's logit selected at the label's column. -/
theorem sC2 : sout0_C_2 c i arg3 harg3 arg4 harg4 arg5 harg5 arg6 harg6 arg7 harg7 arg8 harg8 arg9 harg9 hc0 hc1 x0 x1 x2 xs0 xs1 xs2 = k0_pay1 (k0_pay7 x0 x1) (k0_pay8 i x2) xs2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz2]
  simp only [View.readAt_eq_ld, harg3.read_unread, harg4.read_unread, harg5.read_unread, harg9.read_unread, View.ld_unit_zero (S := S512x1) hz2, View.ld_unit_zero (S := S1x512x4096) hz3, View.ld_unit_zero (S := S1x1280x4096) hz3]
/-- The emitted block: its one whole-block store's payload, applied to the three carried buffers as just updated. -/
theorem oC3 : out0_C_3 c i arg3 harg3 arg4 harg4 arg5 harg5 arg6 harg6 arg7 harg7 arg8 harg8 arg9 harg9 hc0 hc1 x0 x1 x2 xs0 xs1 xs2
    = k0_pay3 (k0_pay2 (k0_pay9 x0 x1 xs0)) (k0_pay10 x0 x1 xs0 xs1) (k0_pay1 (k0_pay7 x0 x1) (k0_pay8 i x2) xs2) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readCov_unit_zero (S := S512x1) _ hz2, View.readAt_eq_ld, harg3.read_unread, harg4.read_unread, harg5.read_unread, harg7.read_unread, harg8.read_unread, harg9.read_unread, View.ld_unit_zero (S := S512x1) hz2, View.ld_unit_zero (S := S1x512x4096) hz3, View.ld_unit_zero (S := S1x1280x4096) hz3]
end C

end Cert.KernelIdeal.Val

end
-- ==== Proof.KStep.lean ====
/-
  One grid point's arithmetic on one row, over the extended reals: from the row of the hidden block and the block of
  1280 weight rows the body forms 1280 logits (inner products), takes their maximum into the running maximum, rescales
  the running sum of exponentials and adds the block's, and adds the label's logit if its class lies in the block;
  the reset values are (minus infinity, 0, 0); the emitted value is label logit minus (maximum plus log of the sum).
-/
import proofs.«414541_j71975061946952_2_alg».proof.Proof.Gen.KernelIdeal.Skeleton
import proofs.«414541_j71975061946952_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Val

open Idealize.ShloMosaic Idealize.ShloMosaic.ValueIdx Cert.KernelIdeal Cert.KernelIdeal.Gen

/-! ## Layout operations of this block read at coordinates -/

section Layout
variable {α : Type}

/-- A vector of length `n` cast to a column `[n, 1]` reads, at `(r, u)`, the vector at `r`. -/
theorem shapeCast_a_a1_apply {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- A column `[a, 1]` broadcast to `[a, b]` reads, at `(r, c)`, the column at `r`. -/
theorem broadcastTo_a1_ab_apply {a b : ℕ} (x : (⟨2, ![a, 1]⟩ : Shape).Idx → α)
    (h : (⟨2, ![a, 1]⟩ : Shape).Broadcasts ⟨2, ![a, b]⟩) (r : Fin a) (c : Fin b) :
    broadcastTo ⟨2, ![a, b]⟩ x h (ix2 r c) = x (ix2 r (0 : Fin 1)) := by
  refine broadcastTo_apply x h (ix2 r c) (ix2 r (0 : Fin 1)) fun ax => ?_
  match ax with
  | ⟨0, _⟩ =>
    show r.val = if a = 1 then 0 else r.val
    split
    · have := r.isLt; omega
    · rfl
  | ⟨1, _⟩ => rfl

/-- The index over `r` with column `k` inserted, for the reduction of the `[512, 1280]` block along its columns. -/
theorem lift_row (h : S512x1280.Reduces [1] S512) (r : Fin 512) (k : Fin 1280) :
    h.lift (ix1 r) k = ix2 r k := by
  funext c
  match c with
  | ⟨0, _⟩ => rfl
  | ⟨1, _⟩ => rfl

end Layout

/-! ## The logits block at an index -/

section Logits

/-- The left operand's row coordinate is the output's row. -/
theorem lhs_logits_0 (i : S512x1280.Idx) (q : dot_S512x4096_S1280x4096_S512x1280_1_1_0_0_n_n.contr.Idx) :
    (dot_S512x4096_S1280x4096_S512x1280_1_1_0_0_n_n.lhsIdx i q 0).val = (i 0).val := by
  unfold DotDims.lhsIdx
  rw [dif_neg (show ¬(0 : Fin S512x4096.rank) ∈ dot_S512x4096_S1280x4096_S512x1280_1_1_0_0_n_n.lhsBatch by decide),
    dif_pos (show (0 : Fin S512x4096.rank) ∈ dot_S512x4096_S1280x4096_S512x1280_1_1_0_0_n_n.lhsNonContracting by decide)]
  rfl

/-- The left operand's column coordinate is the contraction coordinate. -/
theorem lhs_logits_1 (i : S512x1280.Idx) (q : dot_S512x4096_S1280x4096_S512x1280_1_1_0_0_n_n.contr.Idx) :
    (dot_S512x4096_S1280x4096_S512x1280_1_1_0_0_n_n.lhsIdx i q 1).val = (q ⟨0, by decide⟩).val :=
  dot_S512x4096_S1280x4096_S512x1280_1_1_0_0_n_n.lhsIdx_val_of_single rfl i q

/-- The right operand's row coordinate is the output's column. -/
theorem rhs_logits_0 (i : S512x1280.Idx) (q : dot_S512x4096_S1280x4096_S512x1280_1_1_0_0_n_n.contr.Idx) :
    (dot_S512x4096_S1280x4096_S512x1280_1_1_0_0_n_n.rhsIdx i q 0).val = (i 1).val := by
  unfold DotDims.rhsIdx
  rw [dif_neg (show ¬(0 : Fin S1280x4096.rank) ∈ dot_S512x4096_S1280x4096_S512x1280_1_1_0_0_n_n.rhsBatch by decide),
    dif_pos (show (0 : Fin S1280x4096.rank) ∈ dot_S512x4096_S1280x4096_S512x1280_1_1_0_0_n_n.rhsNonContracting by decide)]
  rfl

/-- The right operand's column coordinate is the contraction coordinate. -/
theorem rhs_logits_1 (i : S512x1280.Idx) (q : dot_S512x4096_S1280x4096_S512x1280_1_1_0_0_n_n.contr.Idx) :
    (dot_S512x4096_S1280x4096_S512x1280_1_1_0_0_n_n.rhsIdx i q 1).val = (q ⟨0, by decide⟩).val :=
  dot_S512x4096_S1280x4096_S512x1280_1_1_0_0_n_n.rhsIdx_val_of_single rfl i q

/-- The logits block at `(r, j)`: the inner product of row `r` of the hidden block and row `j` of the weight block. -/
theorem logits_at (x0 : Vec Ideal S1x512x4096 .bf16) (x1 : Vec Ideal S1x1280x4096 .bf16) (r : Fin 512) (j : Fin 1280) :
    (k0_pay7 x0 x1 : Vec Ideal S512x1280 .f32) (ix2 r j)
      = ∑ k : Fin 4096, x0 (ix3 (0 : Fin 1) r k) * x1 (ix3 (0 : Fin 1) j k) := by
  unfold k0_pay7
  refine (Ideal.matmul_constant_zero_apply dot_S512x4096_S1280x4096_S512x1280_1_1_0_0_n_n none _ _ (ix2 r j)).trans ?_
  rw [← Equiv.sum_comp (contrEquiv1 dot_S512x4096_S1280x4096_S512x1280_1_1_0_0_n_n 4096 rfl rfl).symm]
  refine Finset.sum_congr rfl fun k _ => ?_
  have hk := contrEquiv1_symm_val dot_S512x4096_S1280x4096_S512x1280_1_1_0_0_n_n 4096 rfl rfl k
  have el : dot_S512x4096_S1280x4096_S512x1280_1_1_0_0_n_n.lhsIdx (ix2 r j)
      ((contrEquiv1 dot_S512x4096_S1280x4096_S512x1280_1_1_0_0_n_n 4096 rfl rfl).symm k) = ix2 r k :=
    funext fun a => Fin.ext (by
      match a with
      | ⟨0, _⟩ => exact lhs_logits_0 _ _
      | ⟨1, _⟩ => exact (lhs_logits_1 _ _).trans hk)
  have er : dot_S512x4096_S1280x4096_S512x1280_1_1_0_0_n_n.rhsIdx (ix2 r j)
      ((contrEquiv1 dot_S512x4096_S1280x4096_S512x1280_1_1_0_0_n_n 4096 rfl rfl).symm k) = ix2 j k :=
    funext fun a => Fin.ext (by
      match a with
      | ⟨0, _⟩ => exact rhs_logits_0 _ _
      | ⟨1, _⟩ => exact (rhs_logits_1 _ _).trans hk)
  rw [el, er, shapeCast_1ab_ab_apply, shapeCast_1ab_ab_apply]

end Logits

/-! ## The three state updates at a row -/

section Updates

/-- The word `0xFF800000` is minus infinity. -/
theorem ofBits_neg_inf_f32 : Ideal.ofBits .f32 0xFF800000#32 = (⊥ : EReal) := by
  simp [Ideal.ofBits, Ideal.ieee]

/-- The running maximum after the block, at row `r`: the old one against the block's logits' maximum. -/
theorem max_at (x0 : Vec Ideal S1x512x4096 .bf16) (x1 : Vec Ideal S1x1280x4096 .bf16) (xs0 : Vec Ideal S512x1 .f32)
    (r : Fin 512) (u : Fin 1) :
    (k0_pay9 x0 x1 xs0 : Vec Ideal S512x1 .f32) (ix2 r u)
      = max (xs0 (ix2 r u))
          ((Finset.univ : Finset (Fin 1280)).fold max ⊥ fun j => (k0_pay7 x0 x1 : Vec Ideal S512x1280 .f32) (ix2 r j)) := by
  unfold k0_pay9
  refine (maximumf_apply _ _ _).trans ?_
  refine congrArg (max (xs0 (ix2 r u))) ?_
  refine (shapeCast_a_a1_apply _ _ r u).trans ?_
  refine (Ideal.multiReduction_maximumf_single (k0_pay7 x0 x1 : FVec Ideal S512x1280 .f32) 0xFF800000#32
    reduces_S512x1280_S512 (.inl rfl) rfl (ix1 r)).trans ?_
  show (Finset.univ : Finset (Fin 1280)).fold max (Ideal.ofBits .f32 0xFF800000#32) _ = _
  rw [ofBits_neg_inf_f32]
  refine congrArg (fun f => (Finset.univ : Finset (Fin 1280)).fold max (⊥ : EReal) f) (funext fun j => ?_)
  show (k0_pay7 x0 x1 : Vec Ideal S512x1280 .f32) (reduces_S512x1280_S512.lift (ix1 r) j) = _
  exact congrArg (k0_pay7 x0 x1 : Vec Ideal S512x1280 .f32) (lift_row reduces_S512x1280_S512 r j)

end Updates

section Updates2

/-- A sum over the columns of the block through the inserted index is the sum over the column coordinate. -/
theorem sum_lift_row (h : S512x1280.Reduces [1] S512) (f : S512x1280.Idx → EReal) (r : Fin 512) :
    ∑ k : Fin (S512x1280.size 1), f (h.lift (ix1 r) k) = ∑ j : Fin 1280, f (ix2 r j) :=
  Finset.sum_congr rfl fun j _ => congrArg f (lift_row h r j)

/-- The rescaled running sum of exponentials after the block, at row `r`. -/
theorem sumexp_at (x0 : Vec Ideal S1x512x4096 .bf16) (x1 : Vec Ideal S1x1280x4096 .bf16) (xs0 xs1 : Vec Ideal S512x1 .f32)
    (r : Fin 512) (u : Fin 1) :
    (k0_pay10 x0 x1 xs0 xs1 : Vec Ideal S512x1 .f32) (ix2 r u)
      = Ideal.exp (xs0 (ix2 r u) - (k0_pay9 x0 x1 xs0 : Vec Ideal S512x1 .f32) (ix2 r u)) * xs1 (ix2 r u)
        + ∑ j : Fin 1280, Ideal.exp ((k0_pay7 x0 x1 : Vec Ideal S512x1280 .f32) (ix2 r j)
            - (k0_pay9 x0 x1 xs0 : Vec Ideal S512x1 .f32) (ix2 r (0 : Fin 1))) := by
  unfold k0_pay10
  refine (congrFun (shapeCast_self _ _) _).trans ?_
  refine (addf_apply _ _ _).trans ?_
  refine congrArg₂ (· + ·) rfl ?_
  refine (shapeCast_a_a1_apply _ _ r u).trans ?_
  refine (Ideal.multiReduction_add_single _ 0x00000000#32 reduces_S512x1280_S512 (.inl rfl) rfl (ix1 r)).trans ?_
  refine (sum_lift_row _ _ r).trans ?_
  refine Finset.sum_congr rfl fun j _ => ?_
  exact congrArg (fun t => Ideal.exp ((k0_pay7 x0 x1 : Vec Ideal S512x1280 .f32) (ix2 r j) - t))
    (broadcastTo_a1_ab_apply _ _ r j)

/-- The class word of column `j` of block `v`, as the body forms it: the column number plus 1280 times the block number. -/
theorem col_word (v : Fin 25) (j : Fin 1280) :
    BitVec.ofNat 32 j.val + BitVec.ofNat 32 v.val * 1280#32 = BitVec.ofNat 32 (v.val * 1280 + j.val) := by
  apply BitVec.eq_of_toNat_eq
  have hv := v.isLt
  have hj := j.isLt
  simp only [BitVec.toNat_add, BitVec.toNat_mul, BitVec.toNat_ofNat]
  omega

/-- The label mask at `(r, j)`: the compare of the column's class word with row `r`'s label. -/
theorem mask_at (i : grid0.Coords) (v : Fin 25) (hv : (i 2).val = v.val) (x2 : Vec Ideal S512x1 .i32)
    (r : Fin 512) (j : Fin 1280) :
    (k0_pay8 (F := Ideal) i x2) (ix2 r j)
      = IntOp.cmpi .eq (BitVec.ofNat 32 (v.val * 1280 + j.val)) (x2 (ix2 r (0 : Fin 1))) := by
  unfold k0_pay8
  show IntOp.cmpi .eq (IntOp.addi (iota .tc S512x1280 32 [1] iota_S512x1280_d1_w32 (ix2 r j))
      (Scalar.muli (BitVec.ofNat 32 (i 2).val) 1280#32))
      (broadcastTo S512x1280 (shapeCast S512x1 x2 shapeCasts_S512x1_S512x1) broadcasts_S512x1_S512x1280 (ix2 r j)) = _
  rw [iota_single_apply, broadcastTo_a1_ab_apply, shapeCast_self, hv]
  exact congrArg (fun w => IntOp.cmpi .eq w (x2 (ix2 r (0 : Fin 1)))) (col_word v j)

/-- A select on an equality compare is the `if` on the equality. -/
theorem select_cmpi_eq {α : Type} (a b : BitVec 32) (X Y : α) :
    Scalar.select (IntOp.cmpi .eq a b) X Y = if a = b then X else Y := by
  unfold Scalar.select
  by_cases h : a = b
  · exact (if_pos (IntOp.cmpi_eq.mpr h)).trans (if_pos h).symm
  · exact (if_neg (fun h' => h (IntOp.cmpi_eq.mp h'))).trans (if_neg h).symm

/-- The running label logit after the block, at row `r`: the old one plus the logit of the column whose class word is
    the row's label, if there is one. -/
theorem label_at (i : grid0.Coords) (v : Fin 25) (hv : (i 2).val = v.val)
    (x0 : Vec Ideal S1x512x4096 .bf16) (x1 : Vec Ideal S1x1280x4096 .bf16) (x2 : Vec Ideal S512x1 .i32)
    (xs2 : Vec Ideal S512x1 .f32) (r : Fin 512) (u : Fin 1) :
    (k0_pay1 (k0_pay7 x0 x1) (k0_pay8 i x2) xs2 : Vec Ideal S512x1 .f32) (ix2 r u)
      = xs2 (ix2 r u) + ∑ j : Fin 1280,
          if BitVec.ofNat 32 (v.val * 1280 + j.val) = x2 (ix2 r (0 : Fin 1))
            then (k0_pay7 x0 x1 : Vec Ideal S512x1280 .f32) (ix2 r j) else 0 := by
  unfold k0_pay1
  refine (congrFun (shapeCast_self _ _) _).trans ?_
  refine (addf_apply _ _ _).trans ?_
  refine congrArg (xs2 (ix2 r u) + ·) ?_
  refine (shapeCast_a_a1_apply _ _ r u).trans ?_
  refine (Ideal.multiReduction_add_single _ 0x00000000#32 reduces_S512x1280_S512 (.inl rfl) rfl (ix1 r)).trans ?_
  refine (sum_lift_row _ _ r).trans ?_
  refine Finset.sum_congr rfl fun j _ => ?_
  show Scalar.select ((k0_pay8 (F := Ideal) i x2) (ix2 r j)) ((k0_pay7 x0 x1 : Vec Ideal S512x1280 .f32) (ix2 r j))
    (Ideal.ofBits .f32 0x00000000#32) = _
  rw [mask_at i v hv, select_cmpi_eq, Ideal.ofBits_zero_f32]

end Updates2

/-! ## The three statements -/

theorem step_at (i : grid0.Coords) (v : Fin 25) (hv : (i 2).val = v.val)
    (x0 : Vec Ideal S1x512x4096 .bf16) (x1 : Vec Ideal S1x1280x4096 .bf16) (x2 : Vec Ideal S512x1 .i32)
    (xs0 xs1 xs2 : Vec Ideal S512x1 .f32) (r : Fin 512) (ℓ : Fin 32000 → EReal)
    (hℓ : ∀ j : Fin 1280, ℓ (Cert.Spec.col v j) = ∑ k : Fin 4096, x0 (ix3 (0 : Fin 1) r k) * x1 (ix3 (0 : Fin 1) j k)) :
    ((k0_pay2 (k0_pay9 x0 x1 xs0) : Vec Ideal S512x1 .f32) (ix2 r (0 : Fin 1)),
     (k0_pay10 x0 x1 xs0 xs1 : Vec Ideal S512x1 .f32) (ix2 r (0 : Fin 1)),
     (k0_pay1 (k0_pay7 x0 x1) (k0_pay8 i x2) xs2 : Vec Ideal S512x1 .f32) (ix2 r (0 : Fin 1)))
      = Cert.Spec.step ℓ (x2 (ix2 r (0 : Fin 1))) v (xs0 (ix2 r (0 : Fin 1)), xs1 (ix2 r (0 : Fin 1)), xs2 (ix2 r (0 : Fin 1))) := by
  have hcol : ∀ j : Fin 1280, (k0_pay7 x0 x1 : Vec Ideal S512x1280 .f32) (ix2 r j) = ℓ (Cert.Spec.col v j) :=
    fun j => (logits_at x0 x1 r j).trans (hℓ j).symm
  have hm : (k0_pay9 x0 x1 xs0 : Vec Ideal S512x1 .f32) (ix2 r (0 : Fin 1))
      = max (xs0 (ix2 r (0 : Fin 1))) ((Finset.univ : Finset (Fin 1280)).fold max ⊥ fun j => ℓ (Cert.Spec.col v j)) := by
    rw [max_at]
    simp only [hcol]
  unfold Cert.Spec.step
  refine Prod.ext ?_ (Prod.ext ?_ ?_)
  · show (k0_pay2 (k0_pay9 x0 x1 xs0) : Vec Ideal S512x1 .f32) (ix2 r (0 : Fin 1)) = _
    unfold k0_pay2
    exact (congrFun (shapeCast_self _ _) _).trans hm
  · show (k0_pay10 x0 x1 xs0 xs1 : Vec Ideal S512x1 .f32) (ix2 r (0 : Fin 1)) = _
    rw [sumexp_at, hm]
    simp only [hcol]
  · show (k0_pay1 (k0_pay7 x0 x1) (k0_pay8 i x2) xs2 : Vec Ideal S512x1 .f32) (ix2 r (0 : Fin 1)) = _
    rw [label_at i v hv]
    simp only [hcol]
    rfl

theorem emit_at (a b d : Vec Ideal S512x1 .f32) (r : Fin 512) :
    (k0_pay3 a b d : Vec Ideal S1x512x1 .f32) (ix3 (0 : Fin 1) r (0 : Fin 1))
      = Cert.Spec.emit (a (ix2 r (0 : Fin 1)), b (ix2 r (0 : Fin 1)), d (ix2 r (0 : Fin 1))) := by
  unfold k0_pay3
  refine (shapeCast_ab_1ab_apply _ _ (0 : Fin 1) r (0 : Fin 1)).trans ?_
  rfl

theorem reset_at (r : Fin 512) :
    ((k0_pay4 (F := Ideal) : Vec Ideal S512x1 .f32) (ix2 r (0 : Fin 1)),
     (k0_pay5 (F := Ideal) : Vec Ideal S512x1 .f32) (ix2 r (0 : Fin 1)),
     (k0_pay6 (F := Ideal) : Vec Ideal S512x1 .f32) (ix2 r (0 : Fin 1))) = ((⊥ : EReal), (0 : EReal), (0 : EReal)) := by
  refine Prod.ext ?_ (Prod.ext ?_ ?_)
  · show (k0_pay4 (F := Ideal) : Vec Ideal S512x1 .f32) (ix2 r (0 : Fin 1)) = ⊥
    unfold k0_pay4
    exact (congrFun (shapeCast_self _ _) _).trans ofBits_neg_inf_f32
  · show (k0_pay5 (F := Ideal) : Vec Ideal S512x1 .f32) (ix2 r (0 : Fin 1)) = 0
    unfold k0_pay5
    exact (congrFun (shapeCast_self _ _) _).trans Ideal.ofBits_zero_f32
  · show (k0_pay6 (F := Ideal) : Vec Ideal S512x1 .f32) (ix2 r (0 : Fin 1)) = 0
    unfold k0_pay6
    exact (congrFun (shapeCast_self _ _) _).trans Ideal.ofBits_zero_f32

end Cert.KernelIdeal.Val

end
-- ==== Proof.OnlineSoftmax.lean ====
/-
  The law behind the kernel's row state.  Along a row of real logits, taking the blocks of 1280 classes in order and
  keeping (the maximum so far, the sum so far of exponentials shifted by that maximum — rescaled whenever the maximum
  moves —, the logit of the label's class once its block has passed), the value emitted after the last block,
  label logit minus (maximum plus log of the sum), is the log-softmax of the row at the label's class.
-/
import proofs.«414541_j71975061946952_2_alg».proof.Proof.Spec
import Mathlib.Analysis.SpecialFunctions.Log.Basic
import Mathlib.Data.EReal.Basic
import Mathlib.Data.EReal.Operations
import Mathlib.Data.Finset.Lattice.Fold
import Mathlib.Algebra.BigOperators.Fin
import Mathlib.Algebra.BigOperators.Ring.Finset
import Mathlib.Algebra.Order.BigOperators.Group.Finset

noncomputable section

open scoped BigOperators

namespace Cert.OnlineSoftmax

open Cert.Spec Idealize.ShloMosaic

/-! ## Two facts about the reals inside the extended reals -/

/-- The inclusion of the reals in the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over a nonempty finite set, the supremum of real values taken in the extended reals is the real maximum. -/
theorem sup_coe {ι : Type*} (s : Finset ι) (hs : s.Nonempty) (f : ι → ℝ) :
    s.sup (fun i => ((f i : ℝ) : EReal)) = ((s.sup' hs f : ℝ) : EReal) := by
  rw [← Finset.sup'_eq_sup hs]
  exact (Finset.apply_sup'_eq_sup'_comp hs (fun x : ℝ => (x : EReal))
    (fun x y => EReal.coe_strictMono.monotone.map_max)).symm

/-! ## Blocks of classes -/

/-- Within a block, distinct columns are distinct classes. -/
theorem col_injective (v : Fin 25) : Function.Injective (col v) := by
  intro a b h
  have h' := congrArg Fin.val h
  simp only [col] at h'
  exact Fin.ext (by omega)

/-- The classes of one block. -/
def blk (v : Fin 25) : Finset (Fin 32000) := Finset.univ.image (col v)

theorem blk_nonempty (v : Fin 25) : (blk v).Nonempty :=
  ⟨col v 0, Finset.mem_image_of_mem _ (Finset.mem_univ _)⟩

/-- A sum over a block's classes is the sum over its columns. -/
theorem sum_blk {M : Type*} [AddCommMonoid M] (v : Fin 25) (g : Fin 32000 → M) :
    ∑ c ∈ blk v, g c = ∑ j : Fin 1280, g (col v j) :=
  Finset.sum_image (fun a _ b _ h => col_injective v h)

/-- The classes of the first n blocks. -/
def below (n : ℕ) : Finset (Fin 32000) := Finset.univ.filter fun c => c.val < 1280 * n

theorem below_zero : below 0 = ∅ := by
  ext c; simp [below]

theorem below_succ (n : ℕ) (h : n < 25) : below (n + 1) = below n ∪ blk ⟨n, h⟩ := by
  ext c
  simp only [below, blk, Finset.mem_filter, Finset.mem_univ, true_and, Finset.mem_union, Finset.mem_image]
  constructor
  · intro hc
    by_cases h' : c.val < 1280 * n
    · exact Or.inl h'
    · refine Or.inr ⟨⟨c.val - 1280 * n, by omega⟩, ?_⟩
      apply Fin.ext
      simp only [col]
      omega
  · rintro (hc | ⟨j, hj⟩)
    · omega
    · have h' := congrArg Fin.val hj
      simp only [col] at h'
      have := j.isLt
      omega

theorem below_disjoint (n : ℕ) (h : n < 25) : Disjoint (below n) (blk ⟨n, h⟩) := by
  rw [Finset.disjoint_left]
  intro c hc hb
  simp only [below, Finset.mem_filter, Finset.mem_univ, true_and] at hc
  simp only [blk, Finset.mem_image, Finset.mem_univ, true_and] at hb
  obtain ⟨j, hj⟩ := hb
  have h' := congrArg Fin.val hj
  simp only [col] at h'
  omega

theorem below_all : below 25 = Finset.univ := by
  ext c
  have := c.isLt
  simp only [below, Finset.mem_filter, Finset.mem_univ, true_and, iff_true]
  omega

/-- A class number below 32000, written as a 32-bit word, is the label word exactly when it is the label's number. -/
theorem ofNat_eq_iff (lab : BitVec 32) (k : ℕ) (hk : k < 32000) : BitVec.ofNat 32 k = lab ↔ k = lab.toNat := by
  constructor
  · intro h
    rw [← h, BitVec.toNat_ofNat]
    omega
  · intro h
    rw [h]
    simp

/-! ## The invariant of the row state -/

section
variable (r : Fin 32000 → ℝ) (lab : BitVec 32)

local notation "ℓ" => (fun v : Fin 32000 => ((r v : ℝ) : EReal))

/-- A class's contribution to the label logit: its logit at the label's class, nothing elsewhere. -/
def pick (c : Fin 32000) : ℝ := if c.val = lab.toNat then r c else 0

/-- After a set of classes: the maximum over the set, the sum over the set of exponentials shifted by that maximum,
    the label logit if the label's class is in the set. -/
def Inv (A : Finset (Fin 32000)) (s : EReal × EReal × EReal) : Prop :=
  s.1 = A.sup ℓ ∧
  s.2.1 = ((∑ c ∈ A, Real.exp (r c - (A.sup ℓ).toReal) : ℝ) : EReal) ∧
  s.2.2 = ((∑ c ∈ A, pick r lab c : ℝ) : EReal)

/-- Moving the shift of a sum of exponentials from the maximum over the set to any real. -/
theorem rescale (A : Finset (Fin 32000)) (M' : ℝ) :
    Ideal.exp (A.sup ℓ - (M' : EReal)) * ((∑ c ∈ A, Real.exp (r c - (A.sup ℓ).toReal) : ℝ) : EReal)
      = ((∑ c ∈ A, Real.exp (r c - M') : ℝ) : EReal) := by
  rcases A.eq_empty_or_nonempty with rfl | hA
  · simp [EReal.bot_sub]
  · rw [sup_coe A hA r, ← EReal.coe_sub, Ideal.exp_coe, EReal.toReal_coe, ← EReal.coe_mul, Finset.mul_sum]
    congr 1
    refine Finset.sum_congr rfl fun c _ => ?_
    rw [← Real.exp_add]
    congr 1
    ring

/-- One block's update carries the invariant from a set of classes to that set with the block's classes added. -/
theorem step_inv (A : Finset (Fin 32000)) (v : Fin 25) (hd : Disjoint A (blk v)) (s : EReal × EReal × EReal)
    (hs : Inv r lab A s) : Inv r lab (A ∪ blk v) (step ℓ lab v s) := by
  unfold Inv at hs ⊢
  obtain ⟨h1, h2, h3⟩ := hs
  have hne : (A ∪ blk v).Nonempty := (blk_nonempty v).mono Finset.subset_union_right
  have hm : max s.1 ((Finset.univ : Finset (Fin 1280)).fold max ⊥ fun j => ℓ (col v j)) = (A ∪ blk v).sup ℓ := by
    rw [h1, Finset.sup_union, blk, Finset.sup_image]
    rfl
  have hM := sup_coe (A ∪ blk v) hne r
  refine ⟨hm, ?_, ?_⟩
  · show Ideal.exp (s.1 - max s.1 ((Finset.univ : Finset (Fin 1280)).fold max ⊥ fun j => ℓ (col v j))) * s.2.1
        + ∑ j : Fin 1280, Ideal.exp (ℓ (col v j) - max s.1 ((Finset.univ : Finset (Fin 1280)).fold max ⊥ fun j => ℓ (col v j))) = _
    have hB : ∑ j : Fin 1280, Ideal.exp (ℓ (col v j) - (((A ∪ blk v).sup' hne r : ℝ) : EReal))
        = ((∑ c ∈ blk v, Real.exp (r c - (A ∪ blk v).sup' hne r) : ℝ) : EReal) := by
      rw [sum_blk, coe_finset_sum]
      refine Finset.sum_congr rfl fun j _ => ?_
      rw [← EReal.coe_sub, Ideal.exp_coe]
    rw [hm, h1, h2, hM, EReal.toReal_coe, rescale, hB, Finset.sum_union hd, EReal.coe_add]
  · show s.2.2 + ∑ j : Fin 1280, (if BitVec.ofNat 32 (col v j).val = lab then ℓ (col v j) else 0) = _
    have hB : ∑ j : Fin 1280, (if BitVec.ofNat 32 (col v j).val = lab then ℓ (col v j) else 0)
        = ((∑ c ∈ blk v, pick r lab c : ℝ) : EReal) := by
      rw [sum_blk, coe_finset_sum]
      refine Finset.sum_congr rfl fun j _ => ?_
      unfold pick
      by_cases h : (col v j).val = lab.toNat
      · rw [if_pos h, if_pos ((ofNat_eq_iff lab _ (col v j).isLt).2 h)]
      · rw [if_neg h, if_neg (mt (ofNat_eq_iff lab _ (col v j).isLt).1 h)]
        rfl
    rw [h3, hB, Finset.sum_union hd, EReal.coe_add]

/-- The state after n blocks satisfies the invariant for the classes of those blocks. -/
theorem state_inv (n : ℕ) (hn : n ≤ 25) : Inv r lab (below n) (state ℓ lab n) := by
  induction n with
  | zero =>
    rw [below_zero]
    unfold Inv
    simp [state]
  | succ n ih =>
    have h : n < 25 := hn
    have hst : state ℓ lab (n + 1) = step ℓ lab ⟨n, h⟩ (state ℓ lab n) := by
      rw [state, dif_pos h]
    rw [below_succ n h, hst]
    exact step_inv r lab _ _ (below_disjoint n h) _ (ih (by omega))

end

/-- After the last block the emitted value is the log-softmax of the row at the label's class. -/
theorem emit_state (r : Fin 32000 → ℝ) (lab : BitVec 32) (hlab : lab.toNat < 32000) :
    emit (state (fun v => ((r v : ℝ) : EReal)) lab 25) = lsm (fun v => ((r v : ℝ) : EReal)) ⟨lab.toNat, hlab⟩ := by
  have hinv := state_inv r lab 25 le_rfl
  rw [below_all] at hinv
  unfold Inv at hinv
  obtain ⟨h1, h2, h3⟩ := hinv
  have hne : (Finset.univ : Finset (Fin 32000)).Nonempty := ⟨0, Finset.mem_univ _⟩
  have hM := sup_coe Finset.univ hne r
  rw [hM] at h1 h2
  rw [EReal.toReal_coe] at h2
  have hpick : ∑ c, pick r lab c = r ⟨lab.toNat, hlab⟩ := by
    unfold pick
    rw [Finset.sum_eq_single (⟨lab.toNat, hlab⟩ : Fin 32000)]
    · simp
    · intro b _ hb
      rw [if_neg]
      intro h
      exact hb (Fin.ext h)
    · intro h
      exact absurd (Finset.mem_univ _) h
  have hS : 0 < ∑ c, Real.exp (r c - Finset.univ.sup' hne r) :=
    Finset.sum_pos (fun c _ => Real.exp_pos _) hne
  have hrow : rowMax (fun v => ((r v : ℝ) : EReal)) = ((Finset.univ.sup' hne r : ℝ) : EReal) := hM
  have hsum : ∑ v : Fin 32000, Ideal.exp (((r v : ℝ) : EReal) - ((Finset.univ.sup' hne r : ℝ) : EReal))
      = ((∑ c, Real.exp (r c - Finset.univ.sup' hne r) : ℝ) : EReal) := by
    rw [coe_finset_sum]
    refine Finset.sum_congr rfl fun c _ => ?_
    rw [← EReal.coe_sub, Ideal.exp_coe]
  unfold emit lsm
  rw [h1, h2, h3, hpick, hrow, hsum, Ideal.log_coe, if_neg (not_le.2 hS)]
  rw [← EReal.coe_add, ← EReal.coe_sub, ← EReal.coe_sub, ← EReal.coe_sub, sub_add_eq_sub_sub]

end Cert.OnlineSoftmax

end
-- ==== Proof.KInv.lean ====
/-
  The invariant of the grid's run, row by row over the extended reals: after the point of stream s, sequence b and
  vocabulary block v, row r of the three carried buffers holds the row state of token (b, r)'s logits under stream s
  after its first v + 1 blocks — by induction on the point, the first block of a row starting from the reset values —,
  and at a last block (v = 24) the output block's row r holds that token's log-probability of its class.
-/
import proofs.«414541_j71975061946952_2_alg».proof.Proof.KInputs
import proofs.«414541_j71975061946952_2_alg».proof.Proof.KPieces
import proofs.«414541_j71975061946952_2_alg».proof.Proof.KStep
import proofs.«414541_j71975061946952_2_alg».proof.Proof.PreFacts
import proofs.«414541_j71975061946952_2_alg».proof.Proof.OnlineSoftmax

noncomputable section

namespace Cert.KernelIdeal.Val

open Idealize.ShloMosaic Idealize.ShloMosaic.TcCoe Idealize.ShloMosaic.ValueIdx Idealize.SL.Sem Cert.KernelIdeal

variable (m : (ℓ : Loc nD τ sig) → Buf (Elt Ideal) ℓ)

/-- Token (b, r)'s row of logits under stream s. -/
def rowLogit (c : Dev nD) (s : Fin 2) (b : Fin 8) (r : Fin 512) : Fin 32000 → EReal :=
  Cert.Spec.logit (xsel m c s) (wsel m c s) b r

/-! The lemmas below, up to the two results, live in the namespace `KInv`. -/

namespace KInv

/-! ## The grid point's coordinates and the row state's recursion -/

/-- The third grid coordinate of a point is its vocabulary block. -/
theorem coord2 : ∀ t : Fin cfg0.N, ((grid0.coords t) 2).val = t.val % 25 :=
  (by decide +kernel : ∀ t : Fin grid0.N, ((grid0.coords t) 2).val = t.val % 25)

/-- The state after one more block is one step from the state before it. -/
theorem state_succ (ℓ : Fin 32000 → EReal) (lab : BitVec 32) (v : Fin 25) :
    Cert.Spec.state ℓ lab (v.val + 1) = Cert.Spec.step ℓ lab v (Cert.Spec.state ℓ lab v.val) := by
  rw [Cert.Spec.state, dif_pos v.isLt]

/-- The three carried buffers' row r after point number n. -/
def tri (c : Dev nD) (n : ℕ) (hn : n < cfg0.N) (r : Fin 512) : EReal × EReal × EReal :=
  (((Gen.outsAt0 m c n hn).2.1 : Vec Ideal S512x1 .f32) (ix2 r (0 : Fin 1)),
   ((Gen.outsAt0 m c n hn).2.2.1 : Vec Ideal S512x1 .f32) (ix2 r (0 : Fin 1)),
   ((Gen.outsAt0 m c n hn).2.2.2 : Vec Ideal S512x1 .f32) (ix2 r (0 : Fin 1)))

/-- The block's 1280 logits of row r are the inner products of the hidden block's row r with the weight block's rows. -/
theorem logit_blk (c : Dev nD) (t : Fin cfg0.N) (r : Fin 512) (j : Fin 1280) :
    rowLogit m c (sOf t) (bOf t) r (Cert.Spec.col (vOf t) j)
      = ∑ k : Fin 4096, xblk m c t (ix3 (0 : Fin 1) r k) * wblk m c t (ix3 (0 : Fin 1) j k) := by
  unfold rowLogit Cert.Spec.logit
  refine Finset.sum_congr rfl fun k _ => ?_
  rw [xblk_apply, wblk_apply]

/-- One point's arithmetic on row r, from any carried values: a step of the row state of the point's token row. -/
theorem point_step (c : Dev nD) (t : Fin cfg0.N) (xs0 xs1 xs2 : Vec Ideal S512x1 .f32) (r : Fin 512) :
    ((Gen.k0_pay2 (Gen.k0_pay9 (xblk m c t) (wblk m c t) xs0) : Vec Ideal S512x1 .f32) (ix2 r (0 : Fin 1)),
     (Gen.k0_pay10 (xblk m c t) (wblk m c t) xs0 xs1 : Vec Ideal S512x1 .f32) (ix2 r (0 : Fin 1)),
     (Gen.k0_pay1 (Gen.k0_pay7 (xblk m c t) (wblk m c t)) (Gen.k0_pay8 (grid0.coords t) (lblk m c t)) xs2 : Vec Ideal S512x1 .f32) (ix2 r (0 : Fin 1)))
      = Cert.Spec.step (rowLogit m c (sOf t) (bOf t) r) (Cert.Spec.labels Cert.KernelIdeal.Facts₀.bcast_S_S8x512 (m ((c.tc : Thread nD τ).loc main_arg2)) (ix2 (bOf t) r)) (vOf t)
          (xs0 (ix2 r (0 : Fin 1)), xs1 (ix2 r (0 : Fin 1)), xs2 (ix2 r (0 : Fin 1))) := by
  refine (step_at (grid0.coords t) (vOf t) (KInv.coord2 t) (xblk m c t) (wblk m c t) (lblk m c t) xs0 xs1 xs2 r
    (rowLogit m c (sOf t) (bOf t) r) (KInv.logit_blk m c t r)).trans ?_
  rw [lblk_apply]

/-! ## The three control cases of a point -/

/-- First block of a row: a step from the reset values. -/
theorem tri_A (c : Dev nD) (t : Fin cfg0.N) (h0 : t.val % 25 = 0) (h1 : ¬t.val % 25 = 24) (r : Fin 512) :
    KInv.tri m c t.val t.isLt r
      = Cert.Spec.step (rowLogit m c (sOf t) (bOf t) r) (Cert.Spec.labels Cert.KernelIdeal.Facts₀.bcast_S_S8x512 (m ((c.tc : Thread nD τ).loc main_arg2)) (ix2 (bOf t) r)) (vOf t) ((⊥ : EReal), (0 : EReal), (0 : EReal)) := by
  unfold KInv.tri
  rw [Gen.outsAt0_A m c t h0 h1]
  dsimp only
  refine (congrArg₂ Prod.mk
    (congrFun (sA0 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) ((Gen.hcond0_0 t).mpr h0) (fun h => h1 ((Gen.hcond0_1 t).mp h)) (Gen.iblk m c 0 t) (Gen.iblk m c 1 t) (Gen.iblk m c 2 t)) (ix2 r (0 : Fin 1)))
    (congrArg₂ Prod.mk
      (congrFun (sA1 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) ((Gen.hcond0_0 t).mpr h0) (fun h => h1 ((Gen.hcond0_1 t).mp h)) (Gen.iblk m c 0 t) (Gen.iblk m c 1 t) (Gen.iblk m c 2 t)) (ix2 r (0 : Fin 1)))
      (congrFun (sA2 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) ((Gen.hcond0_0 t).mpr h0) (fun h => h1 ((Gen.hcond0_1 t).mp h)) (Gen.iblk m c 0 t) (Gen.iblk m c 1 t) (Gen.iblk m c 2 t)) (ix2 r (0 : Fin 1))))).trans ?_
  refine (KInv.point_step m c t (Gen.k0_pay4 (F := Ideal)) (Gen.k0_pay5 (F := Ideal)) (Gen.k0_pay6 (F := Ideal)) r).trans ?_
  rw [reset_at r]

/-- A middle block of a row: a step from what the point before left. -/
theorem tri_B (c : Dev nD) (t : Fin cfg0.N) (h0 : ¬t.val % 25 = 0) (h1 : ¬t.val % 25 = 24) (r : Fin 512) :
    KInv.tri m c t.val t.isLt r
      = Cert.Spec.step (rowLogit m c (sOf t) (bOf t) r) (Cert.Spec.labels Cert.KernelIdeal.Facts₀.bcast_S_S8x512 (m ((c.tc : Thread nD τ).loc main_arg2)) (ix2 (bOf t) r)) (vOf t)
          (KInv.tri m c (t.val - 1) (Nat.lt_of_le_of_lt (Nat.sub_le _ _) t.isLt) r) := by
  unfold KInv.tri
  rw [Gen.outsAt0_B m c t h0 h1]
  dsimp only
  refine (congrArg₂ Prod.mk
    (congrFun (sB0 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) (fun h => h1 ((Gen.hcond0_1 t).mp h)) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix2 r (0 : Fin 1)))
    (congrArg₂ Prod.mk
      (congrFun (sB1 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) (fun h => h1 ((Gen.hcond0_1 t).mp h)) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix2 r (0 : Fin 1)))
      (congrFun (sB2 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) (fun h => h1 ((Gen.hcond0_1 t).mp h)) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix2 r (0 : Fin 1))))).trans ?_
  exact KInv.point_step m c t (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2 r

/-- The last block of a row: a step from what the point before left. -/
theorem tri_C (c : Dev nD) (t : Fin cfg0.N) (h0 : ¬t.val % 25 = 0) (h1 : t.val % 25 = 24) (r : Fin 512) :
    KInv.tri m c t.val t.isLt r
      = Cert.Spec.step (rowLogit m c (sOf t) (bOf t) r) (Cert.Spec.labels Cert.KernelIdeal.Facts₀.bcast_S_S8x512 (m ((c.tc : Thread nD τ).loc main_arg2)) (ix2 (bOf t) r)) (vOf t)
          (KInv.tri m c (t.val - 1) (Nat.lt_of_le_of_lt (Nat.sub_le _ _) t.isLt) r) := by
  unfold KInv.tri
  rw [Gen.outsAt0_C m c t h0 h1]
  dsimp only
  refine (congrArg₂ Prod.mk
    (congrFun (sC0 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) ((Gen.hcond0_1 t).mpr h1) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix2 r (0 : Fin 1)))
    (congrArg₂ Prod.mk
      (congrFun (sC1 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) ((Gen.hcond0_1 t).mpr h1) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix2 r (0 : Fin 1)))
      (congrFun (sC2 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) ((Gen.hcond0_1 t).mpr h1) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix2 r (0 : Fin 1))))).trans ?_
  exact KInv.point_step m c t (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2 r

/-! ## The invariant -/

/-- Within a row, the point before has the same stream and sequence and the block before. -/
theorem prev_point (t t' : Fin cfg0.N) (h0 : ¬t.val % 25 = 0) (ht : t'.val = t.val - 1) :
    sOf t' = sOf t ∧ bOf t' = bOf t ∧ (vOf t').val + 1 = (vOf t).val := by
  refine ⟨Fin.ext ?_, Fin.ext ?_, ?_⟩
  · show t'.val / 200 = t.val / 200
    omega
  · show (t'.val / 25) % 8 = (t.val / 25) % 8
    omega
  · show t'.val % 25 + 1 = t.val % 25
    omega

/-- The invariant, by induction on the point's number: after a point, row r of the three carried buffers holds the row
    state of the point's token row after the point's block. -/
theorem tri_state (c : Dev nD) (r : Fin 512) : ∀ (n : ℕ) (t : Fin cfg0.N), t.val = n →
    KInv.tri m c t.val t.isLt r
      = Cert.Spec.state (rowLogit m c (sOf t) (bOf t) r) (Cert.Spec.labels Cert.KernelIdeal.Facts₀.bcast_S_S8x512 (m ((c.tc : Thread nD τ).loc main_arg2)) (ix2 (bOf t) r)) ((vOf t).val + 1) := by
  intro n
  induction n using Nat.strong_induction_on with
  | _ n ih =>
    intro t hn
    by_cases h0 : t.val % 25 = 0
    · have h1 : ¬t.val % 25 = 24 := by omega
      rw [KInv.tri_A m c t h0 h1 r, KInv.state_succ, show (vOf t).val = 0 from h0]
      rfl
    · have hlt : t.val - 1 < cfg0.N := Nat.lt_of_le_of_lt (Nat.sub_le _ _) t.isLt
      have hp := KInv.prev_point t ⟨t.val - 1, hlt⟩ h0 rfl
      have e := ih (t.val - 1) (by omega) ⟨t.val - 1, hlt⟩ rfl
      rw [hp.1, hp.2.1, hp.2.2] at e
      have hstep : KInv.tri m c t.val t.isLt r
          = Cert.Spec.step (rowLogit m c (sOf t) (bOf t) r) (Cert.Spec.labels Cert.KernelIdeal.Facts₀.bcast_S_S8x512 (m ((c.tc : Thread nD τ).loc main_arg2)) (ix2 (bOf t) r)) (vOf t) (KInv.tri m c (t.val - 1) hlt r) := by
        by_cases h1 : t.val % 25 = 24
        · exact KInv.tri_C m c t h0 h1 r
        · exact KInv.tri_B m c t h0 h1 r
      rw [hstep, KInv.state_succ]
      exact congrArg _ e

end KInv

theorem scratch_at (c : Dev nD) (t : Fin cfg0.N) (r : Fin 512) :
    (((Gen.outsAt0 m c t.val t.isLt).2.1 : Vec Ideal S512x1 .f32) (ix2 r (0 : Fin 1)),
     ((Gen.outsAt0 m c t.val t.isLt).2.2.1 : Vec Ideal S512x1 .f32) (ix2 r (0 : Fin 1)),
     ((Gen.outsAt0 m c t.val t.isLt).2.2.2 : Vec Ideal S512x1 .f32) (ix2 r (0 : Fin 1)))
      = Cert.Spec.state (rowLogit m c (sOf t) (bOf t) r)
          (Cert.Spec.labels Cert.KernelIdeal.Facts₀.bcast_S_S8x512 (m ((c.tc : Thread nD τ).loc main_arg2)) (ix2 (bOf t) r)) ((vOf t).val + 1) := by
  exact KInv.tri_state m c r t.val t rfl

namespace KInv

/-! ## The last block of a row: the emitted value -/

/-- The inclusion of the reals in the extended reals commutes with finite sums. -/
theorem coe_sum_real {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Under the precondition a token's row of logits is a row of real numbers. -/
theorem rowLogit_real (c : Dev nD) (hd : Cert.PreFacts.Decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (s : Fin 2) (b : Fin 8) (r : Fin 512) :
    ∃ ρ : Fin 32000 → ℝ, rowLogit m c s b r = fun v => ((ρ v : ℝ) : EReal) := by
  have hx : ∀ i, ∃ q : ℝ, xsel m c s i = (q : EReal) := by
    intro i
    unfold xsel
    split
    · exact hd.x_real i
    · exact hd.xr_real i
  have hw : ∀ i, ∃ q : ℝ, wsel m c s i = (q : EReal) := by
    intro i
    unfold wsel
    split
    · exact hd.w_real i
    · exact hd.wr_real i
  choose fx hfx using hx
  choose fw hfw using hw
  refine ⟨fun v => ∑ k : Fin 4096, fx (ix3 b r k) * fw (ix2 v k), funext fun v => ?_⟩
  unfold rowLogit Cert.Spec.logit
  rw [KInv.coe_sum_real]
  refine Finset.sum_congr rfl fun k _ => ?_
  rw [hfx, hfw, EReal.coe_mul]

/-- The class word a token reads: 0 at the ignored word, else the label. -/
theorem labels_apply (hb : Cert.Spec.S0.BroadcastsInDim Cert.Spec.SY (![] : Fin 0 → Fin Cert.Spec.SY.rank))
    (y : IVec Cert.Spec.SY 32) (j : Cert.Spec.SY.Idx) :
    Cert.Spec.labels hb y j = if y j = 4294967196#32 then 0#32 else y j := by
  show Scalar.select (IntOp.cmpi .ne (y j) 4294967196#32) (y j) 0#32 = _
  by_cases h : y j = 4294967196#32
  · rw [if_pos h, eq_zero_of_ne_one (fun e => (IntOp.cmpi_ne.1 e) h), select_zero]
  · rw [if_neg h, IntOp.cmpi_ne.2 h, select_one]

/-- A label in range reads a class below 32000, and it is the class the label selects. -/
theorem labels_cls (hb : Cert.Spec.S0.BroadcastsInDim Cert.Spec.SY (![] : Fin 0 → Fin Cert.Spec.SY.rank))
    (y : IVec Cert.Spec.SY 32) (j : Cert.Spec.SY.Idx) (hr : y j = 4294967196#32 ∨ (y j).toNat < 32000) :
    ∃ h : (Cert.Spec.labels hb y j).toNat < 32000, Cert.Spec.cls (y j) = ⟨(Cert.Spec.labels hb y j).toNat, h⟩ := by
  rw [KInv.labels_apply]
  by_cases h : y j = 4294967196#32
  · rw [if_pos h]
    refine ⟨by decide, Fin.ext ?_⟩
    show (if y j = 4294967196#32 then 0 else (y j).toNat) % 32000 = (0#32 : BitVec 32).toNat
    rw [if_pos h]
    rfl
  · rw [if_neg h]
    have hlt : (y j).toNat < 32000 := hr.resolve_left h
    refine ⟨hlt, Fin.ext ?_⟩
    show (if y j = 4294967196#32 then 0 else (y j).toNat) % 32000 = (y j).toNat
    rw [if_neg h]
    exact Nat.mod_eq_of_lt hlt

/-- The result array at stream s, row 512 b + r: token (b, r)'s log-probability under that stream's model. -/
theorem outArr_at (x xr : Cert.Spec.SX.Idx → EReal) (w wr : Cert.Spec.SW.Idx → EReal) (y : IVec Cert.Spec.SY 32)
    (s : Fin 2) (q : Fin 4096) (b : Fin 8) (r : Fin 512) (hb : q.val / 512 = b.val) (hr : q.val % 512 = r.val) :
    Cert.Spec.outArr x xr w wr y (ix3 s q (0 : Fin 1))
      = if s.val = 0 then Cert.Spec.tokArr x w y (ix2 b r) else Cert.Spec.tokArr xr wr y (ix2 b r) := by
  have eb : (⟨q.val / 512, by have := q.isLt; omega⟩ : Fin 8) = b := Fin.ext hb
  have er : (⟨q.val % 512, Nat.mod_lt _ (by decide)⟩ : Fin 512) = r := Fin.ext hr
  rw [← eb, ← er]
  rfl

end KInv

theorem out_at_flush (c : Dev nD)
    (hd : Cert.PreFacts.Decoded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (t : Fin cfg0.N) (h24 : t.val % 25 = 24) (r : Fin 512) :
    ((Gen.outsAt0 m c t.val t.isLt).1 : Vec Ideal S1x512x1 .f32) (ix3 (0 : Fin 1) r (0 : Fin 1))
      = Cert.Spec.outArr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg2))
          (ix3 (sOf t) (⟨(bOf t).val * 512 + r.val, by have := (bOf t).isLt; have := r.isLt; omega⟩ : Fin 4096) (0 : Fin 1)) := by
  have h0 : ¬t.val % 25 = 0 := by omega
  -- the output block's row r is the emitted value of the carried row state after this point
  have e1 : ((Gen.outsAt0 m c t.val t.isLt).1 : Vec Ideal S1x512x1 .f32) (ix3 (0 : Fin 1) r (0 : Fin 1))
      = Cert.Spec.emit (KInv.tri m c t.val t.isLt r) := by
    rw [KInv.tri_C m c t h0 h24 r, Gen.outsAt0_C m c t h0 h24]
    dsimp only
    refine (congrFun (oC3 (F := Ideal) c (grid0.coords t) (Gen.ms0_0 t) (Gen.hs0_0 t) (Gen.ms0_1 t) (Gen.hs0_1 t) (Gen.ms0_2 t) (Gen.hs0_2 t) (Gen.ms0_3 t) (Gen.hs0_3 t) Gen.scM0_0 (Memref.isWhole_whole _) Gen.scM0_1 (Memref.isWhole_whole _) Gen.scM0_2 (Memref.isWhole_whole _) (fun h => h0 ((Gen.hcond0_0 t).mp h)) ((Gen.hcond0_1 t).mpr h24) (Gen.iblk m c 0 t) (Gen.iblk m c 1 t) (Gen.iblk m c 2 t) (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2) (ix3 (0 : Fin 1) r (0 : Fin 1))).trans ?_
    refine (emit_at _ _ _ r).trans ?_
    exact congrArg Cert.Spec.emit (KInv.point_step m c t (Gen.outsAt0 m c (t.val - 1) (Nat.lt_of_le_of_lt (Nat.sub_le _ _) t.isLt)).2.1 (Gen.outsAt0 m c (t.val - 1) (Nat.lt_of_le_of_lt (Nat.sub_le _ _) t.isLt)).2.2.1 (Gen.outsAt0 m c (t.val - 1) (Nat.lt_of_le_of_lt (Nat.sub_le _ _) t.isLt)).2.2.2 r)
  -- after the last block the row state is the state after all 25 blocks, of a row of real logits
  have hv : (vOf t).val + 1 = 25 := by
    show t.val % 25 + 1 = 25
    omega
  obtain ⟨ρ, hρ⟩ := KInv.rowLogit_real m c hd (sOf t) (bOf t) r
  obtain ⟨hlab, hcls⟩ := KInv.labels_cls Cert.KernelIdeal.Facts₀.bcast_S_S8x512 (m ((c.tc : Thread nD τ).loc main_arg2)) (ix2 (bOf t) r) (hd.lab_range _)
  have key : Cert.Spec.emit (Cert.Spec.state (rowLogit m c (sOf t) (bOf t) r) (Cert.Spec.labels Cert.KernelIdeal.Facts₀.bcast_S_S8x512 (m ((c.tc : Thread nD τ).loc main_arg2)) (ix2 (bOf t) r)) 25)
      = Cert.Spec.lsm (rowLogit m c (sOf t) (bOf t) r) (Cert.Spec.cls (m ((c.tc : Thread nD τ).loc main_arg2) (ix2 (bOf t) r))) := by
    rw [hρ, hcls]
    exact Cert.OnlineSoftmax.emit_state ρ _ hlab
  rw [e1, KInv.tri_state m c r t.val t rfl, hv, key]
  rw [KInv.outArr_at _ _ _ _ _ (sOf t) _ (bOf t) r
    (by have := r.isLt; show ((bOf t).val * 512 + r.val) / 512 = (bOf t).val; omega)
    (by have := r.isLt; show ((bOf t).val * 512 + r.val) % 512 = r.val; omega)]
  unfold rowLogit xsel wsel
  by_cases hs : (sOf t).val = 0
  · rw [if_pos hs, if_pos hs, if_pos hs]
    rfl
  · rw [if_neg hs, if_neg hs, if_neg hs]
    rfl

end Cert.KernelIdeal.Val

end
-- ==== Proof.KValue.lean ====
/-
  What the kernel leaves in its result array, over the extended reals: row 512 b + t of stream s holds token (b, t)'s
  log-probability of its class under stream s's model — the state carried along the row over the 25 vocabulary blocks,
  emitted after the last one, is the row's log-softmax at the label's class.

  The array is written one [1, 512, 1] block at a time: the block of stream s and sequence b is written back after that
  row's last vocabulary block, at point (8 s + b) · 25 + 24 of the 2 × 8 × 25 grid, and lands at rows 512 b … 512 b + 511
  of stream s.  Each such block is the specification's array read through the block's rectangle, and the sixteen blocks
  tile the [2, 4096, 1] array, so the array after the last point is the specification's.
-/
import proofs.«414541_j71975061946952_2_alg».proof.Proof.Gen.KernelIdeal.Frame
import proofs.«414541_j71975061946952_2_alg».proof.Proof.Spec
import proofs.«414541_j71975061946952_2_alg».proof.Proof.KInv
import Idealize.ShloMosaic.Lib.Pipeline.Value
import Idealize.ShloMosaic.Lib.ValueIdx
import Idealize.ShloMosaic.Lib.Tactic

noncomputable section

namespace Cert.KernelIdeal.Val

open Idealize.ShloMosaic Idealize.ShloMosaic.TcCoe Idealize.ShloMosaic.ValueIdx Idealize.SL.Sem Cert.KernelIdeal
open Idealize.ShloMosaic.Pipeline (Dat)

/-- The result window's index map at point number `t` of the grid: block (stream, sequence, 0), the stream being
    `t / 200` and the sequence `(t / 25) mod 8`. -/
theorem out_block_index : ∀ t : Fin cfg0.N, win0_3.index t (0 : Fin 3) = t.val / 200
    ∧ win0_3.index t (1 : Fin 3) = (t.val / 25) % 8
    ∧ win0_3.index t (2 : Fin 3) = 0 :=
  (by decide +kernel : ∀ t : Fin grid0.N, win0_3.index t (0 : Fin 3) = t.val / 200
    ∧ win0_3.index t (1 : Fin 3) = (t.val / 25) % 8
    ∧ win0_3.index t (2 : Fin 3) = 0)

section Blocks

variable (m : (ℓ : Loc nD τ sig) → Buf (Elt Ideal) ℓ)

/-- The specification's result array of the program's arguments. -/
abbrev specOut (c : Dev nD) : Cert.Spec.SOut.Idx → EReal :=
  Cert.Spec.outArr (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg2))

/-- What a point after a row's last vocabulary block writes back is its block of the specification's array: row `r`
    of the block is row `512 b + r` of stream `s`, where (s, b) are the point's stream and sequence. -/
theorem flushed_eq (c : Dev nD)
    (hd : Cert.PreFacts.Decoded (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)))
    (t : Fin cfg0.N) (hf : (cfg0.win 3).flush t = true) :
    (Gen.dats (F := Ideal) m 0 c).flushed 3 t = ((cfg0.win 3).blk t).view.read (Elt Ideal) (specOut m c) := by
  have h24 : t.val % 25 = 24 := (Gen.flush0_3 t).mp hf
  show (cfg0.win 3).cut (grid0.coords t) ((Gen.dats m 0 c).after 3 t) = _
  rw [Gen.after0_3]
  funext y
  have hy0 : (y 0).val < 1 := (y 0).isLt
  have hy1 : (y 1).val < 512 := (y 1).isLt
  have hy2 : (y 2).val < 1 := (y 2).isLt
  show ((Gen.outsAt0 m c t.val t.isLt).1 : Vec Ideal S1x512x1 .f32) ((cfg0.win 3).xinj (grid0.coords t) y)
    = specOut m c (((cfg0.win 3).blk t).view.emb y)
  -- the block's index is (0, r, 0): its outer axes have extent 1
  have ey : (cfg0.win 3).xinj (grid0.coords t) y = ix3 (0 : Fin 1) (⟨(y 1).val, hy1⟩ : Fin 512) (0 : Fin 1) := by
    funext a
    match a with
    | ⟨0, _⟩ => apply Fin.ext; show (y 0).val = 0; omega
    | ⟨1, _⟩ => rfl
    | ⟨2, _⟩ => apply Fin.ext; show (y 2).val = 0; omega
  rw [ey, out_at_flush m c hd t h24 ⟨(y 1).val, hy1⟩]
  -- where the block's element sits in the array: per axis, block index × block extent + coordinate inside the block
  refine congrArg (specOut m c) ?_
  obtain ⟨e0, e1, e2⟩ := out_block_index t
  funext a
  apply Fin.ext
  match a with
  | ⟨0, _⟩ => show t.val / 200 = win0_3.index t (0 : Fin 3) * 1 + 1 * (y 0).val; omega
  | ⟨1, _⟩ => show ((t.val / 25) % 8) * 512 + (y 1).val = win0_3.index t (1 : Fin 3) * 512 + 1 * (y 1).val; omega
  | ⟨2, _⟩ => show 0 = win0_3.index t (2 : Fin 3) * 1 + 1 * (y 2).val; omega

/-- Every index of the result array lies in a block that is written back: row `j` of stream `s` in the block of
    point `(8 s + j / 512) · 25 + 24`, the last vocabulary block of stream `s` and sequence `j / 512`. -/
theorem out_cover (i : S2x4096x1.Idx) :
    ∃ t : Fin cfg0.N, (cfg0.win 3).flush t = true ∧ i ∈ ((cfg0.win 3).blk t).view.set := by
  have hN : cfg0.N = 400 := Gen.N_0
  have h0 : (i 0).val < 2 := (i 0).isLt
  have h1 : (i 1).val < 4096 := (i 1).isLt
  have h2 : (i 2).val < 1 := (i 2).isLt
  obtain ⟨t, ht⟩ : ∃ t : Fin cfg0.N, t.val = ((i 0).val * 8 + (i 1).val / 512) * 25 + 24 := ⟨⟨_, by omega⟩, rfl⟩
  refine ⟨t, (Gen.flush0_3 t).mpr (by omega), ?_⟩
  show i ∈ ((View.whole main_v20).slice (win0_3.rect t)).set
  rw [View.set_slice_whole, Rect.mem_set_unit]
  obtain ⟨e0, e1, e2⟩ := out_block_index t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1 ≤ (i 2).val ∧ (i 2).val < win0_3.index t (2 : Fin 3) * 1 + 1; omega

end Blocks

theorem out_array (m : (ℓ : Loc nD τ sig) → Buf (Elt Ideal) ℓ) (c : Dev nD)
    (hd : Cert.PreFacts.Decoded (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))) :
    (Gen.dats (F := Ideal) m 0 c).arrAt 3 cfg0.N
      = Cert.Spec.outArr (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg2)) :=
  (Gen.dats (F := Ideal) m 0 c).arrAt_eq_of_cover 3 (specOut m c) (fun t hf => flushed_eq m c hd t hf) out_cover

end Cert.KernelIdeal.Val

end
-- ==== Proof.KTokDen.lean ====
/-
  Two readings of the kernel program's host tail over the extended reals: a stream's plane of the result array, laid
  out as [8, 512], is that stream's tokens' log-probabilities; and where every sequence keeps a label the guarded
  count of kept tokens is the count.

  The plane: the two reshapes keep the row-major position, so entry (b, t) of the [8, 512] layout is row 512 b + t of
  the stream's plane, and that row of the result array is by definition token ((512 b + t) / 512, (512 b + t) % 512)
  = (b, t) of the stream.  The count: the host's sum along a sequence is 0 plus the sum over its 512 tokens of the
  mask, every term is 0 or 1, and a kept label contributes a 1, so the sum is at least 1 and the maximum with 1
  changes nothing.
-/
import proofs.«414541_j71975061946952_2_alg».proof.Proof.KTerm
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Val

open Idealize.ShloMosaic Idealize.ShloMosaic.ValueIdx Cert.KernelIdeal Cert.KernelIdeal.Facts₀

open scoped BigOperators

/-! ## A stream's plane of the result array as [8, 512] tokens -/

/-- Row `512 b + t` of the result array: where token `(b, t)` lies. -/
abbrev outRow (b : Fin 8) (t : Fin 512) : Fin 4096 :=
  ⟨512 * b.val + t.val, by have := b.isLt; have := t.isLt; omega⟩

/-- Row `512 b + t` of stream `s`'s plane of the result array is token `(b, t)`'s log-probability under that stream:
    the quotient and the remainder of `512 b + t` by 512 are `b` and `t`. -/
theorem outArr_outRow (x xr : S8x512x4096.Idx → EReal) (w wr : S32000x4096.Idx → EReal) (y : IVec S8x512 32)
    (s : Fin 2) (b : Fin 8) (t : Fin 512) :
    Cert.Spec.outArr x xr w wr y (ix3 s (outRow b t) (0 : Fin 1))
      = if s.val = 0 then Cert.Spec.tokArr x w y (ix2 b t) else Cert.Spec.tokArr xr wr y (ix2 b t) := by
  have hb := b.isLt
  have ht := t.isLt
  have hj : (ix2 (⟨(outRow b t).val / 512, by have h : (outRow b t).val < 4096 := (outRow b t).isLt; omega⟩ : Fin 8)
      (⟨(outRow b t).val % 512, Nat.mod_lt _ (by decide)⟩ : Fin 512) : Cert.Spec.SY.Idx) = ix2 b t := by
    have h1 : (outRow b t).val / 512 = b.val := by show (512 * b.val + t.val) / 512 = b.val; omega
    have h2 : (outRow b t).val % 512 = t.val := by show (512 * b.val + t.val) % 512 = t.val; omega
    congr 1
    · exact Fin.ext h1
    · exact Fin.ext h2
  show (if s.val = 0 then Cert.Spec.tokArr x w y _ else Cert.Spec.tokArr xr wr y _) = _
  rw [hj]

/-- The slice of plane `s`, with its unit axes dropped and its 4096 rows laid out as [8, 512], reads at `(b, t)` the
    array at `(s, 512 b + t, 0)`: both reshapes keep the row-major position, `(512 b + t) · 1 + 0 = b · 512 + t`, and
    the slice reads at its offset plus the index. -/
theorem kTok_read (o : FVec Ideal S2x4096x1 .f32) (s : Fin 2)
    (hs : S2x4096x1.Slices ![s.val, 0, 0] S1x4096x1) (b : Fin 8) (t : Fin 512) :
    shapeCast S8x512 (shapeCast S4096x1 (extractStridedSlice S1x4096x1 ![s.val, 0, 0] o hs)
      shapeCasts_S1x4096x1_S4096x1) shapeCasts_S4096x1_S8x512 (ix2 b t) = o (ix3 s (outRow b t) (0 : Fin 1)) := by
  have hb := b.isLt
  have ht := t.isLt
  refine (shapeCast_apply _ shapeCasts_S4096x1_S8x512 (ix2 b t) (ix2 (outRow b t) (0 : Fin 1)) ?_).trans ?_
  · rw [Shape.rowMajor_val_two, Shape.rowMajor_val_two]
    show (512 * b.val + t.val) * 1 + 0 = b.val * 512 + t.val
    omega
  refine (shapeCast_1ab_ab_apply _ shapeCasts_S1x4096x1_S4096x1 (outRow b t) (0 : Fin 1)).trans ?_
  refine extractStridedSlice_apply _ o hs _ (ix3 s (outRow b t) (0 : Fin 1)) fun a => ?_
  match a with
  | ⟨0, _⟩ => show s.val = s.val + 0; omega
  | ⟨1, _⟩ => show (outRow b t).val = 0 + (outRow b t).val; omega
  | ⟨2, _⟩ => show 0 = 0 + 0; rfl

theorem kTok0_outArr (x xr : S8x512x4096.Idx → EReal) (w wr : S32000x4096.Idx → EReal) (y : IVec S8x512 32) :
    kTok0 (F := Ideal) (Cert.Spec.outArr x xr w wr y) = Cert.Spec.tokArr x w y := by
  funext j
  obtain ⟨b, t, rfl⟩ : ∃ b t, j = ix2 b t := ⟨j 0, j 1, eq_ix2 j⟩
  unfold kTok0
  refine (kTok_read _ (0 : Fin 2) slices_S2x4096x1_S1x4096x1_0_0_0 b t).trans ?_
  rw [outArr_outRow]
  rfl

theorem kTok1_outArr (x xr : S8x512x4096.Idx → EReal) (w wr : S32000x4096.Idx → EReal) (y : IVec S8x512 32) :
    kTok1 (F := Ideal) (Cert.Spec.outArr x xr w wr y) = Cert.Spec.tokArr xr wr y := by
  funext j
  obtain ⟨b, t, rfl⟩ : ∃ b t, j = ix2 b t := ⟨j 0, j 1, eq_ix2 j⟩
  unfold kTok1
  refine (kTok_read _ (1 : Fin 2) slices_S2x4096x1_S1x4096x1_1_0_0 b t).trans ?_
  rw [outArr_outRow]
  rfl

/-! ## The guarded count of kept tokens -/

/-- The mask at a token is the bit "the label is not -100" read as a number. -/
theorem kmask_apply (y : IVec S8x512 32) (i : S8x512.Idx) :
    Cert.Spec.maskf (F := Ideal) bcast_S_S8x512 y i
      = (((IntOp.cmpi .ne (y i) 4294967196#32).toNat : ℝ) : EReal) := rfl

/-- The mask is nowhere negative. -/
theorem kmask_nonneg (y : IVec S8x512 32) (i : S8x512.Idx) :
    0 ≤ Cert.Spec.maskf (F := Ideal) bcast_S_S8x512 y i := by
  rw [kmask_apply]
  exact_mod_cast Nat.zero_le _

/-- At a kept label the mask is one. -/
theorem kmask_kept (y : IVec S8x512 32) (i : S8x512.Idx) (h : y i ≠ 4294967196#32) :
    Cert.Spec.maskf (F := Ideal) bcast_S_S8x512 y i = 1 := by
  rw [kmask_apply]
  have hb : (y i != 4294967196#32) = true := bne_iff_ne.2 h
  have : IntOp.cmpi .ne (y i) 4294967196#32 = 1#1 := by
    show BitVec.ofBool (y i != 4294967196#32) = 1#1
    rw [hb]; rfl
  rw [this]
  norm_num

/-- The count of sequence `b` is the sum of the mask over its 512 tokens: the host's sum starts from 0 and runs over
    the second coordinate. -/
theorem kcount_apply (y : IVec S8x512 32) (hR : S8x512.Reduces [1] S8) (b : Fin 8) :
    Cert.Spec.count (F := Ideal) bcast_S_S8x512 reducesTo_S8x512_S8_d1 h_S_ y (ix1 b)
      = ∑ t : Fin 512, Cert.Spec.maskf (F := Ideal) bcast_S_S8x512 y (ix2 b t) := by
  show Ideal.hostReduceAdd reducesTo_S8x512_S8_d1 (Cert.Spec.maskf (F := Ideal) bcast_S_S8x512 y)
    (Ideal.ofBits .f32 0x00000000#32) (ix1 b) = _
  rw [Ideal.hostReduceAdd_single reducesTo_S8x512_S8_d1 hR, Ideal.ofBits_zero_f32, zero_add]
  refine Finset.sum_congr rfl fun t _ => congrArg _ ?_
  funext a
  match a with
  | ⟨0, _⟩ => rfl
  | ⟨1, _⟩ => rfl

theorem kDen_eq (y : IVec S8x512 32) (hk : ∀ b : Fin 8, ∃ t : Fin 512, y (ix2 b t) ≠ 4294967196#32) :
    kDen (F := Ideal) y = Cert.Spec.count (F := Ideal) bcast_S_S8x512 reducesTo_S8x512_S8_d1 h_S_ y := by
  funext j
  obtain ⟨b, rfl⟩ : ∃ b, j = ix1 b := ⟨j 0, eq_ix1 j⟩
  obtain ⟨t₀, ht₀⟩ := hk b
  unfold kDen
  rw [maximumf_apply, broadcastInDim_scalar_apply, constant_apply, Ideal.ofBits_one_f32]
  refine max_eq_left ?_
  -- one kept token's term is 1 and the other terms are not negative
  rw [kcount_apply y (by decide) b, ← kmask_kept y (ix2 b t₀) ht₀]
  exact Finset.single_le_sum (f := fun t : Fin 512 => Cert.Spec.maskf (F := Ideal) bcast_S_S8x512 y (ix2 b t))
    (fun t _ => kmask_nonneg y _) (Finset.mem_univ t₀)

end Cert.KernelIdeal.Val

end
-- ==== Proof.RefTok.lean ====
/-
  The reference's per-token value as one term over any float values: the logits of every class (a contraction over the
  hidden axis), their log-softmax along the class axis, and the entry at each token's class, read with jnp's
  conventions for an index (a negative index counts from the end; outside the axis the result is the not-a-number
  pattern).  And the reference's whole result over the shared stretches: the two models' mean log-probabilities, each
  over the plain count of kept tokens, then the loss.
-/
import proofs.«414541_j71975061946952_2_alg».proof.ReferenceIdeal
import proofs.«414541_j71975061946952_2_alg».proof.Proof.Gen.ReferenceIdeal
import proofs.«414541_j71975061946952_2_alg».proof.Proof.Spec

noncomputable section

namespace Cert.ReferenceIdeal.Val

open Idealize.ShloMosaic Cert.ReferenceIdeal Cert.ReferenceIdeal.Facts₀

variable {F : FTy → Type} [FloatOps F]

/-- The log-softmax along the class axis, as the reference's outlined function computes it. -/
def logSoftmax (x : FVec F S8x512x32000 .f32) : FVec F S8x512x32000 .f32 :=
  let mx : FVec F S8x512 .f32 := maximumf (broadcastInDim S8x512 ![] bcast_S_S8x512 (constant S_ .f32 0xFF800000#32))
    (Host.reduce FloatOps.maximumf x (constant S_ .f32 0xFF800000#32) reducesTo_S8x512x32000_S8x512_d2 h_S_)
  let sh : FVec F S8x512x32000 .f32 := subf x (broadcastInDim S8x512x32000 ![0, 1, 2] bcast_S8x512x1_S8x512x32000_0_1_2
    (broadcastInDim S8x512x1 ![0, 1] bcast_S8x512_S8x512x1_0_1 mx))
  let se : FVec F S8x512 .f32 := Host.reduceAdd (Host.exp sh) (constant S_ .f32 0x00000000#32) reducesTo_S8x512x32000_S8x512_d2 h_S_
  subf sh (broadcastInDim S8x512x32000 ![0, 1, 2] bcast_S8x512x1_S8x512x32000_0_1_2
    (Host.log (broadcastInDim S8x512x1 ![0, 1] bcast_S8x512_S8x512x1_0_1 se)))

/-- The entry of each token's row at its index, with jnp's conventions for the index. -/
def takeAlong (lp : FVec F S8x512x32000 .f32) (idx : IVec S8x512x1 32) : FVec F S8x512x1 .f32 :=
  let neg : IVec S8x512x1 1 := cmpi .slt idx (broadcastInDim S8x512x1 ![] bcast_S_S8x512x1 (constantI S_ 32 0#32))
  let wrapped : IVec S8x512x1 32 := select neg (addi idx (broadcastInDim S8x512x1 ![] bcast_S_S8x512x1 (constantI S_ 32 32000#32))) idx
  let st : IVec S8x512x1x1 32 := shapeCast S8x512x1x1 wrapped shapeCasts_S8x512x1_S8x512x1x1
  let ge : IVec S8x512x1x1 1 := cmpi .sge st (broadcastInDim S8x512x1x1 ![] bcast_S_S8x512x1x1 (constantI S_ 32 0#32))
  let le : IVec S8x512x1x1 1 := cmpi .sle st (broadcastInDim S8x512x1x1 ![0, 1, 2, 3] bcast_S1x1x1x1_S8x512x1x1_0_1_2_3
    (broadcastInDim S1x1x1x1 ![3] bcast_S1_S1x1x1x1_3 (constantI S1 32 31999#32)))
  let inb : IVec S8x512x1 1 := Host.reduce IntOp.andi (andi ge le) (constantI S_ 1 1#1) reducesTo_S8x512x1x1_S8x512x1_d3 h_S_
  select inb (Host.gather gather_S8x512x32000_S8x512x1x1_S8x512x1_n_2_01_01_2_3_111 lp st)
    (broadcastInDim S8x512x1 ![] bcast_S_S8x512x1 (constant S_ .f32 0x7FC00000#32))

/-- Every token's log-probability of its class, as the reference computes it from one model's hidden states and
    weights. -/
def refTok (x : FVec F S8x512x4096 .f32) (w : FVec F S32000x4096 .f32) (y : IVec S8x512 32) : FVec F S8x512 .f32 :=
  shapeCast S8x512
    (takeAlong (logSoftmax (Host.dotGeneral dot_S8x512x4096_S32000x4096_S8x512x32000_2_1_01_0_n_n none x w))
      (broadcastInDim S8x512x1 ![0, 1] bcast_S8x512_S8x512x1_0_1 (Cert.Spec.labels bcast_S_S8x512 y)))
    shapeCasts_S8x512x1_S8x512

/-- The reference's result from its five arguments. -/
def rTerm (x xr : FVec F S8x512x4096 .f32) (y : IVec S8x512 32) (w wr : FVec F S32000x4096 .f32) : FVec F S_ .f32 :=
  Cert.Spec.lossTail slices_S8_S4_0 slices_S8_S4_4 bcast_S_S4 reducesTo_S4_S_d0 h_S_
    (Cert.Spec.meanOf reducesTo_S8x512_S8_d1 h_S_ (refTok x w y) (Cert.Spec.maskf bcast_S_S8x512 y)
      (Cert.Spec.count bcast_S_S8x512 reducesTo_S8x512_S8_d1 h_S_ y))
    (Cert.Spec.meanOf reducesTo_S8x512_S8_d1 h_S_ (refTok xr wr y) (Cert.Spec.maskf bcast_S_S8x512 y)
      (Cert.Spec.count bcast_S_S8x512 reducesTo_S8x512_S8_d1 h_S_ y))

end Cert.ReferenceIdeal.Val

end
-- ==== Proof.RefOps.lean ====
/-
  The reference's @main as a list of host operations: its outlined functions opened at their calls, each callee's
  operations over that call's buffers, in program order.  The list is cut after each model's mean log-probabilities:
  the policy's stretch (the logits, their log-softmax, the label's entry, the masked mean), the reference model's
  stretch (the same operations on the second pair of arguments), and the loss from the two means.  @main is the
  straight line of these operations.
-/
import proofs.«414541_j71975061946952_2_alg».proof.ReferenceIdeal
import proofs.«414541_j71975061946952_2_alg».proof.Proof.Gen.ReferenceIdeal
import Idealize.ShloMosaic.Lib.StableHlo.Run

noncomputable section

namespace Cert.ReferenceIdeal.Val

open Idealize.ShloMosaic Idealize.ShloMosaic.TcCoe Idealize.SL.Sem Cert.ReferenceIdeal Cert.ReferenceIdeal.Facts₀
  Idealize.ShloMosaic.StableHlo

variable {F : FTy → Type} [FloatOps F]

/-- The policy's stretch: the logits of arguments 0 and 3, their log-softmax, the kept labels, the label's entry of each
    token's row, the mask, and the masked mean over each sequence (54 operations, the last writing `main_v12`). -/
abbrev ops1 : List (HloOp τ sig (Elt F)) :=
  [ StableHlo.binary main_arg0 main_arg3 main_v0 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.TRef.nullary main_call0.cst (constant S_ .f32 0xFF800000#32),
    StableHlo.TRef.binary (.of main_v0 : StableHlo.TRef sig ⟨S8x512x32000, .f32⟩) main_call0.cst main_call0.v0 (fun x v => Host.reduce FloatOps.maximumf x v reducesTo_S8x512x32000_S8x512_d2 h_S_),
    StableHlo.TRef.nullary main_call0.cst_0 (constant S_ .f32 0xFF800000#32),
    StableHlo.TRef.unary main_call0.cst_0 main_call0.v1 (broadcastInDim S8x512 ![] bcast_S_S8x512),
    StableHlo.TRef.binary main_call0.v1 main_call0.v0 main_call0.v2 maximumf,
    StableHlo.TRef.unary main_call0.v2 main_call0.v3 (broadcastInDim S8x512x1 ![0, 1] bcast_S8x512_S8x512x1_0_1),
    StableHlo.TRef.unary main_call0.v3 main_call0.v4 (broadcastInDim S8x512x32000 ![0, 1, 2] bcast_S8x512x1_S8x512x32000_0_1_2),
    StableHlo.TRef.binary (.of main_v0 : StableHlo.TRef sig ⟨S8x512x32000, .f32⟩) main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S8x512x32000_S8x512_d2 h_S_),
    StableHlo.TRef.unary main_call0.v7 main_call0.v8 (broadcastInDim S8x512x1 ![0, 1] bcast_S8x512_S8x512x1_0_1),
    StableHlo.TRef.unary main_call0.v8 main_call0.v9 Host.log,
    StableHlo.TRef.unary main_call0.v9 main_call0.v10 (broadcastInDim S8x512x32000 ![0, 1, 2] bcast_S8x512x1_S8x512x32000_0_1_2),
    StableHlo.TRef.binary main_call0.v5 main_call0.v10 main_call0.v11 subf,
    StableHlo.nullary main_c (constantI S_ 32 4294967196#32),
    StableHlo.unary main_c main_v2 (broadcastInDim S8x512 ![] bcast_S_S8x512 : (⟨S_, .i32⟩ : BufTy).Contents (Elt F) → (⟨S8x512, .i32⟩ : BufTy).Contents (Elt F)),
    StableHlo.binary main_arg2 main_v2 main_v3 (cmpi .ne : (⟨S8x512, .i32⟩ : BufTy).Contents (Elt F) → (⟨S8x512, .i32⟩ : BufTy).Contents (Elt F) → (⟨S8x512, .i1⟩ : BufTy).Contents (Elt F)),
    StableHlo.nullary main_c_0 (constantI S_ 32 0#32),
    StableHlo.TRef.unary (.of main_c_0 : StableHlo.TRef sig ⟨S_, .i32⟩) main_call1.v0 id,
    StableHlo.TRef.unary main_call1.v0 main_call1.v1 (broadcastInDim S8x512 ![] bcast_S_S8x512),
    StableHlo.TRef.ternary (.of main_v3 : StableHlo.TRef sig ⟨S8x512, .i1⟩) (.of main_arg2 : StableHlo.TRef sig ⟨S8x512, .i32⟩) main_call1.v1 main_call1.v2 select,
    StableHlo.unary main_v4 main_v5 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call2.c (constantI S_ 32 0#32),
    StableHlo.TRef.unary main_call2.c main_call2.v0 (broadcastInDim S8x512x1 ![] bcast_S_S8x512x1),
    StableHlo.TRef.binary (.of main_v5 : StableHlo.TRef sig ⟨S8x512x1, .i32⟩) main_call2.v0 main_call2.v1 (cmpi .slt),
    StableHlo.TRef.nullary main_call2.c_0 (constantI S_ 32 32000#32),
    StableHlo.TRef.unary main_call2.c_0 main_call2.v2 (broadcastInDim S8x512x1 ![] bcast_S_S8x512x1),
    StableHlo.TRef.binary (.of main_v5 : StableHlo.TRef sig ⟨S8x512x1, .i32⟩) main_call2.v2 main_call2.v3 addi,
    StableHlo.TRef.ternary main_call2.v1 main_call2.v3 (.of main_v5 : StableHlo.TRef sig ⟨S8x512x1, .i32⟩) main_call2.v4 select,
    StableHlo.TRef.reshape main_call2.v4 main_call2.v5 rfl shapeCasts_S8x512x1_S8x512x1x1,
    StableHlo.TRef.nullary main_call2.c_1 (constantI S1 32 31999#32),
    StableHlo.TRef.nullary main_call2.c_2 (constantI S_ 32 0#32),
    StableHlo.TRef.unary main_call2.c_2 main_call2.v6 (broadcastInDim S8x512x1x1 ![] bcast_S_S8x512x1x1),
    StableHlo.TRef.binary main_call2.v5 main_call2.v6 main_call2.v7 (cmpi .sge),
    StableHlo.TRef.unary main_call2.c_1 main_call2.v8 (broadcastInDim S1x1x1x1 ![3] bcast_S1_S1x1x1x1_3),
    StableHlo.TRef.unary main_call2.v8 main_call2.v9 (broadcastInDim S8x512x1x1 ![0, 1, 2, 3] bcast_S1x1x1x1_S8x512x1x1_0_1_2_3),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x512x1x1_S8x512x1_d3 h_S_),
    StableHlo.TRef.binary (.of main_v1 : StableHlo.TRef sig ⟨S8x512x32000, .f32⟩) main_call2.v5 main_call2.v13 (fun x i => Host.gather gather_S8x512x32000_S8x512x1x1_S8x512x1_n_2_01_01_2_3_111 x i),
    StableHlo.TRef.nullary main_call2.cst (constant S_ .f32 0x7FC00000#32),
    StableHlo.TRef.unary main_call2.cst main_call2.v14 (broadcastInDim S8x512x1 ![] bcast_S_S8x512x1),
    StableHlo.TRef.ternary main_call2.v12 main_call2.v13 main_call2.v14 main_call2.v15 select,
    StableHlo.reshape main_v6 main_v7 rfl shapeCasts_S8x512x1_S8x512,
    StableHlo.unary main_v3 main_v8 (uitofp .f32 : (⟨S8x512, .i1⟩ : BufTy).Contents (Elt F) → (⟨S8x512, .f32⟩ : BufTy).Contents (Elt F)),
    StableHlo.binary main_v7 main_v8 main_v9 (mulf : (⟨S8x512, .f32⟩ : BufTy).Contents (Elt F) → (⟨S8x512, .f32⟩ : BufTy).Contents (Elt F) → (⟨S8x512, .f32⟩ : BufTy).Contents (Elt F)),
    StableHlo.nullary main_cst (constant S_ .f32 0x00000000#32),
    StableHlo.binary main_v9 main_cst main_v10 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.nullary main_cst_1 (constant S_ .f32 0x00000000#32),
    StableHlo.binary main_v8 main_cst_1 main_v11 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.binary main_v10 main_v11 main_v12 (Host.divf : (⟨S8, .f32⟩ : BufTy).Contents (Elt F) → (⟨S8, .f32⟩ : BufTy).Contents (Elt F) → (⟨S8, .f32⟩ : BufTy).Contents (Elt F)) ]

/-- The reference model's stretch: the same operations on arguments 1 and 4 (54 operations, the last writing `main_v25`). -/
abbrev ops2 : List (HloOp τ sig (Elt F)) :=
  [ StableHlo.binary main_arg1 main_arg4 main_v13 ((fun l r => Host.dotGeneral dot_S8x512x4096_S32000x4096_S8x512x32000_2_1_01_0_n_n none l r) : (⟨S8x512x4096, .f32⟩ : BufTy).Contents (Elt F) → (⟨S32000x4096, .f32⟩ : BufTy).Contents (Elt F) → (⟨S8x512x32000, .f32⟩ : BufTy).Contents (Elt F)),
    StableHlo.TRef.nullary main_call3.cst (constant S_ .f32 0xFF800000#32),
    StableHlo.TRef.binary (.of main_v13 : StableHlo.TRef sig ⟨S8x512x32000, .f32⟩) main_call3.cst main_call3.v0 (fun x v => Host.reduce FloatOps.maximumf x v reducesTo_S8x512x32000_S8x512_d2 h_S_),
    StableHlo.TRef.nullary main_call3.cst_0 (constant S_ .f32 0xFF800000#32),
    StableHlo.TRef.unary main_call3.cst_0 main_call3.v1 (broadcastInDim S8x512 ![] bcast_S_S8x512),
    StableHlo.TRef.binary main_call3.v1 main_call3.v0 main_call3.v2 maximumf,
    StableHlo.TRef.unary main_call3.v2 main_call3.v3 (broadcastInDim S8x512x1 ![0, 1] bcast_S8x512_S8x512x1_0_1),
    StableHlo.TRef.unary main_call3.v3 main_call3.v4 (broadcastInDim S8x512x32000 ![0, 1, 2] bcast_S8x512x1_S8x512x32000_0_1_2),
    StableHlo.TRef.binary (.of main_v13 : StableHlo.TRef sig ⟨S8x512x32000, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S8x512x32000_S8x512_d2 h_S_),
    StableHlo.TRef.unary main_call3.v7 main_call3.v8 (broadcastInDim S8x512x1 ![0, 1] bcast_S8x512_S8x512x1_0_1),
    StableHlo.TRef.unary main_call3.v8 main_call3.v9 Host.log,
    StableHlo.TRef.unary main_call3.v9 main_call3.v10 (broadcastInDim S8x512x32000 ![0, 1, 2] bcast_S8x512x1_S8x512x32000_0_1_2),
    StableHlo.TRef.binary main_call3.v5 main_call3.v10 main_call3.v11 subf,
    StableHlo.nullary main_c_2 (constantI S_ 32 4294967196#32),
    StableHlo.unary main_c_2 main_v15 (broadcastInDim S8x512 ![] bcast_S_S8x512 : (⟨S_, .i32⟩ : BufTy).Contents (Elt F) → (⟨S8x512, .i32⟩ : BufTy).Contents (Elt F)),
    StableHlo.binary main_arg2 main_v15 main_v16 (cmpi .ne : (⟨S8x512, .i32⟩ : BufTy).Contents (Elt F) → (⟨S8x512, .i32⟩ : BufTy).Contents (Elt F) → (⟨S8x512, .i1⟩ : BufTy).Contents (Elt F)),
    StableHlo.nullary main_c_3 (constantI S_ 32 0#32),
    StableHlo.TRef.unary (.of main_c_3 : StableHlo.TRef sig ⟨S_, .i32⟩) main_call4.v0 id,
    StableHlo.TRef.unary main_call4.v0 main_call4.v1 (broadcastInDim S8x512 ![] bcast_S_S8x512),
    StableHlo.TRef.ternary (.of main_v16 : StableHlo.TRef sig ⟨S8x512, .i1⟩) (.of main_arg2 : StableHlo.TRef sig ⟨S8x512, .i32⟩) main_call4.v1 main_call4.v2 select,
    StableHlo.unary main_v17 main_v18 (broadcastInDim S8x512x1 ![0, 1] bcast_S8x512_S8x512x1_0_1 : (⟨S8x512, .i32⟩ : BufTy).Contents (Elt F) → (⟨S8x512x1, .i32⟩ : BufTy).Contents (Elt F)),
    StableHlo.TRef.nullary main_call5.c (constantI S_ 32 0#32),
    StableHlo.TRef.unary main_call5.c main_call5.v0 (broadcastInDim S8x512x1 ![] bcast_S_S8x512x1),
    StableHlo.TRef.binary (.of main_v18 : StableHlo.TRef sig ⟨S8x512x1, .i32⟩) main_call5.v0 main_call5.v1 (cmpi .slt),
    StableHlo.TRef.nullary main_call5.c_0 (constantI S_ 32 32000#32),
    StableHlo.TRef.unary main_call5.c_0 main_call5.v2 (broadcastInDim S8x512x1 ![] bcast_S_S8x512x1),
    StableHlo.TRef.binary (.of main_v18 : StableHlo.TRef sig ⟨S8x512x1, .i32⟩) main_call5.v2 main_call5.v3 addi,
    StableHlo.TRef.ternary main_call5.v1 main_call5.v3 (.of main_v18 : StableHlo.TRef sig ⟨S8x512x1, .i32⟩) main_call5.v4 select,
    StableHlo.TRef.reshape main_call5.v4 main_call5.v5 rfl shapeCasts_S8x512x1_S8x512x1x1,
    StableHlo.TRef.nullary main_call5.c_1 (constantI S1 32 31999#32),
    StableHlo.TRef.nullary main_call5.c_2 (constantI S_ 32 0#32),
    StableHlo.TRef.unary main_call5.c_2 main_call5.v6 (broadcastInDim S8x512x1x1 ![] bcast_S_S8x512x1x1),
    StableHlo.TRef.binary main_call5.v5 main_call5.v6 main_call5.v7 (cmpi .sge),
    StableHlo.TRef.unary main_call5.c_1 main_call5.v8 (broadcastInDim S1x1x1x1 ![3] bcast_S1_S1x1x1x1_3),
    StableHlo.TRef.unary main_call5.v8 main_call5.v9 (broadcastInDim S8x512x1x1 ![0, 1, 2, 3] bcast_S1x1x1x1_S8x512x1x1_0_1_2_3),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S8x512x1x1_S8x512x1_d3 h_S_),
    StableHlo.TRef.binary (.of main_v14 : StableHlo.TRef sig ⟨S8x512x32000, .f32⟩) main_call5.v5 main_call5.v13 (fun x i => Host.gather gather_S8x512x32000_S8x512x1x1_S8x512x1_n_2_01_01_2_3_111 x i),
    StableHlo.TRef.nullary main_call5.cst (constant S_ .f32 0x7FC00000#32),
    StableHlo.TRef.unary main_call5.cst main_call5.v14 (broadcastInDim S8x512x1 ![] bcast_S_S8x512x1),
    StableHlo.TRef.ternary main_call5.v12 main_call5.v13 main_call5.v14 main_call5.v15 select,
    StableHlo.reshape main_v19 main_v20 rfl shapeCasts_S8x512x1_S8x512,
    StableHlo.unary main_v16 main_v21 (uitofp .f32 : (⟨S8x512, .i1⟩ : BufTy).Contents (Elt F) → (⟨S8x512, .f32⟩ : BufTy).Contents (Elt F)),
    StableHlo.binary main_v20 main_v21 main_v22 (mulf : (⟨S8x512, .f32⟩ : BufTy).Contents (Elt F) → (⟨S8x512, .f32⟩ : BufTy).Contents (Elt F) → (⟨S8x512, .f32⟩ : BufTy).Contents (Elt F)),
    StableHlo.nullary main_cst_4 (constant S_ .f32 0x00000000#32),
    StableHlo.binary main_v22 main_cst_4 main_v23 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.nullary main_cst_5 (constant S_ .f32 0x00000000#32),
    StableHlo.binary main_v21 main_cst_5 main_v24 ((fun x v => Host.reduceAdd x v reducesTo_S8x512_S8_d1 h_S_) : (⟨S8x512, .f32⟩ : BufTy).Contents (Elt F) → (⟨S_, .f32⟩ : BufTy).Contents (Elt F) → (⟨S8, .f32⟩ : BufTy).Contents (Elt F)),
    StableHlo.binary main_v23 main_v24 main_v25 (Host.divf : (⟨S8, .f32⟩ : BufTy).Contents (Elt F) → (⟨S8, .f32⟩ : BufTy).Contents (Elt F) → (⟨S8, .f32⟩ : BufTy).Contents (Elt F)) ]

/-- The loss from the two vectors of means: the halves' differences, a tenth of their difference, the log-sigmoid, minus
    the sum over the four pairs, divided by four (31 operations, the last writing `main_v38`). -/
abbrev ops3 : List (HloOp τ sig (Elt F)) :=
  [ StableHlo.unary main_v12 main_v26 ((extractStridedSlice S4 ![0] · slices_S8_S4_0) : (⟨S8, .f32⟩ : BufTy).Contents (Elt F) → (⟨S4, .f32⟩ : BufTy).Contents (Elt F)),
    StableHlo.unary main_v25 main_v27 ((extractStridedSlice S4 ![0] · slices_S8_S4_0) : (⟨S8, .f32⟩ : BufTy).Contents (Elt F) → (⟨S4, .f32⟩ : BufTy).Contents (Elt F)),
    StableHlo.binary main_v26 main_v27 main_v28 (subf : (⟨S4, .f32⟩ : BufTy).Contents (Elt F) → (⟨S4, .f32⟩ : BufTy).Contents (Elt F) → (⟨S4, .f32⟩ : BufTy).Contents (Elt F)),
    StableHlo.unary main_v12 main_v29 ((extractStridedSlice S4 ![4] · slices_S8_S4_4) : (⟨S8, .f32⟩ : BufTy).Contents (Elt F) → (⟨S4, .f32⟩ : BufTy).Contents (Elt F)),
    StableHlo.unary main_v25 main_v30 ((extractStridedSlice S4 ![4] · slices_S8_S4_4) : (⟨S8, .f32⟩ : BufTy).Contents (Elt F) → (⟨S4, .f32⟩ : BufTy).Contents (Elt F)),
    StableHlo.binary main_v29 main_v30 main_v31 (subf : (⟨S4, .f32⟩ : BufTy).Contents (Elt F) → (⟨S4, .f32⟩ : BufTy).Contents (Elt F) → (⟨S4, .f32⟩ : BufTy).Contents (Elt F)),
    StableHlo.binary main_v28 main_v31 main_v32 (subf : (⟨S4, .f32⟩ : BufTy).Contents (Elt F) → (⟨S4, .f32⟩ : BufTy).Contents (Elt F) → (⟨S4, .f32⟩ : BufTy).Contents (Elt F)),
    StableHlo.nullary main_cst_6 (constant S_ .f32 0x3DCCCCCD#32),
    StableHlo.unary main_cst_6 main_v33 (broadcastInDim S4 ![] bcast_S_S4 : (⟨S_, .f32⟩ : BufTy).Contents (Elt F) → (⟨S4, .f32⟩ : BufTy).Contents (Elt F)),
    StableHlo.binary main_v33 main_v32 main_v34 (mulf : (⟨S4, .f32⟩ : BufTy).Contents (Elt F) → (⟨S4, .f32⟩ : BufTy).Contents (Elt F) → (⟨S4, .f32⟩ : BufTy).Contents (Elt F)),
    StableHlo.TRef.unary (.of main_v34 : StableHlo.TRef sig ⟨S4, .f32⟩) main_call6.v0 Host.negf,
    StableHlo.TRef.nullary main_call6.call0.cst (constant S_ .f32 0x00000000#32),
    StableHlo.TRef.unary main_call6.call0.cst main_call6.call0.v0 (broadcastInDim S4 ![] bcast_S_S4),
    StableHlo.TRef.binary main_call6.v0 main_call6.call0.v0 main_call6.call0.v1 maximumf,
    StableHlo.TRef.unary main_call6.call0.cst main_call6.call0.v2 (broadcastInDim S4 ![] bcast_S_S4),
    StableHlo.TRef.binary main_call6.v0 main_call6.call0.v2 main_call6.call0.v3 subf,
    StableHlo.TRef.binary main_call6.call0.v3 main_call6.call0.v3 main_call6.call0.v4 (cmpf .une),
    StableHlo.TRef.unary main_call6.call0.cst main_call6.call0.v5 (broadcastInDim S4 ![] bcast_S_S4),
    StableHlo.TRef.binary main_call6.v0 main_call6.call0.v5 main_call6.call0.v6 addf,
    StableHlo.TRef.unary main_call6.call0.v3 main_call6.call0.v7 Host.absf,
    StableHlo.TRef.unary main_call6.call0.v7 main_call6.call0.v8 Host.negf,
    StableHlo.TRef.unary main_call6.call0.v8 main_call6.call0.v9 Host.exp,
    StableHlo.TRef.unary main_call6.call0.v9 main_call6.call0.v10 Host.log1p,
    StableHlo.TRef.binary main_call6.call0.v1 main_call6.call0.v10 main_call6.call0.v11 addf,
    StableHlo.TRef.ternary main_call6.call0.v4 main_call6.call0.v6 main_call6.call0.v11 main_call6.call0.v12 select,
    StableHlo.TRef.unary main_call6.call0.v12 main_call6.v2 Host.negf,
    StableHlo.nullary main_cst_7 (constant S_ .f32 0x00000000#32),
    StableHlo.binary main_v35 main_cst_7 main_v36 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.unary main_v36 main_v37 (Host.negf : (⟨S_, .f32⟩ : BufTy).Contents (Elt F) → (⟨S_, .f32⟩ : BufTy).Contents (Elt F)),
    StableHlo.nullary main_cst_8 (constant S_ .f32 0x40800000#32),
    StableHlo.binary main_v37 main_cst_8 main_v38 (Host.divf : (⟨S_, .f32⟩ : BufTy).Contents (Elt F) → (⟨S_, .f32⟩ : BufTy).Contents (Elt F) → (⟨S_, .f32⟩ : BufTy).Contents (Elt F)) ]

/-- @main's 139 operations, in order. -/
abbrev ops : List (HloOp τ sig (Elt F)) := ops1 ++ ops2 ++ ops3

set_option maxRecDepth 8192 in
set_option maxHeartbeats 1600000 in
/-- @main is that straight line: the functions' bodies at their calls and the calls' records at their fields, both
    sides are one chain of operation steps. -/
theorem main_eq (c : Dev nD) : main (F := F) c = seq ops := by
  rfl

end Cert.ReferenceIdeal.Val

end
-- ==== Proof.RefSeq.lean ====
/-
  The reference's @main is a straight line of host operations on TensorCore buffers only, so every weakly fair
  execution runs them in order and terminates with each buffer at the operations' fold over the launch contents.
-/
import proofs.«414541_j71975061946952_2_alg».proof.Proof.RefOps
import Idealize.ShloMosaic.Lib.StableHlo.Run
import Idealize.ShloMosaic.Lib.Tactic

noncomputable section

namespace Cert.ReferenceIdeal.Val

open Idealize.ShloMosaic Idealize.ShloMosaic.TcCoe Idealize.SL.Sem Cert.ReferenceIdeal Idealize.ShloMosaic.StableHlo

variable {F : FTy → Type} [FloatOps F]

/-- The signature scopes no TensorCore buffer. -/
theorem scopedRefs_eq : (Finset.univ.filter fun b : Ref sig .tc => b.isScoped) = ∅ := by decide

/-- The signature scopes no semaphore. -/
theorem scopedSems_eq : (Finset.univ.filter fun sm : SemLoc sig => sm.isScoped .tc) = ∅ := by decide

/-! ## Every operation touches TensorCore references only

One fact per operation, in the order of its stretch; the three stretches' facts joined over the concatenation. -/

theorem ops1_sub : (ops1 : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., unary_bufs_sub ..,
    binary_bufs_sub .., nullary_bufs_sub .., binary_bufs_sub .., nullary_bufs_sub .., binary_bufs_sub .., binary_bufs_sub ..⟩

theorem ops2_sub : (ops2 : List (HloOp τ sig (Elt F))).Forall fun op => op.bufs ⊆ tcRefs τ sig :=
  ⟨binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub .., reshape_bufs_sub .., unary_bufs_sub ..,
    binary_bufs_sub .., nullary_bufs_sub .., binary_bufs_sub .., nullary_bufs_sub .., binary_bufs_sub .., binary_bufs_sub ..⟩

theorem ops3_sub : (ops3 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., unary_bufs_sub .., binary_bufs_sub .., binary_bufs_sub .., unary_bufs_sub ..,
    binary_bufs_sub .., unary_bufs_sub .., unary_bufs_sub .., unary_bufs_sub .., unary_bufs_sub .., binary_bufs_sub ..,
    ternary_bufs_sub .., unary_bufs_sub .., nullary_bufs_sub .., binary_bufs_sub .., unary_bufs_sub .., nullary_bufs_sub ..,
    binary_bufs_sub ..⟩

theorem ops_sub : (ops : List (HloOp τ sig (Elt F))).Forall fun op => op.bufs ⊆ tcRefs τ sig :=
  List.forall_append.2 ⟨List.forall_append.2 ⟨ops1_sub, ops2_sub⟩, ops3_sub⟩

/-! ## Every operation determines its results

No operation of the line leaves a buffer's contents unchosen: each one's set of such buffers is empty by definition. -/

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl⟩

theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

theorem ops_fresh : (ops : List (HloOp τ sig (Elt F))).Forall fun op => op.fresh = ∅ :=
  List.forall_append.2 ⟨List.forall_append.2 ⟨ops1_fresh, ops2_fresh⟩, ops3_fresh⟩

/-- On every device, for any float values, from any memory with zero counters: every weakly fair execution of @main on
    the TensorCores terminates, and every final state has each TensorCore buffer at the operations' fold over the
    launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after (ops (F := F)) (launchContents m c) (b : DevRef τ sig) :=
  run_seq scopedRefs_eq scopedSems_eq defs main (fun _ => ops) main_eq (fun _ => ops_sub) m ρ
    (fun _ => List.forall_iff_forall_mem.1 ops_fresh)

end Cert.ReferenceIdeal.Val

end
-- ==== Proof.RefRun.lean ====
/-
  The reference's run: @main is a straight line of host operations (its outlined functions opened at their calls), so
  every weakly fair execution terminates with each buffer at the operations' composed value of the arguments; the
  result buffer's value is the reference's term of the five arguments, and the arguments end unchanged.

  The line is read in its three stretches.  After the policy's stretch one buffer holds the policy's mean
  log-probabilities, a term of arguments 0, 3 and 2; the reference model's stretch leaves that buffer alone and puts the
  reference model's means, the same term of arguments 1, 4 and 2, in another; the last stretch writes the loss of the two.
  Each stretch's value is its operations' composition read off the fold, an outlined function's values carried between
  a buffer's type and the value's type by transports that are identities; no stretch writes an argument.
-/
import proofs.«414541_j71975061946952_2_alg».proof.ReferenceIdeal
import proofs.«414541_j71975061946952_2_alg».proof.Proof.Gen.ReferenceIdeal
import proofs.«414541_j71975061946952_2_alg».proof.Proof.RefTok
import proofs.«414541_j71975061946952_2_alg».proof.Proof.RefOps
import proofs.«414541_j71975061946952_2_alg».proof.Proof.RefSeq
import Idealize.ShloMosaic.Lib.StableHlo.Run
import Idealize.ShloMosaic.Lib.Tactic

noncomputable section

namespace Cert.ReferenceIdeal.Val

open Idealize.ShloMosaic Idealize.ShloMosaic.TcCoe Idealize.SL.Sem Cert.ReferenceIdeal Cert.ReferenceIdeal.Facts₀
  Idealize.ShloMosaic.StableHlo

variable {F : FTy → Type} [FloatOps F]

/-- Transport along an equation of a type with itself is the identity, as a rewriting step (so that a transport
    around a reduction over the whole class axis is removed by rewriting and never by unfolding the reduction). -/
theorem cast_self {α : Sort _} (h : α = α) (a : α) : cast h a = a := (cast_eq h a).trans rfl

/-- The fold over two lines in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ## The policy's stretch -/

set_option maxRecDepth 8192 in
set_option maxHeartbeats 1600000 in
/-- After the first stretch `main_v12` holds the policy's mean log-probabilities of the eight sequences. -/
theorem ops1_v12 (W : Valuation τ sig (Elt F)) :
    after ops1 W (Proc.devRef .tc main_v12)
      = Cert.Spec.meanOf reducesTo_S8x512_S8_d1 h_S_
          (refTok (W (Proc.devRef .tc main_arg0)) (W (Proc.devRef .tc main_arg3)) (W (Proc.devRef .tc main_arg2)))
          (Cert.Spec.maskf bcast_S_S8x512 (W (Proc.devRef .tc main_arg2)))
          (Cert.Spec.count bcast_S_S8x512 reducesTo_S8x512_S8_d1 h_S_ (W (Proc.devRef .tc main_arg2))) := by
  after_results_simp
  simp only [TRef.ofBuf, TRef.toBuf, cast_self]
  rfl

theorem ops1_arg0 (W : Valuation τ sig (Elt F)) :
    after ops1 W (Proc.devRef .tc main_arg0) = W (Proc.devRef .tc main_arg0) := by
  after_results_simp

theorem ops1_arg1 (W : Valuation τ sig (Elt F)) :
    after ops1 W (Proc.devRef .tc main_arg1) = W (Proc.devRef .tc main_arg1) := by
  after_results_simp

theorem ops1_arg2 (W : Valuation τ sig (Elt F)) :
    after ops1 W (Proc.devRef .tc main_arg2) = W (Proc.devRef .tc main_arg2) := by
  after_results_simp

theorem ops1_arg3 (W : Valuation τ sig (Elt F)) :
    after ops1 W (Proc.devRef .tc main_arg3) = W (Proc.devRef .tc main_arg3) := by
  after_results_simp

theorem ops1_arg4 (W : Valuation τ sig (Elt F)) :
    after ops1 W (Proc.devRef .tc main_arg4) = W (Proc.devRef .tc main_arg4) := by
  after_results_simp

/-! ## The reference model's stretch -/

set_option maxRecDepth 8192 in
set_option maxHeartbeats 1600000 in
/-- After the second stretch `main_v25` holds the reference model's mean log-probabilities. -/
theorem ops2_v25 (W : Valuation τ sig (Elt F)) :
    after ops2 W (Proc.devRef .tc main_v25)
      = Cert.Spec.meanOf reducesTo_S8x512_S8_d1 h_S_
          (refTok (W (Proc.devRef .tc main_arg1)) (W (Proc.devRef .tc main_arg4)) (W (Proc.devRef .tc main_arg2)))
          (Cert.Spec.maskf bcast_S_S8x512 (W (Proc.devRef .tc main_arg2)))
          (Cert.Spec.count bcast_S_S8x512 reducesTo_S8x512_S8_d1 h_S_ (W (Proc.devRef .tc main_arg2))) := by
  after_results_simp
  simp only [TRef.ofBuf, TRef.toBuf, cast_self]
  rfl

/-- The second stretch leaves the policy's means where they are. -/
theorem ops2_v12 (W : Valuation τ sig (Elt F)) :
    after ops2 W (Proc.devRef .tc main_v12) = W (Proc.devRef .tc main_v12) := by
  after_results_simp

theorem ops2_arg0 (W : Valuation τ sig (Elt F)) :
    after ops2 W (Proc.devRef .tc main_arg0) = W (Proc.devRef .tc main_arg0) := by
  after_results_simp

theorem ops2_arg1 (W : Valuation τ sig (Elt F)) :
    after ops2 W (Proc.devRef .tc main_arg1) = W (Proc.devRef .tc main_arg1) := by
  after_results_simp

theorem ops2_arg2 (W : Valuation τ sig (Elt F)) :
    after ops2 W (Proc.devRef .tc main_arg2) = W (Proc.devRef .tc main_arg2) := by
  after_results_simp

theorem ops2_arg3 (W : Valuation τ sig (Elt F)) :
    after ops2 W (Proc.devRef .tc main_arg3) = W (Proc.devRef .tc main_arg3) := by
  after_results_simp

theorem ops2_arg4 (W : Valuation τ sig (Elt F)) :
    after ops2 W (Proc.devRef .tc main_arg4) = W (Proc.devRef .tc main_arg4) := by
  after_results_simp

/-! ## The loss -/

set_option maxRecDepth 8192 in
set_option maxHeartbeats 1600000 in
/-- After the third stretch `main_v38` holds the loss of the two vectors of means. -/
theorem ops3_v38 (W : Valuation τ sig (Elt F)) :
    after ops3 W (Proc.devRef .tc main_v38)
      = Cert.Spec.lossTail slices_S8_S4_0 slices_S8_S4_4 bcast_S_S4 reducesTo_S4_S_d0 h_S_
          (W (Proc.devRef .tc main_v12)) (W (Proc.devRef .tc main_v25)) := by
  after_results_simp
  simp only [TRef.ofBuf, TRef.toBuf, cast_self]
  rfl

theorem ops3_arg0 (W : Valuation τ sig (Elt F)) :
    after ops3 W (Proc.devRef .tc main_arg0) = W (Proc.devRef .tc main_arg0) := by
  after_results_simp

theorem ops3_arg1 (W : Valuation τ sig (Elt F)) :
    after ops3 W (Proc.devRef .tc main_arg1) = W (Proc.devRef .tc main_arg1) := by
  after_results_simp

theorem ops3_arg2 (W : Valuation τ sig (Elt F)) :
    after ops3 W (Proc.devRef .tc main_arg2) = W (Proc.devRef .tc main_arg2) := by
  after_results_simp

theorem ops3_arg3 (W : Valuation τ sig (Elt F)) :
    after ops3 W (Proc.devRef .tc main_arg3) = W (Proc.devRef .tc main_arg3) := by
  after_results_simp

theorem ops3_arg4 (W : Valuation τ sig (Elt F)) :
    after ops3 W (Proc.devRef .tc main_arg4) = W (Proc.devRef .tc main_arg4) := by
  after_results_simp

/-! ## The whole line -/

/-- After @main the result buffer holds the reference's term of the five arguments. -/
theorem out_eq (V : Valuation τ sig (Elt F)) :
    after ops V (Proc.devRef .tc main_v38)
      = rTerm (V (Proc.devRef .tc main_arg0)) (V (Proc.devRef .tc main_arg1)) (V (Proc.devRef .tc main_arg2))
          (V (Proc.devRef .tc main_arg3)) (V (Proc.devRef .tc main_arg4)) := by
  show after ((ops1 ++ ops2) ++ ops3) V _ = _
  rw [after_app, after_app, ops3_v38, ops2_v12, ops2_v25, ops1_v12, ops1_arg1, ops1_arg2, ops1_arg4]
  rfl

theorem arg0_eq (V : Valuation τ sig (Elt F)) :
    after ops V (Proc.devRef .tc main_arg0) = V (Proc.devRef .tc main_arg0) := by
  show after ((ops1 ++ ops2) ++ ops3) V _ = _
  rw [after_app, after_app, ops3_arg0, ops2_arg0, ops1_arg0]

theorem arg1_eq (V : Valuation τ sig (Elt F)) :
    after ops V (Proc.devRef .tc main_arg1) = V (Proc.devRef .tc main_arg1) := by
  show after ((ops1 ++ ops2) ++ ops3) V _ = _
  rw [after_app, after_app, ops3_arg1, ops2_arg1, ops1_arg1]

theorem arg2_eq (V : Valuation τ sig (Elt F)) :
    after ops V (Proc.devRef .tc main_arg2) = V (Proc.devRef .tc main_arg2) := by
  show after ((ops1 ++ ops2) ++ ops3) V _ = _
  rw [after_app, after_app, ops3_arg2, ops2_arg2, ops1_arg2]

theorem arg3_eq (V : Valuation τ sig (Elt F)) :
    after ops V (Proc.devRef .tc main_arg3) = V (Proc.devRef .tc main_arg3) := by
  show after ((ops1 ++ ops2) ++ ops3) V _ = _
  rw [after_app, after_app, ops3_arg3, ops2_arg3, ops1_arg3]

theorem arg4_eq (V : Valuation τ sig (Elt F)) :
    after ops V (Proc.devRef .tc main_arg4) = V (Proc.devRef .tc main_arg4) := by
  show after ((ops1 ++ ops2) ++ ops3) V _ = _
  rw [after_app, after_app, ops3_arg4, ops2_arg4, ops1_arg4]

/-! ## The run -/

theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = rTerm (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c main_v38).trans (out_eq _), (h c main_arg0).trans (arg0_eq _), (h c main_arg1).trans (arg1_eq _),
      (h c main_arg2).trans (arg2_eq _), (h c main_arg3).trans (arg3_eq _), (h c main_arg4).trans (arg4_eq _)⟩) (run_all m ρ)

end Cert.ReferenceIdeal.Val

end
-- ==== Proof.RefValue.lean ====
/-
  The reference's per-token term, read at an index over the extended reals: the contraction is the logit, the
  reductions along the class axis are the row's maximum and its sum of shifted exponentials, and for a label in range
  the indexed read takes the entry at the label's class.

  Each stage is read at a token (b, t), or at (b, t, v) for a class v, by a small lemma over a variable of the stage's
  literal shape: the two reshapes and the two broadcasts move coordinates only; the indexed read is the row's entry at
  the start index, read signed and clamped into the class axis; for a class word below 32000 the sign test fails, the
  wrap leaves the word alone, both range tests hold and the clamp does nothing; the maximum along the class axis folded
  from minus infinity is the row's maximum, and the maximum with a further minus infinity changes nothing; the sum along
  the class axis from zero is the finite sum; the contraction over the hidden axis is the inner product of the token's
  hidden row and the class's weight row.
-/
import proofs.«414541_j71975061946952_2_alg».proof.Proof.RefTok
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.Val

open Idealize.ShloMosaic Idealize.ShloMosaic.ValueIdx Cert.ReferenceIdeal

namespace TokAt

section Layout
variable {α : Type}

/-- The reshape [8,512,1] → [8,512] reads (b, t, 0) at (b, t). -/
theorem squeeze_apply (v : S8x512x1.Idx → α) (h : S8x512x1.ShapeCasts S8x512) (b : Fin 8) (t : Fin 512) :
    shapeCast S8x512 v h (ix2 b t) = v (ix3 b t (0 : Fin 1)) := by
  refine shapeCast_apply v h (ix2 b t) (ix3 b t (0 : Fin 1)) ?_
  rw [Shape.rowMajor_val_three, Shape.rowMajor_val_two]
  show (b.val * 512 + t.val) * 1 + 0 = b.val * 512 + t.val
  omega

/-- The reshape [8,512,1] → [8,512,1,1] reads (b, t, 0) at (b, t, 0, 0). -/
theorem unsqueeze_apply (v : S8x512x1.Idx → α) (h : S8x512x1.ShapeCasts S8x512x1x1) (b : Fin 8) (t : Fin 512) :
    shapeCast S8x512x1x1 v h (ix4 b t (0 : Fin 1) (0 : Fin 1)) = v (ix3 b t (0 : Fin 1)) := by
  refine shapeCast_apply v h (ix4 b t (0 : Fin 1) (0 : Fin 1)) (ix3 b t (0 : Fin 1)) ?_
  rw [Shape.rowMajor_val_three, Shape.rowMajor_val_four]
  show (b.val * 512 + t.val) * 1 + 0 = ((b.val * 512 + t.val) * 1 + 0) * 1 + 0
  omega

/-- The broadcast [8,512] → [8,512,1] along axes 0, 1 reads (b, t) at (b, t, 0). -/
theorem keepdims_apply (v : S8x512.Idx → α) (h : S8x512.BroadcastsInDim S8x512x1 (![0, 1] : Fin 2 → Fin S8x512x1.rank))
    (b : Fin 8) (t : Fin 512) :
    broadcastInDim S8x512x1 ![0, 1] h v (ix3 b t (0 : Fin 1)) = v (ix2 b t) := by
  refine broadcastInDim_apply _ h v _ (ix2 b t) fun a => ?_
  match a with
  | ⟨0, _⟩ => rfl
  | ⟨1, _⟩ => rfl

/-- The broadcast [8,512,1] → [8,512,32000] reads (b, t, 0) at (b, t, v). -/
theorem row_apply (u : S8x512x1.Idx → α) (h : S8x512x1.BroadcastsInDim S8x512x32000 (![0, 1, 2] : Fin 3 → Fin S8x512x32000.rank))
    (b : Fin 8) (t : Fin 512) (v : Fin 32000) :
    broadcastInDim S8x512x32000 ![0, 1, 2] h u (ix3 b t v) = u (ix3 b t (0 : Fin 1)) := by
  refine broadcastInDim_apply _ h u _ (ix3 b t (0 : Fin 1)) fun a => ?_
  match a with
  | ⟨0, _⟩ => rfl
  | ⟨1, _⟩ => rfl
  | ⟨2, _⟩ => rfl

end Layout

section Gather
variable {α : Type}

/-- The reference's indexed read: batched over the two token axes, one start component on the class axis. -/
abbrev GD := gather_S8x512x32000_S8x512x1x1_S8x512x1_n_2_01_01_2_3_111

theorem GD_axis0 {w : Nat} (st : IVec S8x512x1x1 w) (b : Fin 8) (t : Fin 512) :
    (GD.operandIdx (ix3 b t (0 : Fin 1)) st (0 : Fin S8x512x32000.rank)).val = b.val := by
  show GD.start (ix3 b t (0 : Fin 1)) st 0 + GD.batchCoord (ix3 b t (0 : Fin 1)) 0 + GD.offCoord (ix3 b t (0 : Fin 1)) 0 = b.val
  rw [GD.start_batching _ _ _ (by decide), GD.offCoord_eq_zero _ _ (by decide)]
  unfold GatherDims.batchCoord
  rw [dif_pos (by decide)]
  show 0 + b.val + 0 = b.val
  omega

theorem GD_axis1 {w : Nat} (st : IVec S8x512x1x1 w) (b : Fin 8) (t : Fin 512) :
    (GD.operandIdx (ix3 b t (0 : Fin 1)) st (1 : Fin S8x512x32000.rank)).val = t.val := by
  show GD.start (ix3 b t (0 : Fin 1)) st 1 + GD.batchCoord (ix3 b t (0 : Fin 1)) 1 + GD.offCoord (ix3 b t (0 : Fin 1)) 1 = t.val
  rw [GD.start_batching _ _ _ (by decide), GD.offCoord_eq_zero _ _ (by decide)]
  unfold GatherDims.batchCoord
  rw [dif_pos (by decide)]
  show 0 + t.val + 0 = t.val
  omega

theorem GD_axis2 {w : Nat} (st : IVec S8x512x1x1 w) (b : Fin 8) (t : Fin 512) :
    (GD.operandIdx (ix3 b t (0 : Fin 1)) st (2 : Fin S8x512x32000.rank)).val
      = min (st (ix4 b t (0 : Fin 1) (0 : Fin 1))).toInt.toNat 31999 := by
  show GD.start (ix3 b t (0 : Fin 1)) st 2 + GD.batchCoord (ix3 b t (0 : Fin 1)) 2 + GD.offCoord (ix3 b t (0 : Fin 1)) 2 = _
  rw [GD.batchCoord_eq_zero _ _ (by decide), GD.offCoord_eq_zero _ _ (by decide)]
  unfold GatherDims.start
  rw [dif_pos (by decide)]
  have hsi : GD.siIdx (ix3 b t (0 : Fin 1)) ⟨List.idxOf (2 : Fin S8x512x32000.rank) GD.startIndexMap,
      List.idxOf_lt_length_iff.2 (by decide)⟩ = ix4 b t (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The indexed read at token (b, t): the row's entry at the start index, read signed and clamped into the class axis. -/
theorem gather_apply {w : Nat} (lp : S8x512x32000.Idx → α) (st : IVec S8x512x1x1 w) (b : Fin 8) (t : Fin 512) :
    Host.gather GD lp st (ix3 b t (0 : Fin 1))
      = lp (ix3 b t (⟨min (st (ix4 b t (0 : Fin 1) (0 : Fin 1))).toInt.toNat 31999, by omega⟩ : Fin 32000)) := by
  unfold Host.gather
  congr 1
  funext a
  refine Fin.ext ?_
  match a with
  | ⟨0, _⟩ => exact GD_axis0 st b t
  | ⟨1, _⟩ => exact GD_axis1 st b t
  | ⟨2, _⟩ => exact GD_axis2 st b t

end Gather

section Words

/-- A fold of `and` over one-bit words from 1 is 1 when every word is 1. -/
theorem fold_andi_one {ι : Type} [DecidableEq ι] (S : Finset ι) (g : ι → BitVec 1) (hg : ∀ k ∈ S, g k = 1#1) :
    S.fold IntOp.andi 1#1 g = 1#1 := by
  induction S using Finset.induction_on with
  | empty => rfl
  | insert a S ha ih =>
    rw [Finset.fold_insert ha, hg a (Finset.mem_insert_self a S), ih (fun k hk => hg k (Finset.mem_insert_of_mem hk))]
    rfl

/-- A class index below 32000 is not negative as a signed word. -/
theorem word_not_neg (ℓ : BitVec 32) (h : ℓ.toNat < 32000) : IntOp.cmpi .slt ℓ 0#32 = 0#1 := by
  refine eq_zero_of_ne_one fun h1 => ?_
  have := (StableHlo.Predicate.slt_iff_toNat (a := ℓ) (b := 0#32) (by omega) (by decide)).1 h1
  simp at this

/-- So the axis length is never added to it: the wrapped index is the word itself. -/
theorem word_wrap (ℓ : BitVec 32) (h : ℓ.toNat < 32000) :
    Scalar.select (IntOp.cmpi .slt ℓ 0#32) (IntOp.addi ℓ 32000#32) ℓ = ℓ := by
  rw [word_not_neg ℓ h, select_zero]

/-- It is at least 0 … -/
theorem word_ge (ℓ : BitVec 32) (h : ℓ.toNat < 32000) : IntOp.cmpi .sge ℓ 0#32 = 1#1 :=
  (StableHlo.Predicate.sge_iff_toNat (a := ℓ) (b := 0#32) (by omega) (by decide)).2 (by simp)

/-- … and at most 31999. -/
theorem word_le (ℓ : BitVec 32) (h : ℓ.toNat < 32000) : IntOp.cmpi .sle ℓ 31999#32 = 1#1 :=
  (StableHlo.Predicate.sle_iff_toNat (a := ℓ) (b := 31999#32) (by omega) (by decide)).2 (by
    show ℓ.toNat ≤ 31999; omega)

/-- Read signed and clamped into the class axis it is its own value. -/
theorem word_clamp (ℓ : BitVec 32) (h : ℓ.toNat < 32000) : min ℓ.toInt.toNat 31999 = ℓ.toNat := by
  rw [StableHlo.Predicate.toInt_eq_toNat_of_lt (a := ℓ) (by omega), Int.toNat_natCast]
  omega

end Words

section InBounds

/-- The `and` over the unit index-vector axis at token (b, t) is 1 when its one word is. -/
theorem inb_apply (p : IVec S8x512x1x1 1) (hr : S8x512x1x1.ReducesTo [3] S8x512x1) (hu : 0 < S_.numel) (b : Fin 8) (t : Fin 512)
    (hp : p (ix4 b t (0 : Fin 1) (0 : Fin 1)) = 1#1) :
    Host.reduce IntOp.andi p (constantI S_ 1 1#1) hr hu (ix3 b t (0 : Fin 1)) = 1#1 := by
  have h : S8x512x1x1.Reduces [3] S8x512x1 := by decide
  rw [Host.reduce_eq_fold_single IntOp.andi p _ hr h hu]
  refine fold_andi_one _ _ (fun k _ => ?_)
  have hk : h.lift (ix3 b t (0 : Fin 1)) k = ix4 b t (0 : Fin 1) (0 : Fin 1) := by
    funext c; refine Fin.ext ?_
    match c with
    | ⟨0, _⟩ => rfl
    | ⟨1, _⟩ => rfl
    | ⟨2, _⟩ => rfl
    | ⟨3, _⟩ =>
      have hlt : k.val < 1 := k.isLt
      show k.val = 0
      omega
  show p (h.lift (ix3 b t (0 : Fin 1)) k) = 1#1
  rw [hk]; exact hp

end InBounds

section ClassAxis

/-- The index over token (b, t) with class c inserted on the reduced axis. -/
theorem lift_class (h : S8x512x32000.Reduces [2] S8x512) (b : Fin 8) (t : Fin 512) (c : Fin 32000) :
    h.lift (ix2 b t) c = ix3 b t c := by
  funext a; refine Fin.ext ?_
  match a with
  | ⟨0, _⟩ => rfl
  | ⟨1, _⟩ => rfl
  | ⟨2, _⟩ => rfl

/-- The bit pattern of minus infinity is the bottom of the extended reals. -/
theorem ofBits_neg_inf : Ideal.ofBits .f32 0xFF800000#32 = ⊥ := by simp [Ideal.ofBits, Ideal.ieee]

/-- The maximum along the class axis, from minus infinity, is the row's maximum. -/
theorem max_reduce_apply (L : FVec Ideal S8x512x32000 .f32) (hr : S8x512x32000.ReducesTo [2] S8x512) (hu : 0 < S_.numel)
    (b : Fin 8) (t : Fin 512) :
    Host.reduce FloatOps.maximumf L (constant (F := Ideal) S_ .f32 0xFF800000#32) hr hu (ix2 b t)
      = Cert.Spec.rowMax (fun c => L (ix3 b t c)) := by
  have h : S8x512x32000.Reduces [2] S8x512 := by decide
  rw [Host.reduce_eq_fold_single FloatOps.maximumf L _ hr h hu]
  show (Finset.univ : Finset (Fin 32000)).fold max (Ideal.ofBits .f32 0xFF800000#32) (L ∘ h.lift (ix2 b t)) = _
  rw [ofBits_neg_inf]
  unfold Cert.Spec.rowMax
  congr 1
  funext c
  exact congrArg L (lift_class h b t c)

/-- The sum along the class axis, from zero. -/
theorem sum_reduce_apply (E : FVec Ideal S8x512x32000 .f32) (hr : S8x512x32000.ReducesTo [2] S8x512) (hu : 0 < S_.numel)
    (b : Fin 8) (t : Fin 512) :
    Host.reduceAdd (F := Ideal) E (constant (F := Ideal) S_ .f32 0x00000000#32) hr hu (ix2 b t)
      = ∑ c : Fin 32000, E (ix3 b t c) := by
  have h : S8x512x32000.Reduces [2] S8x512 := by decide
  show Ideal.hostReduceAdd hr E (Ideal.ofBits .f32 0x00000000#32) (ix2 b t) = _
  rw [Ideal.hostReduceAdd_single hr h, Ideal.ofBits_zero_f32, zero_add]
  show ∑ c : Fin 32000, E (h.lift (ix2 b t) c) = _
  exact Finset.sum_congr rfl fun c _ => congrArg E (lift_class h b t c)

end ClassAxis

section Contraction

/-- The reference's product: the hidden axis of both operands contracted. -/
abbrev DD := dot_S8x512x4096_S32000x4096_S8x512x32000_2_1_01_0_n_n

theorem DD_lhs0 (j : S8x512x32000.Idx) (q : DD.contr.Idx) :
    (DD.lhsIdx j q (0 : Fin S8x512x4096.rank)).val = (j 0).val := rfl
theorem DD_lhs1 (j : S8x512x32000.Idx) (q : DD.contr.Idx) :
    (DD.lhsIdx j q (1 : Fin S8x512x4096.rank)).val = (j 1).val := rfl
theorem DD_lhs2 (j : S8x512x32000.Idx) (q : DD.contr.Idx) :
    (DD.lhsIdx j q (2 : Fin S8x512x4096.rank)).val = (q ⟨0, by decide⟩).val :=
  DD.lhsIdx_val_of_single rfl j q
theorem DD_rhs0 (j : S8x512x32000.Idx) (q : DD.contr.Idx) :
    (DD.rhsIdx j q (0 : Fin S32000x4096.rank)).val = (j 2).val := rfl
theorem DD_rhs1 (j : S8x512x32000.Idx) (q : DD.contr.Idx) :
    (DD.rhsIdx j q (1 : Fin S32000x4096.rank)).val = (q ⟨0, by decide⟩).val :=
  DD.rhsIdx_val_of_single rfl j q

/-- The product at (b, t, v): the inner product of the token's hidden row and the class's weight row. -/
theorem dot_apply (x : FVec Ideal S8x512x4096 .f32) (w : FVec Ideal S32000x4096 .f32) (b : Fin 8) (t : Fin 512) (v : Fin 32000) :
    Host.dotGeneral (F := Ideal) DD none x w (ix3 b t v) = ∑ k : Fin 4096, x (ix3 b t k) * w (ix2 v k) := by
  show FloatOps.dotGeneral DD none .single x w (ix3 b t v) = _
  rw [Ideal.dotGeneral_apply]
  refine (Equiv.sum_comp (contrEquiv1 DD 4096 rfl rfl).symm _).symm.trans ?_
  refine Finset.sum_congr rfl fun k _ => ?_
  have hk : (((contrEquiv1 DD 4096 rfl rfl).symm k) ⟨0, by decide⟩ : ℕ) = k.val := contrEquiv1_symm_val DD 4096 rfl rfl k
  have hl : DD.lhsIdx (ix3 b t v) ((contrEquiv1 DD 4096 rfl rfl).symm k) = ix3 b t k := by
    funext a; refine Fin.ext ?_
    match a with
    | ⟨0, _⟩ => exact DD_lhs0 _ _
    | ⟨1, _⟩ => exact DD_lhs1 _ _
    | ⟨2, _⟩ => exact (DD_lhs2 _ _).trans hk
  have hr : DD.rhsIdx (ix3 b t v) ((contrEquiv1 DD 4096 rfl rfl).symm k) = ix2 v k := by
    funext a; refine Fin.ext ?_
    match a with
    | ⟨0, _⟩ => exact DD_rhs0 _ _
    | ⟨1, _⟩ => exact (DD_rhs1 _ _).trans hk
  rw [hl, hr]

end Contraction

section LogSoftmax
open Cert.ReferenceIdeal.Facts₀

/-- The host's exponential and logarithm at an index are the extended reals'. -/
theorem hostExp_apply {s : Shape} (X : FVec Ideal s .f32) (i : s.Idx) : Host.exp X i = Ideal.exp (X i) := rfl
theorem hostLog_apply {s : Shape} (X : FVec Ideal s .f32) (i : s.Idx) : Host.log X i = Ideal.log (X i) := rfl

/-- A row's logits minus a per-token value broadcast along the class axis. -/
theorem shift_apply (L : FVec Ideal S8x512x32000 .f32) (m : FVec Ideal S8x512 .f32)
    (h1 : S8x512.BroadcastsInDim S8x512x1 (![0, 1] : Fin 2 → Fin S8x512x1.rank))
    (h2 : S8x512x1.BroadcastsInDim S8x512x32000 (![0, 1, 2] : Fin 3 → Fin S8x512x32000.rank))
    (b : Fin 8) (t : Fin 512) (c : Fin 32000) :
    subf L (broadcastInDim S8x512x32000 ![0, 1, 2] h2 (broadcastInDim S8x512x1 ![0, 1] h1 m)) (ix3 b t c)
      = L (ix3 b t c) - m (ix2 b t) := by
  rw [subf_apply, row_apply, keepdims_apply]

/-- The maximum with the broadcast minus infinity changes nothing: the per-token shift is the row's maximum. -/
theorem rowmax_apply (L : FVec Ideal S8x512x32000 .f32) (hb : S_.BroadcastsInDim S8x512 (![] : Fin 0 → Fin S8x512.rank))
    (hr : S8x512x32000.ReducesTo [2] S8x512) (hu : 0 < S_.numel) (b : Fin 8) (t : Fin 512) :
    maximumf (broadcastInDim S8x512 ![] hb (constant (F := Ideal) S_ .f32 0xFF800000#32))
        (Host.reduce FloatOps.maximumf L (constant (F := Ideal) S_ .f32 0xFF800000#32) hr hu) (ix2 b t)
      = Cert.Spec.rowMax (fun c => L (ix3 b t c)) := by
  rw [maximumf_apply, max_reduce_apply]
  show max (Ideal.ofBits .f32 0xFF800000#32) _ = _
  rw [ofBits_neg_inf]
  exact max_bot_left _

/-- The shifted logits minus the log of the sum of their exponentials, for any per-token shift. -/
theorem lsm_core (L : FVec Ideal S8x512x32000 .f32) (m : FVec Ideal S8x512 .f32)
    (h1 : S8x512.BroadcastsInDim S8x512x1 (![0, 1] : Fin 2 → Fin S8x512x1.rank))
    (h2 : S8x512x1.BroadcastsInDim S8x512x32000 (![0, 1, 2] : Fin 3 → Fin S8x512x32000.rank))
    (hr : S8x512x32000.ReducesTo [2] S8x512) (hu : 0 < S_.numel) (b : Fin 8) (t : Fin 512) (v : Fin 32000) :
    subf (subf L (broadcastInDim S8x512x32000 ![0, 1, 2] h2 (broadcastInDim S8x512x1 ![0, 1] h1 m)))
        (broadcastInDim S8x512x32000 ![0, 1, 2] h2 (Host.log (broadcastInDim S8x512x1 ![0, 1] h1
          (Host.reduceAdd (F := Ideal)
            (Host.exp (subf L (broadcastInDim S8x512x32000 ![0, 1, 2] h2 (broadcastInDim S8x512x1 ![0, 1] h1 m))))
            (constant (F := Ideal) S_ .f32 0x00000000#32) hr hu)))) (ix3 b t v)
      = (L (ix3 b t v) - m (ix2 b t)) - Ideal.log (∑ c : Fin 32000, Ideal.exp (L (ix3 b t c) - m (ix2 b t))) := by
  rw [subf_apply, shift_apply, row_apply, hostLog_apply, keepdims_apply, sum_reduce_apply]
  exact congrArg (fun s => L (ix3 b t v) - m (ix2 b t) - Ideal.log s)
    (Finset.sum_congr rfl fun c _ => by rw [hostExp_apply, shift_apply])

/-- The log-softmax along the class axis at (b, t, v) is the row's log-softmax at class v. -/
theorem logSoftmax_apply (L : FVec Ideal S8x512x32000 .f32) (b : Fin 8) (t : Fin 512) (v : Fin 32000) :
    logSoftmax L (ix3 b t v) = Cert.Spec.lsm (fun c => L (ix3 b t c)) v := by
  unfold logSoftmax
  dsimp only
  rw [lsm_core, rowmax_apply]
  rfl

end LogSoftmax

section Take
open Cert.ReferenceIdeal.Facts₀
variable {F : FTy → Type} [FloatOps F]

/-- The in-bounds test, the indexed read and the select at token (b, t), for a start index in the class axis: the row's
    entry at that class. -/
theorem take_core (lp : FVec F S8x512x32000 .f32) (st : IVec S8x512x1x1 32)
    (h0 : S_.BroadcastsInDim S8x512x1x1 (![] : Fin 0 → Fin S8x512x1x1.rank))
    (h1 : S1.BroadcastsInDim S1x1x1x1 (![3] : Fin 1 → Fin S1x1x1x1.rank))
    (h4 : S1x1x1x1.BroadcastsInDim S8x512x1x1 (![0, 1, 2, 3] : Fin 4 → Fin S8x512x1x1.rank))
    (hn : S_.BroadcastsInDim S8x512x1 (![] : Fin 0 → Fin S8x512x1.rank))
    (hr : S8x512x1x1.ReducesTo [3] S8x512x1) (hu : 0 < S_.numel) (b : Fin 8) (t : Fin 512)
    (hℓ : (st (ix4 b t (0 : Fin 1) (0 : Fin 1))).toNat < 32000) :
    select (Host.reduce IntOp.andi
          (andi (cmpi .sge st (broadcastInDim S8x512x1x1 ![] h0 (constantI S_ 32 0#32)))
            (cmpi .sle st (broadcastInDim S8x512x1x1 ![0, 1, 2, 3] h4 (broadcastInDim S1x1x1x1 ![3] h1 (constantI S1 32 31999#32)))))
          (constantI S_ 1 1#1) hr hu)
        (Host.gather GD lp st) (broadcastInDim S8x512x1 ![] hn (constant S_ .f32 0x7FC00000#32)) (ix3 b t (0 : Fin 1))
      = lp (ix3 b t (⟨(st (ix4 b t (0 : Fin 1) (0 : Fin 1))).toNat, hℓ⟩ : Fin 32000)) := by
  have hp : andi (cmpi .sge st (broadcastInDim S8x512x1x1 ![] h0 (constantI S_ 32 0#32)))
      (cmpi .sle st (broadcastInDim S8x512x1x1 ![0, 1, 2, 3] h4 (broadcastInDim S1x1x1x1 ![3] h1 (constantI S1 32 31999#32))))
      (ix4 b t (0 : Fin 1) (0 : Fin 1)) = 1#1 := by
    show IntOp.andi (IntOp.cmpi .sge (st (ix4 b t (0 : Fin 1) (0 : Fin 1))) 0#32)
      (IntOp.cmpi .sle (st (ix4 b t (0 : Fin 1) (0 : Fin 1))) 31999#32) = 1#1
    rw [word_ge _ hℓ, word_le _ hℓ]
    rfl
  rw [select_apply, inb_apply _ hr hu b t hp, select_one, gather_apply]
  exact congrArg (fun c => lp (ix3 b t c)) (Fin.ext (word_clamp _ hℓ))

/-- The entry of token (b, t)'s row at its index, for an index in the class axis. -/
theorem takeAlong_apply (lp : FVec F S8x512x32000 .f32) (idx : IVec S8x512x1 32) (b : Fin 8) (t : Fin 512)
    (hℓ : (idx (ix3 b t (0 : Fin 1))).toNat < 32000) :
    takeAlong lp idx (ix3 b t (0 : Fin 1)) = lp (ix3 b t (⟨(idx (ix3 b t (0 : Fin 1))).toNat, hℓ⟩ : Fin 32000)) := by
  unfold takeAlong
  dsimp only
  have hst : shapeCast S8x512x1x1
      (select (cmpi .slt idx (broadcastInDim S8x512x1 ![] bcast_S_S8x512x1 (constantI S_ 32 0#32)))
        (addi idx (broadcastInDim S8x512x1 ![] bcast_S_S8x512x1 (constantI S_ 32 32000#32))) idx)
      shapeCasts_S8x512x1_S8x512x1x1 (ix4 b t (0 : Fin 1) (0 : Fin 1)) = idx (ix3 b t (0 : Fin 1)) := by
    rw [unsqueeze_apply, select_apply]
    exact word_wrap _ hℓ
  rw [take_core lp _ _ _ _ _ _ _ b t (by rw [hst]; exact hℓ)]
  exact congrArg (fun c => lp (ix3 b t c)) (Fin.ext (congrArg BitVec.toNat hst))

end Take

section Labels

/-- The class word of a label (class 0 at the ignored word) is in the class axis, and is the class the label selects. -/
theorem label_word (yj : BitVec 32) (h : yj = 4294967196#32 ∨ yj.toNat < 32000) :
    (Scalar.select (IntOp.cmpi .ne yj 4294967196#32) yj 0#32).toNat < 32000 ∧
    (Scalar.select (IntOp.cmpi .ne yj 4294967196#32) yj 0#32).toNat = (Cert.Spec.cls yj).val := by
  by_cases hy : yj = 4294967196#32
  · subst hy
    exact ⟨by decide, by decide⟩
  · have hlt := h.resolve_left hy
    have hc : IntOp.cmpi .ne yj 4294967196#32 = 1#1 := by
      unfold IntOp.cmpi
      exact (StableHlo.Predicate.ofBool_eq_one_iff _).2 (bne_iff_ne.2 hy)
    rw [hc, select_one]
    refine ⟨hlt, ?_⟩
    unfold Cert.Spec.cls
    simp only [if_neg hy]
    exact (Nat.mod_eq_of_lt hlt).symm

end Labels

end TokAt

open TokAt

open Cert.ReferenceIdeal.Facts₀ in
/-- Every token's term of the reference is its label's class's log-softmax of the token's row of logits. -/
theorem refTok_eq (x : S8x512x4096.Idx → EReal) (w : S32000x4096.Idx → EReal) (y : IVec S8x512 32)
    (hx : ∀ i, ∃ r : ℝ, x i = (r : EReal)) (hw : ∀ i, ∃ r : ℝ, w i = (r : EReal))
    (hlab : ∀ j, y j = 4294967196#32 ∨ (y j).toNat < 32000) :
    refTok (F := Ideal) x w y = Cert.Spec.tokArr x w y := by
  funext j
  obtain ⟨b, t, rfl⟩ : ∃ (b : Fin 8) (t : Fin 512), j = ix2 b t := ⟨j 0, j 1, eq_ix2 j⟩
  unfold refTok
  rw [squeeze_apply]
  -- the index word at (b, t): the label where kept, the zero word at the ignored label
  have hidx : broadcastInDim S8x512x1 ![0, 1] bcast_S8x512_S8x512x1_0_1 (Cert.Spec.labels bcast_S_S8x512 y) (ix3 b t (0 : Fin 1))
      = Scalar.select (IntOp.cmpi .ne (y (ix2 b t)) 4294967196#32) (y (ix2 b t)) 0#32 :=
    keepdims_apply _ _ b t
  obtain ⟨hlt, hcls⟩ := label_word (y (ix2 b t)) (hlab (ix2 b t))
  rw [takeAlong_apply _ _ b t (by rw [hidx]; exact hlt), logSoftmax_apply]
  show _ = Cert.Spec.lsm (Cert.Spec.logit x w b t) (Cert.Spec.cls (y (ix2 b t)))
  congr 1
  · funext c
    exact dot_apply x w b t c
  · exact Fin.ext ((congrArg BitVec.toNat hidx).trans hcls)

end Cert.ReferenceIdeal.Val

end
-- ==== Proof.lean ====
/-
  The certificate's five claims.

  Both programs compute, from hidden states x (policy) and ref_x (reference model), weights W and ref_W, and labels y:
  per token the log-softmax of its 32000 logits at its label's class; per sequence the mean of those over the kept
  tokens; then a preference loss.  The kernel takes the log-softmax one block of 1280 classes at a time, carrying a
  running maximum, a rescaled running sum of exponentials and the label's logit, and divides by the kept count guarded
  from below by one; the reference takes the whole row at once and divides by the plain count.  Under the precondition
  (finite floats; every label -100 or a class below 32000; every sequence keeps a label) the carried state after the
  last block is the row's log-softmax at the label's class, and the guard does not bind, so the two results are one
  term of the arguments.
-/
import proofs.«414541_j71975061946952_2_alg».proof.Defs
import proofs.«414541_j71975061946952_2_alg».proof.Proof.Gen.Kernel
import proofs.«414541_j71975061946952_2_alg».proof.Proof.Gen.Kernel.Frame
import proofs.«414541_j71975061946952_2_alg».proof.Proof.Gen.KernelIdeal
import proofs.«414541_j71975061946952_2_alg».proof.Proof.Gen.KernelIdeal.Frame
import proofs.«414541_j71975061946952_2_alg».proof.Proof.Gen.ReferenceIdeal
import proofs.«414541_j71975061946952_2_alg».proof.Proof.Gen.Pre_finite_inputs
import proofs.«414541_j71975061946952_2_alg».proof.Proof.PreFacts
import proofs.«414541_j71975061946952_2_alg».proof.Proof.KRun
import proofs.«414541_j71975061946952_2_alg».proof.Proof.KValue
import proofs.«414541_j71975061946952_2_alg».proof.Proof.KTokDen
import proofs.«414541_j71975061946952_2_alg».proof.Proof.RefRun
import proofs.«414541_j71975061946952_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments. -/
theorem frame_ri : Cert.frame_ReferenceIdeal := fun m ρ _ =>
  (θ_run Cert.ReferenceIdeal.defs _ _).mono (fun _ h c => (h c).2) (Cert.ReferenceIdeal.Val.reference_run (F := Ideal) m ρ)

/-- Under the precondition the kernel program's term of its result array and labels is the reference's term of the
    arguments: the result array holds every token's log-probability, each plane of it is one model's tokens, and the
    guarded count is the count. -/
theorem kernel_term_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Val.kTerm (F := Ideal) ((Cert.KernelIdeal.Gen.dats m 0 c).arrAt 3 Cert.KernelIdeal.cfg0.N) (m ((c.tc : Thread Cert.KernelIdeal.nD Cert.KernelIdeal.τ).loc Cert.KernelIdeal.main_arg2))
      = Cert.ReferenceIdeal.Val.rTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  have hd := Cert.PreFacts.decode _ _ _ _ _ (hpre c)
  rw [Cert.KernelIdeal.Val.out_array m c hd]
  unfold Cert.KernelIdeal.Val.kTerm Cert.ReferenceIdeal.Val.rTerm
  rw [Cert.KernelIdeal.Val.kTok0_outArr, Cert.KernelIdeal.Val.kTok1_outArr, Cert.KernelIdeal.Val.kDen_eq _ hd.row_kept,
    Cert.ReferenceIdeal.Val.refTok_eq _ _ _ hd.x_real hd.w_real hd.lab_range,
    Cert.ReferenceIdeal.Val.refTok_eq _ _ _ hd.xr_real hd.wr_real hd.lab_range]

theorem algebraic : Cert.algebraic_KernelIdeal_ReferenceIdeal := by
  intro m ρ m' ρ' hpre hagree
  refine ⟨fun c => Cert.ReferenceIdeal.Val.rTerm (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c => ⟨(h c).1.trans (kernel_term_eq m hpre c), (h c).2⟩)
      (Cert.KernelIdeal.Val.kernel_run (F := Ideal) m ρ)
  · refine (θ_run Cert.ReferenceIdeal.defs _ _).mono (fun _ h c => ⟨(h c).1.trans ?_, (h c).2⟩)
      (Cert.ReferenceIdeal.Val.reference_run (F := Ideal) m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
